-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32768 : S_.BroadcastsInDim S4096x32768 (![] : Fin 0 → Fin S4096x32768.rank)
  reducesTo_S4096x32768_S_d0_1 : S4096x32768.ReducesTo [0, 1] S_
  bcast_S_S32768x256 : S_.BroadcastsInDim S32768x256 (![] : Fin 0 → Fin S32768x256.rank)
  reducesTo_S32768x256_S_d0_1 : S32768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S256x4096 .f32) (main_arg1 : FVec F S4096x4096 .f32) (main_arg2 : FVec F S4096x32768 .f32) (main_arg3 : FVec F S32768x256 .f32) (main_arg4 : FVec F S256x256 .f32) (main_arg5 : FVec F S256 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32768 .f32 := Host.absf main_arg2
  let main_cst_2 : FVec F S_ .f32 := constant S_ .f32 0x7F800000#32
  let main_v10 : FVec F S4096x32768 .f32 := broadcastInDim S4096x32768 ![] bcast_S_S4096x32768 main_cst_2
  let main_v11 : IVec S4096x32768 1 := cmpf .olt main_v9 main_v10
  let main_c_3 : IVec S_ 1 := constantI S_ 1 1#1
  let main_v12 : IVec S_ 1 := (fun x v => Host.reduce IntOp.andi x v reducesTo_S4096x32768_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_v13 main_v16
-- ==== Kernel.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S256x1024 : Shape := ⟨2, ![256, 1024]⟩
abbrev S1024x1024 : Shape := ⟨2, ![1024, 1024]⟩
abbrev S1x256 : Shape := ⟨2, ![1, 256]⟩
abbrev S4096x512 : Shape := ⟨2, ![4096, 512]⟩
abbrev S512x256 : Shape := ⟨2, ![512, 256]⟩
abbrev S256x1 : Shape := ⟨2, ![256, 1]⟩
abbrev S256x512 : Shape := ⟨2, ![256, 512]⟩

abbrev nBuf : Space → Nat
  | .hbm => 9
  | .vmem => 17
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x32768, .f32⟩
  | .hbm, ⟨3, _⟩ => ⟨S32768x256, .f32⟩
  | .hbm, ⟨4, _⟩ => ⟨S256x256, .f32⟩
  | .hbm, ⟨5, _⟩ => ⟨S256, .f32⟩
  | .hbm, ⟨6, _⟩ => ⟨S256x4096, .f32⟩
  | .hbm, ⟨7, _⟩ => ⟨S1x256, .f32⟩
  | .hbm, ⟨8, _⟩ => ⟨S256x256, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x4096, .f32⟩
  | .local _ .vmem, ⟨8, _⟩ => ⟨S4096x512, .f32⟩
  | .local _ .vmem, ⟨9, _⟩ => ⟨S4096x512, .f32⟩
  | .local _ .vmem, ⟨10, _⟩ => ⟨S512x256, .f32⟩
  | .local _ .vmem, ⟨11, _⟩ => ⟨S512x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_22 : BitVec 32 := 0#32
  let v39 : BitVec 1 := Scalar.cmpi .ne v38 c0_i32_22
  v39

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  natLt_1_32 : 1 < 32
  reduces_S256x512_S256 : S256x512.Reduces [1] S256
  shapeCasts_S256_S256x1 : S256.ShapeCasts S256x1
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  broadcasts_S256x1_S256x256 : S256x1.Broadcasts S256x256
  dot_S256x1024_S1024x1024_S256x1024_1_0_0_1_n_n_wf : DotDims.WF S256x1024 S1024x1024 S256x1024 [1] [0] [0] [1] [] []
  dot_S256x4096_S4096x512_S256x512_1_0_0_1_n_n_wf : DotDims.WF S256x4096 S4096x512 S256x512 [1] [0] [0] [1] [] []
  dot_S512x256_S256x256_S512x256_1_0_0_1_n_n_wf : DotDims.WF S512x256 S256x256 S512x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .f32 = 32 ∨ (Rect.block (s := S256x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x32768.size a
  hwx1_1 : ∀ i : grid1.Coords, EltTy.bits .f32 = 32 ∨ (Rect.block (s := S4096x32768) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S32768x256.size a
  hwx1_2 : ∀ i : grid1.Coords, EltTy.bits .f32 = 32 ∨ (Rect.block (s := S32768x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S4096x256 : Shape := ⟨2, ![4096, 256]⟩
abbrev S32768x4096 : Shape := ⟨2, ![32768, 4096]⟩
abbrev S256x32768 : Shape := ⟨2, ![256, 32768]⟩
abbrev S_ : Shape := ⟨0, ![]⟩
abbrev S256x1 : Shape := ⟨2, ![256, 1]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x32768, .f32⟩
  | .hbm, ⟨3, _⟩ => ⟨S32768x256, .f32⟩
  | .hbm, ⟨4, _⟩ => ⟨S256x256, .f32⟩
  | .hbm, ⟨5, _⟩ => ⟨S256, .f32⟩
  | .hbm, ⟨6, _⟩ => ⟨S4096x4096, .f32⟩
  | .hbm, ⟨7, _⟩ => ⟨S4096x256, .f32⟩
  | .hbm, ⟨8, _⟩ => ⟨S4096x256, .f32⟩
  | .hbm, ⟨9, _⟩ => ⟨S32768x4096, .f32⟩
  | .hbm, ⟨10, _⟩ => ⟨S32768x256, .f32⟩
  | .hbm, ⟨11, _⟩ => ⟨S256x32768, .f32⟩
  | .hbm, ⟨12, _⟩ => ⟨S_, .f32⟩
  | .hbm, ⟨13, _⟩ => ⟨S256x32768, .f32⟩
  | .hbm, ⟨14, _⟩ => ⟨S256x32768, .i1⟩
  | .hbm, ⟨15, _⟩ => ⟨S256x32768, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .i1⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256x1, .f32⟩
  | .hbm, ⟨29, _⟩ => ⟨S256x32768, .f32⟩
  | .hbm, ⟨30, _⟩ => ⟨S256x32768, .f32⟩
  | .hbm, ⟨31, _⟩ => ⟨S32768x256, .f32⟩
  | .hbm, ⟨32, _⟩ => ⟨S1x256, .f32⟩
  | .hbm, ⟨33, _⟩ => ⟨S32768x256, .f32⟩
  | .hbm, ⟨34, _⟩ => ⟨S32768x256, .f32⟩
  | .hbm, ⟨35, _⟩ => ⟨S256x256, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S4096x4096_S4096x4096_1_0 : S4096x4096.Transposes [1, 0] S4096x4096
  transposes_S256x4096_S4096x256_1_0 : S256x4096.Transposes [1, 0] S4096x256
  transposes_S4096x32768_S32768x4096_1_0 : S4096x32768.Transposes [1, 0] S32768x4096
  transposes_S32768x256_S256x32768_1_0 : S32768x256.Transposes [1, 0] S256x32768
  bcast_S_S256x32768 : S_.BroadcastsInDim S256x32768 (![] : Fin 0 → Fin S256x32768.rank)
  reducesTo_S256x32768_S256_d1 : S256x32768.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32768_0_1 : S256x1.BroadcastsInDim S256x32768 (![0, 1] : Fin 2 → Fin S256x32768.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S4096x4096_S4096x256_S4096x256_1_0_0_1_n_n_wf : DotDims.WF S4096x4096 S4096x256 S4096x256 [1] [0] [0] [1] [] []
  dot_S32768x4096_S4096x256_S32768x256_1_0_0_1_n_n_wf : DotDims.WF S32768x4096 S4096x256 S32768x256 [1] [0] [0] [1] [] []
  dot_S32768x256_S256x256_S32768x256_1_0_0_1_n_n_wf : DotDims.WF S32768x256 S256x256 S32768x256 [1] [0] [0] [1] [] []
  dot_S256x32768_S32768x256_S256x256_1_0_0_1_n_n_wf : DotDims.WF S256x32768 S32768x256 S256x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S32768x4096_S4096x256_S32768x256_1_0_0_1_n_n : DotDims S32768x4096 S4096x256 S32768x256 where
  lhsContracting := [1]
  rhsContracting := [0]
  lhsNonContracting := [0]
  rhsNonContracting := [1]
  lhsBatch := []
  rhsBatch := []
  wf := dot_S32768x4096_S4096x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S256x32768_S32768x256_S256x256_1_0_0_1_n_n : DotDims S256x32768 S32768x256 S256x256 where
  lhsContracting := [1]
  rhsContracting := [0]
  lhsNonContracting := [0]
  rhsNonContracting := [1]
  lhsBatch := []
  rhsBatch := []
  wf := dot_S256x32768_S32768x256_S256x256_1_0_0_1_n_n_wf

class Facts : Prop extends Facts₀ where

variable [Facts]
-- ==== Proof.R0FrameBits.lean ====
import proofs.«115778_j1580547965681_1_alg».proof.Proof.Gen.Kernel.Launch
import proofs.«115778_j1580547965681_1_alg».proof.Proof.Gen.Kernel.Skeleton
import proofs.«115778_j1580547965681_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the node scores g = edge_nodes · adj, one K tile at a time

The grid is 4 × 4; point t = 4·n + k multiplies the k-th column tile of edge_nodes (256 × 1024) by
block (k, n) of adj (1024 × 1024) and adds the product to an accumulator (256 × 1024) carried from point
to point. The accumulator is cleared when k = 0 and copied to the output block (0, n) when k = 3.
This module states what every buffer holds after each point and proves that the body keeps those
statements, for any contents V the arrays hold when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

/-- The body clears the accumulator: the K coordinate is 0 (the scalar chain of the first conditional). -/
abbrev clears (i : grid0.Coords) : Prop := (Scalar.cmpi .ne (Scalar.extui (Scalar.cmpi .eq (BitVec.ofNat 32 (i 1).val) 0#32)) 0#32) = 1#1
/-- It does at the points ≡ 0 (mod 4). -/
theorem clears_iff : ∀ t : Fin cfg0.N, clears (grid0.coords t) ↔ t.val % 4 = 0 :=
  (by decide +kernel : ∀ t : Fin grid0.N, clears (grid0.coords t) ↔ t.val % 4 = 0)

/-- The body copies the accumulator to the output block: the K coordinate is 3 (the second conditional). -/
abbrev copies (i : grid0.Coords) : Prop := k0_cond2 i = 1#1
/-- It does at the points ≡ 3 (mod 4). -/
theorem copies_iff : ∀ t : Fin cfg0.N, copies (grid0.coords t) ↔ t.val % 4 = 3 :=
  (by decide +kernel : ∀ t : Fin grid0.N, copies (grid0.coords t) ↔ t.val % 4 = 3)

/-! ## Where the windows are idle -/

/-- The two input windows are never idle. -/
theorem live_en : ∀ t : Fin cfg0.N, cfg0.idle 0 (grid0.coords t) = false := by decide +kernel
theorem live_adj : ∀ t : Fin cfg0.N, cfg0.idle 1 (grid0.coords t) = false := by decide +kernel
/-- Away from the last K tile the output window is idle and is not written back. -/
theorem idle_out : ∀ t : Fin cfg0.N, ¬copies (grid0.coords t) → cfg0.idle 2 (grid0.coords t) = true := by decide +kernel
theorem noFlush_out : ∀ t : Fin cfg0.N, ¬copies (grid0.coords t) → (cfg0.win 2).flush t = false := by decide +kernel
/-- At the last K tile it is live. -/
theorem live_out : ∀ t : Fin cfg0.N, copies (grid0.coords t) → cfg0.idle 2 (grid0.coords t) = false := by decide +kernel

/-! ## The memrefs the body is called with -/

/-- One staging buffer of the output window, through which its contents are stated. -/
abbrev outView : View sig .tc .vmem S256x1024 .f32 := (Memref.whole cc0_stg2_0 : Memref sig .tc .vmem S256x1024 .f32).view
/-- Each window's current staging memref at point t, and its wholeness. -/
abbrev enAt (t : Fin cfg0.N) : Memref sig .tc .vmem S256x1024 .f32 := win0_0.stage (cfg0.slots t 0)
abbrev enAt_whole (t : Fin cfg0.N) : (enAt t).IsWhole := hstage0_0 ((cfg0.slots t 0).cast nbuf0_0)
abbrev adjAt (t : Fin cfg0.N) : Memref sig .tc .vmem S1024x1024 .f32 := win0_1.stage (cfg0.slots t 1)
abbrev adjAt_whole (t : Fin cfg0.N) : (adjAt t).IsWhole := hstage0_1 ((cfg0.slots t 1).cast nbuf0_1)
abbrev outAt (t : Fin cfg0.N) : Memref sig .tc .vmem S256x1024 .f32 := win0_2.stage (cfg0.slots t 2)
abbrev outAt_whole (t : Fin cfg0.N) : (outAt t).IsWhole := hstage0_2 ((cfg0.slots t 2).cast nbuf0_2)
/-- The accumulator: a whole scoped buffer of the kernel's own. -/
abbrev accMem : Memref sig .tc .vmem S256x1024 .f32 := Memref.whole cc0_scratch0
abbrev accView : View sig .tc .vmem S256x1024 .f32 := accMem.view

/-! ## The invariant's fixed part -/

/-- The scoped buffers of the other region (its staging buffers and its two accumulators), each whole at some
    contents: region 0 never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the accumulator at some contents, the other region's scoped buffers, the
    generator register at some state. -/
theorem PhiA0_eq (c : Dev nD) :
    (Pipeline.ΦA spec0 c : sProp 𝕄)
      = iprop((∃ d, owns (c : Thread nD τ) accMem fullShare d) ∗ others0 c ∗ (∃ r, prngReg c r)) := by
  unfold Pipeline.ΦA others0; rw [scopedRest0_eq]; simp only [accMem, owns_whole]
  exact Entails.antisymm Idealize.SL.BI.sep_assoc Idealize.SL.BI.sep_assoc'

/-! ## The body on any staging memrefs, one control case at a time

Each run is a pair: the pieces the body's stores leave in the output window's buffer and in the accumulator
(last first), and the proof that from whole memrefs at the stated contents the body runs to a continuation
holding the inputs as they were and each stored buffer with its pieces written. -/

set_option maxHeartbeats 1000000 in
/-- First K tile (k = 0): the accumulator, at anything, is cleared and then receives the first product; the
    output window's buffer, at contents held back untouched, is not stored into. -/
noncomputable def runFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) :
    Σ' (Lout : List (View.Piece (Elt F) S256x1024 .f32)), { Lacc : List (View.Piece (Elt F) S256x1024 .f32) //
      ∀ (xo : Vec F S256x1024 .f32) (E : Set ℕ) (K : PUnit → sProp 𝕄),
        iprop(owns (c : Thread nD τ) enM fullShare x0 ∗ owns (c : Thread nD τ) adjM fullShare x1 ∗ owns (c : Thread nD τ) outM fullShare xo ∗ (∃ d, owns (c : Thread nD τ) accM fullShare d)
            ∗ (iprop(owns (c : Thread nD τ) enM fullShare x0 ∗ owns (c : Thread nD τ) adjM fullShare x1 ∗ owns (c : Thread nD τ) outM fullShare xo ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨[], ?_, fun xo E K => ?run⟩
  case run =>
    simp only [cc0__g_kernel_eq_skeleton]; unfold cc0__g_kernel_skel
    unfold owns
    iintro ⟨⟨%f0, %hf0, H0⟩, ⟨%f1, %hf1, H1⟩, ⟨%f2, %hf2, H2⟩, ⟨%ds0, %fs0, -, HS0⟩, Hk⟩
    obtain rfl := henM.eq_unread hf0; obtain rfl := hadjM.eq_unread hf1; obtain rfl := houtM.eq_unread hf2
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]
    · iexists _; isplitr; · ipureintro; exact houtM.read_unread _
      iexact H2
    iexists _; iexact HS0

set_option maxHeartbeats 1000000 in
/-- Middle K tiles (k = 1, 2): the accumulator, at what the point before left, receives one more product; the
    output window's buffer is not stored into. -/
noncomputable def runMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) :
    Σ' (Lout : List (View.Piece (Elt F) S256x1024 .f32)), { Lacc : List (View.Piece (Elt F) S256x1024 .f32) //
      ∀ (xo : Vec F S256x1024 .f32) (E : Set ℕ) (K : PUnit → sProp 𝕄),
        iprop(owns (c : Thread nD τ) enM fullShare x0 ∗ owns (c : Thread nD τ) adjM fullShare x1 ∗ owns (c : Thread nD τ) outM fullShare xo ∗ owns (c : Thread nD τ) accM fullShare xa
            ∗ (iprop(owns (c : Thread nD τ) enM fullShare x0 ∗ owns (c : Thread nD τ) adjM fullShare x1 ∗ owns (c : Thread nD τ) outM fullShare xo ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨[], ?_, fun xo E K => ?run⟩
  case run =>
    simp only [cc0__g_kernel_eq_skeleton]; unfold cc0__g_kernel_skel
    unfold owns
    iintro ⟨⟨%f0, %hf0, H0⟩, ⟨%f1, %hf1, H1⟩, ⟨%f2, %hf2, H2⟩, ⟨%fs0, %hfs0, HS0⟩, Hk⟩
    obtain rfl := henM.eq_unread hf0; obtain rfl := hadjM.eq_unread hf1; obtain rfl := houtM.eq_unread hf2; obtain rfl := haccM.eq_unread hfs0
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]
    · iexists _; isplitr; · ipureintro; exact houtM.read_unread _
      iexact H2
    iexists _; iexact HS0

set_option maxHeartbeats 1000000 in
/-- Last K tile (k = 3): the accumulator receives the last product and is then copied to the output window's
    buffer, which may hold anything before. -/
noncomputable def runLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) :
    Σ' (Lout : List (View.Piece (Elt F) S256x1024 .f32)), { Lacc : List (View.Piece (Elt F) S256x1024 .f32) //
      ∀ (E : Set ℕ) (K : PUnit → sProp 𝕄),
        iprop(owns (c : Thread nD τ) enM fullShare x0 ∗ owns (c : Thread nD τ) adjM fullShare x1 ∗ (∃ d, owns (c : Thread nD τ) outM fullShare d) ∗ owns (c : Thread nD τ) accM fullShare xa
            ∗ (iprop(owns (c : Thread nD τ) enM fullShare x0 ∗ owns (c : Thread nD τ) adjM fullShare x1 ∗ (∃ f, outM.view.loc (c : Thread nD τ) ↦[outM.view.set]{fullShare} outM.view.writes (Elt F) f Lout) ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨?_, ?_, fun E K => ?run⟩
  case run =>
    simp only [cc0__g_kernel_eq_skeleton]; unfold cc0__g_kernel_skel
    unfold owns
    iintro ⟨⟨%f0, %hf0, H0⟩, ⟨%f1, %hf1, H1⟩, ⟨%d2, %f2, -, H2⟩, ⟨%fs0, %hfs0, HS0⟩, Hk⟩
    obtain rfl := henM.eq_unread hf0; obtain rfl := hadjM.eq_unread hf1; obtain rfl := haccM.eq_unread hfs0
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]; · iexists _; iexact H2
    iexists _; iexact HS0

/-! ## What each case leaves, as contents -/

/-- First K tile: the output window's buffer is not stored into — a placeholder nothing consults. -/
def stgFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) : Vec F S256x1024 .f32 :=
  outView.read (Elt F) (outView.writes (Elt F) outView.junk (runFirst c i enM henM adjM hadjM outM houtM accM haccM hc0 hc1 x0 x1).1)

/-- First K tile: the accumulator's two stores (the clearing, then the sum) cover it. -/
theorem accFirst_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) (y : S256x1024.Idx) :
    ∃ pc ∈ (runFirst c i enM henM adjM hadjM outM houtM accM haccM hc0 hc1 x0 x1).2.1, y ∈ pc.1.set :=
  View.cover_of_tiledL (runFirst c i enM henM adjM hadjM outM houtM accM haccM hc0 hc1 x0 x1).2.1 S256x1024.size (by sl_kernel_rfl) y

/-- First K tile: what the accumulator holds afterwards. -/
def accFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) : Vec F S256x1024 .f32 :=
  accView.read (Elt F) (accView.writes (Elt F) accView.junk (runFirst c i enM henM adjM hadjM outM houtM accM haccM hc0 hc1 x0 x1).2.1)

/-- Middle K tiles: the output window's buffer is not stored into — a placeholder nothing consults. -/
def stgMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) : Vec F S256x1024 .f32 :=
  outView.read (Elt F) (outView.writes (Elt F) outView.junk (runMid c i enM henM adjM hadjM outM houtM accM haccM hc0 hc1 x0 x1 xa).1)

/-- Middle K tiles: the accumulator's one store covers it. -/
theorem accMid_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) (y : S256x1024.Idx) :
    ∃ pc ∈ (runMid c i enM henM adjM hadjM outM houtM accM haccM hc0 hc1 x0 x1 xa).2.1, y ∈ pc.1.set :=
  View.cover_of_tiledL (runMid c i enM henM adjM hadjM outM houtM accM haccM hc0 hc1 x0 x1 xa).2.1 S256x1024.size (by sl_kernel_rfl) y

/-- Middle K tiles: what the accumulator holds afterwards. -/
def accMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) : Vec F S256x1024 .f32 :=
  accView.read (Elt F) (accView.writes (Elt F) accView.junk (runMid c i enM henM adjM hadjM outM houtM accM haccM hc0 hc1 x0 x1 xa).2.1)

/-- Last K tile: the one store into the output window's buffer covers it. -/
theorem stgLast_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) (y : S256x1024.Idx) :
    ∃ pc ∈ (runLast c i enM henM adjM hadjM outM houtM accM haccM hc0 hc1 x0 x1 xa).1, y ∈ pc.1.set :=
  View.cover_of_tiledL (runLast c i enM henM adjM hadjM outM houtM accM haccM hc0 hc1 x0 x1 xa).1 S256x1024.size (by sl_kernel_rfl) y

/-- Last K tile: what the output window's buffer holds afterwards. -/
def stgLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) : Vec F S256x1024 .f32 :=
  outView.read (Elt F) (outView.writes (Elt F) outView.junk (runLast c i enM henM adjM hadjM outM houtM accM haccM hc0 hc1 x0 x1 xa).1)

/-- Last K tile: the accumulator's one store covers it. -/
theorem accLast_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) (y : S256x1024.Idx) :
    ∃ pc ∈ (runLast c i enM henM adjM hadjM outM houtM accM haccM hc0 hc1 x0 x1 xa).2.1, y ∈ pc.1.set :=
  View.cover_of_tiledL (runLast c i enM henM adjM hadjM outM houtM accM haccM hc0 hc1 x0 x1 xa).2.1 S256x1024.size (by sl_kernel_rfl) y

/-- Last K tile: what the accumulator holds afterwards. -/
def accLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) : Vec F S256x1024 .f32 :=
  accView.read (Elt F) (accView.writes (Elt F) accView.junk (runLast c i enM henM adjM hadjM outM houtM accM haccM hc0 hc1 x0 x1 xa).2.1)

section Entry
-- the arrays' contents when the region is entered: the parameter everything below is stated at
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge_nodes window's current staging buffer holds its block at every point, for any proof data whose array is
    the entry contents and whose body leaves the block in place. -/
theorem before_en_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the adj window. -/
theorem before_adj_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the buffers hold after each point -/

/-- THE ACCUMULATION. After the body at position n: (the output window's staging buffer, the accumulator). The case
    is the one n % 4 selects, run at the point's memrefs and the two input blocks, the accumulator before it at what
    position n - 1 left. -/
def outsAt0 (c : Dev nD) : (n : ℕ) → n < cfg0.N → Vec F S256x1024 .f32 × Vec F S256x1024 .f32
  | 0, hn => (stgFirst c (grid0.coords ⟨0, hn⟩) (enAt ⟨0, hn⟩) (enAt_whole ⟨0, hn⟩) (adjAt ⟨0, hn⟩) (adjAt_whole ⟨0, hn⟩) (outAt ⟨0, hn⟩) (outAt_whole ⟨0, hn⟩) accMem (Memref.isWhole_whole _) ((clears_iff ⟨0, hn⟩).mpr (Nat.zero_mod _)) (fun h => (fun h => by (try dsimp only at h); omega) ((copies_iff ⟨0, hn⟩).mp h)) (iblk0 V c 0 ⟨0, hn⟩) (iblk0 V c 1 ⟨0, hn⟩), accFirst c (grid0.coords ⟨0, hn⟩) (enAt ⟨0, hn⟩) (enAt_whole ⟨0, hn⟩) (adjAt ⟨0, hn⟩) (adjAt_whole ⟨0, hn⟩) (outAt ⟨0, hn⟩) (outAt_whole ⟨0, hn⟩) accMem (Memref.isWhole_whole _) ((clears_iff ⟨0, hn⟩).mpr (Nat.zero_mod _)) (fun h => (fun h => by (try dsimp only at h); omega) ((copies_iff ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (stgFirst c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) ((clears_iff ⟨n + 1, hn⟩).mpr h0) (fun h => h1 ((copies_iff ⟨n + 1, hn⟩).mp h)) (iblk0 V c 0 ⟨n + 1, hn⟩) (iblk0 V c 1 ⟨n + 1, hn⟩), accFirst c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) ((clears_iff ⟨n + 1, hn⟩).mpr h0) (fun h => h1 ((copies_iff ⟨n + 1, hn⟩).mp h)) (iblk0 V c 0 ⟨n + 1, hn⟩) (iblk0 V c 1 ⟨n + 1, hn⟩))
    else
      if h1 : (n + 1) % 4 = 3 then
        (stgLast c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) ((copies_iff ⟨n + 1, hn⟩).mpr h1) (iblk0 V c 0 ⟨n + 1, hn⟩) (iblk0 V c 1 ⟨n + 1, hn⟩) (outsAt0 c n (Nat.lt_of_succ_lt hn)).2, accLast c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) ((copies_iff ⟨n + 1, hn⟩).mpr h1) (iblk0 V c 0 ⟨n + 1, hn⟩) (iblk0 V c 1 ⟨n + 1, hn⟩) (outsAt0 c n (Nat.lt_of_succ_lt hn)).2)
      else
        (stgMid c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) (fun h => h1 ((copies_iff ⟨n + 1, hn⟩).mp h)) (iblk0 V c 0 ⟨n + 1, hn⟩) (iblk0 V c 1 ⟨n + 1, hn⟩) (outsAt0 c n (Nat.lt_of_succ_lt hn)).2, accMid c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) (fun h => h1 ((copies_iff ⟨n + 1, hn⟩).mp h)) (iblk0 V c 0 ⟨n + 1, hn⟩) (iblk0 V c 1 ⟨n + 1, hn⟩) (outsAt0 c n (Nat.lt_of_succ_lt hn)).2)

/-- The accumulation at a point of the first K tile. -/
theorem outsAt0_first (c : Dev nD) (t : Fin cfg0.N) (h0 : t.val % 4 = 0) (h1 : ¬t.val % 4 = 3) :
    outsAt0 V c t.val t.isLt = (stgFirst c (grid0.coords t) (enAt t) (enAt_whole t) (adjAt t) (adjAt_whole t) (outAt t) (outAt_whole t) accMem (Memref.isWhole_whole _) ((clears_iff t).mpr h0) (fun h => h1 ((copies_iff t).mp h)) (iblk0 V c 0 t) (iblk0 V c 1 t), accFirst c (grid0.coords t) (enAt t) (enAt_whole t) (adjAt t) (adjAt_whole t) (outAt t) (outAt_whole t) accMem (Memref.isWhole_whole _) ((clears_iff t).mpr h0) (fun h => h1 ((copies_iff t).mp h)) (iblk0 V c 0 t) (iblk0 V c 1 t)) := by
  obtain ⟨n, hn⟩ := t
  cases n with
  | zero => exact rfl
  | succ n => exact (dif_pos h0).trans ((dif_neg h1).trans rfl)

/-- The accumulation at a point of a middle K tile, over what the point before left. -/
theorem outsAt0_mid (c : Dev nD) (t : Fin cfg0.N) (h0 : ¬t.val % 4 = 0) (h1 : ¬t.val % 4 = 3) :
    outsAt0 V c t.val t.isLt = (stgMid c (grid0.coords t) (enAt t) (enAt_whole t) (adjAt t) (adjAt_whole t) (outAt t) (outAt_whole t) accMem (Memref.isWhole_whole _) (fun h => h0 ((clears_iff t).mp h)) (fun h => h1 ((copies_iff t).mp h)) (iblk0 V c 0 t) (iblk0 V c 1 t) (outsAt0 V c (t.val - 1) (Nat.lt_of_le_of_lt (Nat.sub_le _ _) t.isLt)).2, accMid c (grid0.coords t) (enAt t) (enAt_whole t) (adjAt t) (adjAt_whole t) (outAt t) (outAt_whole t) accMem (Memref.isWhole_whole _) (fun h => h0 ((clears_iff t).mp h)) (fun h => h1 ((copies_iff t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of the last K tile, over what the point before left. -/
theorem outsAt0_last (c : Dev nD) (t : Fin cfg0.N) (h0 : ¬t.val % 4 = 0) (h1 : t.val % 4 = 3) :
    outsAt0 V c t.val t.isLt = (stgLast c (grid0.coords t) (enAt t) (enAt_whole t) (adjAt t) (adjAt_whole t) (outAt t) (outAt_whole t) accMem (Memref.isWhole_whole _) (fun h => h0 ((clears_iff t).mp h)) ((copies_iff t).mpr h1) (iblk0 V c 0 t) (iblk0 V c 1 t) (outsAt0 V c (t.val - 1) (Nat.lt_of_le_of_lt (Nat.sub_le _ _) t.isLt)).2, accLast c (grid0.coords t) (enAt t) (enAt_whole t) (adjAt t) (adjAt_whole t) (outAt t) (outAt_whole t) accMem (Memref.isWhole_whole _) (fun h => h0 ((clears_iff t).mp h)) ((copies_iff t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point what the launch hands over; afterwards the accumulator at what the point
    before left in it, the other region's scoped buffers and the generator register carried along. -/
def PhiS (c : Dev nD) : (n : ℕ) → n ≤ cfg0.N → sProp 𝕄
  | 0, _ => Pipeline.ΦA spec0 c
  | n + 1, hn => iprop(owns (c : Thread nD τ) accMem fullShare ((outsAt0 V c n hn).2) ∗ others0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accMem fullShare ((outsAt0 V c n hn).2) ∗ others0 c ∗ (∃ r, prngReg c r)) := rfl

theorem PhiS_pos (c : Dev nD) (n : ℕ) (h : n ≤ cfg0.N) (hz : n ≠ 0) :
    PhiS V c n h = iprop(owns (c : Thread nD τ) accMem fullShare ((outsAt0 V c (n - 1) (by omega)).2) ∗ others0 c ∗ (∃ r, prngReg c r)) := by
  cases n with
  | zero => exact absurd rfl hz
  | succ n => rfl

/-! ## The pipeline's proof data -/

/-- The proof data of region 0 on core c: the arrays as the region finds them; after the body at point t the two
    inputs' buffers at their blocks and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before_en_of V (dat0 V c) (A_eq0 V c 0) (after0_0 V c) t d
theorem before0_1 (c : Dev nD) (t : Fin cfg0.N) (d) : (dat0 V c).before 1 t d = iblk0 V c 1 t :=
  before_adj_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (enAt t) fullShare ((dat0 V c).before 0 t d))
    ∗ (∃ d, owns (c : Thread nD τ) (adjAt t) fullShare ((dat0 V c).before 1 t d))
    ∗ (∃ d, owns (c : Thread nD τ) (outAt t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; t % 4 says which case the point is in; the invariant
    hands the body the accumulator (at anything before the first point, at what the point before left afterwards) and
    takes it back at this point's contents; the other region's buffers, the generator register and the core's debts
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (enAt t) fullShare ((dat0 V c).after 0 t) from by
    unfold Dat.leavesExact; rw [live_en t], after0_0]
  rw [show (dat0 V c).leavesExact 1 t = owns (c : Thread nD τ) (adjAt t) fullShare ((dat0 V c).after 1 t) from by
    unfold Dat.leavesExact; rw [live_adj t], after0_1]
  by_cases h0 : t.val % 4 = 0
  · have h1 : ¬t.val % 4 = 3 := by omega
    rw [Dat.leavesExact_idle (dat0 V c) 2 t (idle_out t (fun h => h1 ((copies_iff t).mp h))) (noFlush_out t (fun h => h1 ((copies_iff t).mp h)))]
    rw [outsAt0_first V c t h0 h1]
    unfold accFirst; (try dsimp only)
    by_cases hz : t.val = 0
    · rw [PhiS_castSucc V c t, PhiS_zero V c _ _ hz, PhiA0_eq]
      iintro ⟨⟨HS0, Hr, Hg⟩, Ho, ⟨%d0, H0⟩, ⟨%d1, H1⟩, ⟨%d2, H2⟩⟩
      iapply ((runFirst c (grid0.coords t) _ _ _ _ _ _ _ _ ((clears_iff t).mpr h0) (fun h => h1 ((copies_iff t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accFirst_cover c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, Hr, Hg⟩, Ho, ⟨%d0, H0⟩, ⟨%d1, H1⟩, ⟨%d2, H2⟩⟩
      iapply ((runFirst c (grid0.coords t) _ _ _ _ _ _ _ _ ((clears_iff t).mpr h0) (fun h => h1 ((copies_iff t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accFirst_cover c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (outAt t) fullShare ((dat0 V c).after 2 t) from by
        unfold Dat.leavesExact; rw [live_out t ((copies_iff t).mpr h1)], after0_2]
      rw [outsAt0_last V c t h0 h1]
      unfold stgLast accLast; (try dsimp only)
      rw [PhiS_castSucc V c t, PhiS_pos V c _ _ hz]
      iintro ⟨⟨HS0, Hr, Hg⟩, Ho, ⟨%d0, H0⟩, ⟨%d1, H1⟩, ⟨%d2, H2⟩⟩
      iapply ((runLast c (grid0.coords t) _ _ _ _ _ _ _ _ (fun h => h0 ((clears_iff t).mp h)) ((copies_iff t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (accLast_cover c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (stgLast_cover c _ _ _ _ _ _ _ _ _ _ _ _ _ _)
    · rw [Dat.leavesExact_idle (dat0 V c) 2 t (idle_out t (fun h => h1 ((copies_iff t).mp h))) (noFlush_out t (fun h => h1 ((copies_iff t).mp h)))]
      rw [outsAt0_mid V c t h0 h1]
      unfold accMid; (try dsimp only)
      rw [PhiS_castSucc V c t, PhiS_pos V c _ _ hz]
      iintro ⟨⟨HS0, Hr, Hg⟩, Ho, ⟨%d0, H0⟩, ⟨%d1, H1⟩, ⟨%d2, H2⟩⟩
      iapply ((runMid c (grid0.coords t) _ _ _ _ _ _ _ _ (fun h => h0 ((clears_iff t).mp h)) (fun h => h1 ((copies_iff t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accMid_cover c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hr, Hg⟩
  isplitl [HS0]
  · iexists _; iexact HS0
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

/-- The proof data keeps full shares and owes nothing. -/
example (c : Dev nD) := (dat0 V c).share_full fun _ => rfl
example : ∀ (c : Dev nD) (t : Fin (cfg0.N + 1)), (dat0 V c).owed t = 0 := fun _ _ => rfl

end Entry

end Cert.Kernel.Hand

end
-- ==== Proof.R1FrameBits.lean ====
/-
  The second region of the program — the streaming aggregation over the 64 edge tiles — as a pipeline whose body
  carries two accumulators from tile to tile, stated at the contents `V` the buffers hold when the region is entered.

  At edge tile `e` the body reads the whole node-score array `g` (256×4096), columns `512·e …` of the incidence
  matrix (4096×512), rows `512·e …` of the edge features (512×256), the weight (256×256) and the bias row (1×256);
  it adds to the count accumulator (256×1) the number of selected edges of the tile per row, and to the sum
  accumulator (256×256) the selected edges' transformed features. Both accumulators are reset at tile 0. At tile 63
  the sum times the reciprocal of the count (zero where the count is not positive) is stored into the output block,
  which is the whole result array and is written back there only.

  Three control cases by the tile: the first (reset, accumulate; output idle), an inner one (accumulate; output idle),
  the last (accumulate; store the output). For each, the body's run on arbitrary whole memrefs, with the pieces each
  accumulator and the output end with; then what the three buffers hold after every tile, by recursion on the tile;
  the invariant (both accumulators at the previous tile's contents, beside the buffers the region never touches);
  the proof data; and the body obligation at a generic tile.
-/
import proofs.«115778_j1580547965681_1_alg».proof.Proof.Gen.Kernel.Launch
import proofs.«115778_j1580547965681_1_alg».proof.Proof.Gen.Kernel.Skeleton
import proofs.«115778_j1580547965681_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the second region is entered: the parameter the whole half is stated at
variable (V : (c : Dev nD) → (b : Ref sig .tc) → Buf (Elt F) ((c : Thread nD τ).loc b))

/-! ## The windows' blocks -/

/-- Window `w`'s block at the edge tile `t`, read off its array as the region finds it (`V`): the whole array for
    the node scores, the weight and the bias row; columns `512·t …` of the incidence matrix; rows `512·t …` of the
    edge features. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every edge tile, fetched there or not (unfetched,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every edge tile, fetched there or not (unfetched,
    the block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every edge tile, fetched there or not (unfetched,
    the block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every edge tile, fetched there or not (unfetched,
    the block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every edge tile, fetched there or not (unfetched,
    the block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the edge tile -/

/-- "This is the first edge tile": the condition under which both accumulators are reset. -/
abbrev cond1_0 (i : grid1.Coords) : Prop := (Scalar.cmpi .ne (Scalar.extui (Scalar.cmpi .eq (BitVec.ofNat 32 (i 0).val) 0#32)) 0#32) = 1#1
/-- It holds at tile 0 only. -/
theorem hcond1_0 : ∀ t : Fin cfg1.N, cond1_0 (grid1.coords t) ↔ t.val = 0 :=
  (by decide +kernel : ∀ t : Fin grid1.N, cond1_0 (grid1.coords t) ↔ t.val = 0)

/-- "This is the last edge tile": the condition under which the normalised sum is stored. -/
abbrev cond1_1 (i : grid1.Coords) : Prop := k1_cond2 i = 1#1
/-- It holds at tile 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Before the last tile nothing is stored into the output window: it is idle, -/
theorem idleAt1_5 : ∀ t : Fin cfg1.N, ¬cond1_1 (grid1.coords t) → cfg1.idle 5 (grid1.coords t) = true := by decide +kernel
/-- and its block is not written back. -/
theorem noFlush1_5 : ∀ t : Fin cfg1.N, ¬cond1_1 (grid1.coords t) → (cfg1.win 5).flush t = false := by decide +kernel
/-- At the last tile the output window is live: the normalised sum is stored into it. -/
theorem liveAt1_5 : ∀ t : Fin cfg1.N, cond1_1 (grid1.coords t) → cfg1.idle 5 (grid1.coords t) = false := by decide +kernel

/-! ## The memrefs the body is called with -/

/-- The output window's one staging buffer, through which its contents are stated. -/
abbrev VO1_5 : View sig .tc .vmem S256x256 .f32 := (Memref.whole cc1_stg5_0 : Memref sig .tc .vmem S256x256 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
/-- The two accumulators the body carries from tile to tile: the unnormalised sum (256×256) and the selection
    count per row (256×1). -/
abbrev scM1_0 : Memref sig .tc .vmem S256x256 .f32 := Memref.whole cc1_scratch0
abbrev scM1_1 : Memref sig .tc .vmem S256x1 .f32 := Memref.whole cc1_scratch1
abbrev VS1_0 : View sig .tc .vmem S256x256 .f32 := scM1_0.view
abbrev VS1_1 : View sig .tc .vmem S256x1 .f32 := scM1_1.view

/-! ## The region invariant's parts -/

/-- The core's scoped buffers this region never touches — the first region's six staging buffers and its
    accumulator —, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands the region, with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The same, the untouched buffers gathered. -/
theorem PhiA1_open (c : Dev nD) :
    (Pipeline.ΦA spec1 c : sProp 𝕄)
      ⊢ iprop((∃ d, owns (c : Thread nD τ) scM1_0 fullShare d) ∗ (∃ d, owns (c : Thread nD τ) scM1_1 fullShare d) ∗ others1 (F := F) c ∗ (∃ r, prngReg c r)) := by
  rw [PhiA1_eq]; unfold others1
  iintro ⟨⟨Ho0, Ho1, Ho2, Ho3, Ho4, Ho5, Ho6, HS0, HS1⟩, Hg⟩
  isplitl [HS0]; · iexact HS0
  isplitl [HS1]; · iexact HS1
  isplitr [Hg]; swap; · iexact Hg
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  iexact Ho6

theorem PhiA1_close (c : Dev nD) :
    iprop((∃ d, owns (c : Thread nD τ) scM1_0 fullShare d) ∗ (∃ d, owns (c : Thread nD τ) scM1_1 fullShare d) ∗ others1 (F := F) c ∗ (∃ r, prngReg c r))
      ⊢ (Pipeline.ΦA spec1 c : sProp 𝕄) := by
  rw [PhiA1_eq]; unfold others1
  iintro ⟨HS0, HS1, ⟨Ho0, Ho1, Ho2, Ho3, Ho4, Ho5, Ho6⟩, Hg⟩
  isplitr [Hg]; swap; · iexact Hg
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [HS0]; · iexact HS0
  iexact HS1

/-! ## The body on any whole memrefs, case by case -/

set_option maxHeartbeats 4000000 in
/-- THE FIRST EDGE TILE. Both accumulators are reset to zero and then this tile's contribution is added; nothing is
    stored into the output window. The pieces each accumulator ends with are found by running the body; on whole
    memrefs — the five inputs at their contents, the output's buffer at contents handed back untouched, the
    accumulators at anything — the body runs to the continuation holding the inputs as they were and each
    accumulator with its pieces written. -/
noncomputable def kernelRun1_A (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) :
    Σ' (L5 : List (View.Piece (Elt F) S256x256 .f32)) (LS0 : List (View.Piece (Elt F) S256x256 .f32)), { LS1 : List (View.Piece (Elt F) S256x1 .f32) //
      ∀ (xi5 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 4000000 in
/-- AN INNER EDGE TILE. This tile's contribution is added to both accumulators, which hold what the tile before left
    (`xs0`, `xs1`); nothing is stored into the output window. -/
noncomputable def kernelRun1_B (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32)
    (xs0 : Vec F S256x256 .f32) (xs1 : Vec F S256x1 .f32) :
    Σ' (L5 : List (View.Piece (Elt F) S256x256 .f32)) (LS0 : List (View.Piece (Elt F) S256x256 .f32)), { LS1 : List (View.Piece (Elt F) S256x1 .f32) //
      ∀ (xi5 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 4000000 in
/-- THE LAST EDGE TILE. This tile's contribution is added to both accumulators, which hold what the tile before left
    (`xs0`, `xs1`), and then the unnormalised sum times the reciprocal of the count is stored into the output
    window's buffer, found at anything. -/
noncomputable def kernelRun1_C (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32)
    (xs0 : Vec F S256x256 .f32) (xs1 : Vec F S256x1 .f32) :
    Σ' (L5 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨?_, ?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

/-! ## What each case leaves in the output's buffer and in the two accumulators -/

/-- What the first edge tile leaves in the output window's buffer: its pieces read back (none: a placeholder nothing consults, the window being idle and not written back there). -/
def out1_A_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x256 .f32 :=
  VO1_5.read (Elt F) (VO1_5.writes (Elt F) VO1_5.junk (kernelRun1_A c i arg1 harg1 arg2 harg2 arg3 harg3 arg4 harg4 arg5 harg5 arg6 harg6 arg7 harg7 arg8 harg8 hc0 hc1 x0 x1 x2 x3 x4).1)

/-- At the first edge tile the stores into the accumulator of the unnormalised sum cover it. -/
theorem scover1_A_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) (y : S256x256.Idx) :
    ∃ pc ∈ (kernelRun1_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.1 S256x256.size (by sl_kernel_rfl) y

/-- What the first edge tile leaves in the accumulator of the unnormalised sum: its pieces read back. -/
def sout1_A_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x256 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3 x4).2.1)

/-- At the first edge tile the stores into the accumulator of the selection count cover it. -/
theorem scover1_A_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) (y : S256x1.Idx) :
    ∃ pc ∈ (kernelRun1_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.2.1 S256x1.size (by sl_kernel_rfl) y

/-- What the first edge tile leaves in the accumulator of the selection count: its pieces read back. -/
def sout1_A_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x1 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2 x3 x4).2.2.1)

/-- What an inner edge tile leaves in the output window's buffer: its pieces read back (none: a placeholder nothing consults, the window being idle and not written back there). -/
def out1_B_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VO1_5.read (Elt F) (VO1_5.writes (Elt F) VO1_5.junk (kernelRun1_B c i arg1 harg1 arg2 harg2 arg3 harg3 arg4 harg4 arg5 harg5 arg6 harg6 arg7 harg7 arg8 harg8 hc0 hc1 x0 x1 x2 x3 x4 xs0 xs1).1)

/-- At an inner edge tile the stores into the accumulator of the unnormalised sum cover it. -/
theorem scover1_B_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0 xs1).2.1 S256x256.size (by sl_kernel_rfl) y

/-- What an inner edge tile leaves in the accumulator of the unnormalised sum: its pieces read back. -/
def sout1_B_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 x4 xs0 xs1).2.1)

/-- At an inner edge tile the stores into the accumulator of the selection count cover it. -/
theorem scover1_B_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x1.Idx) :
    ∃ pc ∈ (kernelRun1_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0 xs1).2.2.1 S256x1.size (by sl_kernel_rfl) y

/-- What an inner edge tile leaves in the accumulator of the selection count: its pieces read back. -/
def sout1_B_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x1 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 x3 x4 xs0 xs1).2.2.1)

/-- At the last edge tile the one store into the output window's buffer covers it. -/
theorem cover1_C_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).1 S256x256.size (by sl_kernel_rfl) y

/-- What the last edge tile leaves in the output window's buffer: its pieces read back. -/
def out1_C_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 x3 x4 xs0 xs1).1)

/-- At the last edge tile the stores into the accumulator of the unnormalised sum cover it. -/
theorem scover1_C_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).2.1 S256x256.size (by sl_kernel_rfl) y

/-- What the last edge tile leaves in the accumulator of the unnormalised sum: its pieces read back. -/
def sout1_C_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 x4 xs0 xs1).2.1)

/-- At the last edge tile the stores into the accumulator of the selection count cover it. -/
theorem scover1_C_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x1.Idx) :
    ∃ pc ∈ (kernelRun1_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).2.2.1 S256x1.size (by sl_kernel_rfl) y

/-- What the last edge tile leaves in the accumulator of the selection count: its pieces read back. -/
def sout1_C_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x1 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 x3 x4 xs0 xs1).2.2.1)

section Region1
variable (V : (c : Dev nD) → (b : Ref sig .tc) → Buf (Elt F) ((c : Thread nD τ).loc b))

/-! ## The accumulation, tile by tile -/

/-- THE ACCUMULATION. What the output window's staging buffer, the unnormalised sum and the selection count hold
    after the body at edge tile `n`: at tile 0 the first case run on the tile's blocks; at a later tile the inner
    case, or at tile 63 the last case, run on the tile's blocks and on what tile `n - 1` left in the two accumulators. -/
def outsAt1 (c : Dev nD) : (n : ℕ) → n < cfg1.N → Vec F S256x256 .f32 × Vec F S256x256 .f32 × Vec F S256x1 .f32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 63 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- `outsAt1` at tile 0: the first case's contents. -/
theorem outsAt1_A (c : Dev nD) (t : Fin cfg1.N) (h0 : t.val = 0) (h1 : ¬t.val = 63) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- `outsAt1` at an inner tile: the inner case's contents, over what the tile before left. -/
theorem outsAt1_B (c : Dev nD) (t : Fin cfg1.N) (h0 : ¬t.val = 0) (h1 : ¬t.val = 63) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt1` at the last tile: the last case's contents, over what the tile before left. -/
theorem outsAt1_C (c : Dev nD) (t : Fin cfg1.N) (h0 : ¬t.val = 0) (h1 : t.val = 63) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- The invariant before edge tile `n`: before the first, what the launch hands the region (both accumulators at
    anything); afterwards both accumulators at what tile `n - 1` left in them, the buffers the region never touches
    at some contents, and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2) ∗ others1 (F := F) c ∗ (∃ r, prngReg c r)) := by
  cases n with
  | zero => exact absurd rfl hz
  | succ n => rfl

/-! ## The pipeline's proof data -/

/-- The proof data of the second region on core `c`: the arrays as the region finds them (`V`); after the body at
    tile `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic edge tile -/

/-- What the body is called with at tile `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any edge tile. The inputs' buffers hold their blocks; the tile's number says which case it is in;
    the invariant hands the body both accumulators — at anything at tile 0, at what the tile before left afterwards —
    and takes them back at this tile's contents (their stores cover them); the buffers the region never touches, the
    generator register and what the core owes pass through unread; the output's buffer is handed back untouched
    before the last tile, and at the last tile holds that case's store (which covers it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · have h1 : ¬t.val = 63 := by omega
    have hz : t.val = 0 := h0
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_open (F := F) c) $$ HΦ
    icases HΦ' with ⟨HS0, HS1, Hoth, Hg⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hoth Hg]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := h0
    by_cases h1 : t.val = 63
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every edge tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first edge tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any edge tile the invariant gives back what the launch handed over: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_close (F := F) c)
  iintro ⟨HS0, HS1, Hoth, Hg⟩
  isplitl [HS0]; · iexists _; iexact HS0
  isplitl [HS1]; · iexists _; iexact HS1
  isplitl [Hoth]; · iexact Hoth
  iexact Hg

/-- The same after the last edge tile. -/
theorem hout1 (c : Dev nD) : (dat1 V c).Φ (Fin.last cfg1.N) ⊢ Pipeline.ΦA spec1 c :=
  Phi_out1 V c _ (by rw [Fin.val_last]; have : cfg1.N = 64 := N_1; omega)

example (c : Dev nD) := (dat1 V c).share_full fun _ => rfl
example : ∀ c t, (dat1 V c).owed t = 0 := fun _ _ => rfl

end Region1

end Cert.Kernel.Hand

end
-- ==== Proof.WholeBits.lean ====
/-
  The whole run of @main: region 0 (the node scores), one host operation (the bias row reshaped), region 1 (the
  aggregation), composed over the contents every unscoped buffer holds at each boundary.

  The contents are a fold from the launch memory: at region 0's exit its arrays hold what its write-backs leave
  (the two inputs as entered, the score array at the fold of its flushed blocks) and every other buffer what it held;
  the reshape then writes the bias row's 1 × 256 copy; at region 1's exit its arrays hold what its write-backs leave.
  Every weakly fair execution terminates with each unscoped buffer at the last boundary's contents (`run_all`);
  read at the six argument arrays that is the frame claim (`frame_all`), and at the result buffer it names the
  result (`result_at`).
-/
import proofs.«115778_j1580547965681_1_alg».proof.Proof.R0FrameBits
import proofs.«115778_j1580547965681_1_alg».proof.Proof.R1FrameBits
import proofs.«115778_j1580547965681_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what region 0 is entered from (no host operation precedes it). -/
abbrev E0 : Dev nD → Valuation τ sig (Elt F) := fun c b => m (c, b)
/-- The same read at the TensorCore's references. -/
abbrev VE0 : (c : Dev nD) → (b : Ref sig .tc) → Buf (Elt F) ((c : Thread nD τ).loc b) := fun c b => E0 m c b

/-- At region 0's exit: its three arrays at what the pipeline leaves, every other buffer as entered. -/
def X0 (c : Dev nD) : Valuation τ sig (Elt F) :=
  Pipeline.withArrays spec0 c (E0 m c) fun w => (dat0 (VE0 m) c).arrAt w cfg0.N
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
abbrev VX0 : (c : Dev nD) → (b : Ref sig .tc) → Buf (Elt F) ((c : Thread nD τ).loc b) := fun c b => X0 m c b
theorem exit0_arr (c : Dev nD) (w : Fin cfg0.W) : (dat0 (VE0 m) c).arrAt w cfg0.N = VX0 m c (Pipeline.arrRef spec0 w) :=
  (X0_arr m c w).symm
theorem exit0_rest (c : Dev nD) : ∀ b, b ∉ Finset.univ.image (Pipeline.arrRef spec0) → VX0 m c b = VE0 m c b :=
  fun b hb => X0_of_ne m c b fun w e => hb (Finset.mem_image.mpr ⟨w, Finset.mem_univ _, e⟩)

/-- After the reshape of the bias row: what region 1 is entered from. -/
abbrev E1 : Dev nD → Valuation τ sig (Elt F) := fun c => StableHlo.after hostOps1 (X0 m c)
abbrev VE1 : (c : Dev nD) → (b : Ref sig .tc) → Buf (Elt F) ((c : Thread nD τ).loc b) := fun c b => E1 m c b
/-- The reshape writes the 1 × 256 copy only. -/
theorem E1_of (c : Dev nD) (r : Ref sig .tc) (h : r ∉ hostOps1_W) : E1 m c r = X0 m c r :=
  StableHlo.after_of_writes_sub hostOps1 _ hostOps1_writes h

/-- At region 1's exit: its six arrays at what the pipeline leaves, every other buffer as entered. -/
def X1 (c : Dev nD) : Valuation τ sig (Elt F) :=
  Pipeline.withArrays spec1 c (E1 m c) fun w => (dat1 (VE1 m) c).arrAt w cfg1.N
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
abbrev VX1 : (c : Dev nD) → (b : Ref sig .tc) → Buf (Elt F) ((c : Thread nD τ).loc b) := fun c b => X1 m c b
theorem exit1_arr (c : Dev nD) (w : Fin cfg1.W) : (dat1 (VE1 m) c).arrAt w cfg1.N = VX1 m c (Pipeline.arrRef spec1 w) :=
  (X1_arr m c w).symm
theorem exit1_rest (c : Dev nD) : ∀ b, b ∉ Finset.univ.image (Pipeline.arrRef spec1) → VX1 m c b = VE1 m c b :=
  fun b hb => X1_of_ne m c b fun w e => hb (Finset.mem_image.mpr ⟨w, Finset.mem_univ _, e⟩)

/-! ## The arguments end as launched

No region writes an argument (region 0 reads the query rows and the adjacency through input windows; region 1 the
incidence, the features and the weights; the bias row bypasses both) and the reshape writes its own result, so the fold
read at an argument walks back to the launch memory. -/

theorem X1_main_arg0 (c : Dev nD) : X1 m c (Proc.devRef .tc main_arg0) = m ((c : Thread nD τ).loc main_arg0) :=
  calc X1 m c (Proc.devRef .tc main_arg0)
    _ = E1 m c (Proc.devRef .tc main_arg0) := X1_of_ne m c main_arg0 (by decide)
    _ = X0 m c (Proc.devRef .tc main_arg0) := E1_of m c main_arg0 (by decide)
    _ = E0 m c (Proc.devRef .tc main_arg0) := (X0_arr m c 0).trans (((dat0 (VE0 m) c).arrAt_in 0 rfl _).trans (A_eq0 (VE0 m) c 0))
    _ = m ((c : Thread nD τ).loc main_arg0) := rfl
theorem X1_main_arg1 (c : Dev nD) : X1 m c (Proc.devRef .tc main_arg1) = m ((c : Thread nD τ).loc main_arg1) :=
  calc X1 m c (Proc.devRef .tc main_arg1)
    _ = E1 m c (Proc.devRef .tc main_arg1) := X1_of_ne m c main_arg1 (by decide)
    _ = X0 m c (Proc.devRef .tc main_arg1) := E1_of m c main_arg1 (by decide)
    _ = E0 m c (Proc.devRef .tc main_arg1) := (X0_arr m c 1).trans (((dat0 (VE0 m) c).arrAt_in 1 rfl _).trans (A_eq0 (VE0 m) c 1))
    _ = m ((c : Thread nD τ).loc main_arg1) := rfl
/-- What region 1 finds in a buffer region 0 does not stage and the reshape does not write: the launch contents. -/
theorem E1_launch (c : Dev nD) (b : Ref sig .tc) (hW : b ∉ hostOps1_W) (hb : ∀ w, Pipeline.arrRef spec0 w ≠ b) :
    E1 m c (Proc.devRef .tc b) = m ((c : Thread nD τ).loc b) :=
  (E1_of m c b hW).trans ((X0_of_ne m c b hb).trans rfl)
theorem X1_main_arg2 (c : Dev nD) : X1 m c (Proc.devRef .tc main_arg2) = m ((c : Thread nD τ).loc main_arg2) :=
  (X1_arr m c 1).trans (((dat1 (VE1 m) c).arrAt_in 1 rfl _).trans ((A_eq1 (VE1 m) c 1).trans (E1_launch m c main_arg2 (by decide) (by decide))))
theorem X1_main_arg3 (c : Dev nD) : X1 m c (Proc.devRef .tc main_arg3) = m ((c : Thread nD τ).loc main_arg3) :=
  (X1_arr m c 2).trans (((dat1 (VE1 m) c).arrAt_in 2 rfl _).trans ((A_eq1 (VE1 m) c 2).trans (E1_launch m c main_arg3 (by decide) (by decide))))
theorem X1_main_arg4 (c : Dev nD) : X1 m c (Proc.devRef .tc main_arg4) = m ((c : Thread nD τ).loc main_arg4) :=
  (X1_arr m c 3).trans (((dat1 (VE1 m) c).arrAt_in 3 rfl _).trans ((A_eq1 (VE1 m) c 3).trans (E1_launch m c main_arg4 (by decide) (by decide))))
theorem X1_main_arg5 (c : Dev nD) : X1 m c (Proc.devRef .tc main_arg5) = m ((c : Thread nD τ).loc main_arg5) :=
  (X1_of_ne m c main_arg5 (by decide)).trans (E1_launch m c main_arg5 (by decide) (by decide))

/-! ## The proof data family and the thread state -/

/-- No pipeline has a prefetched table. -/
abbrev tabs : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tabs p) c
  | ⟨0, _⟩ => fun c => dat0 (VE0 m) c
  | ⟨1, _⟩ => fun c => dat1 (VE1 m) c
abbrev noVar : Variants := Variants.none
/-- No core owes another anything: no level is assigned. -/
abbrev noPairs : GSem nD τ sig → Finset Unit := fun _ => ∅
abbrev noLevel : GSem nD τ sig → Unit → ℕ := fun _ _ => 0
/-- What rides beside the buffers through every segment: the generator register at some state and the core owing nothing. -/
abbrev Beside (c : Dev nD) : sProp 𝕄 := iprop((∃ r, prngReg c r) ∗ ∃ W, owes (c : Thread nD τ) (0 : CellTallies nD τ sig Unit) W)
/-- The reshape as a segment over the unscoped references, entered from region 0's exit contents. -/
abbrev reshapeSeg : Pipeline.HostSeg (Name := ℕ) (U := UR sig nD τ) (pcfgs (F := F)) defs₀ noVar noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X0 m) Beside
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at region 1's exit contents, the generator register. -/
abbrev Last (c : Dev nD) : sProp 𝕄 := iprop(StableHlo.held (c : Thread nD τ) (Pipeline.ucRefs τ sig) (X1 m c) ∗ ∃ r, prngReg c r)

/-! ## The regions as segments -/

/-- The generator register, the (empty) tables and the scoped rest regrouped as the kernel's entry invariant. -/
theorem entry_regroup (A B C : sProp 𝕄) : iprop(A ∗ B ∗ C) ⊢ iprop(C ∗ A) := by
  iintro ⟨Hp, -, Hr⟩
  isplitl [Hr]; · iexact Hr
  iexact Hp
/-- The exit invariant regrouped as the generator register, no semaphore of the kernel's own, and the scoped rest. -/
theorem exit_regroup (A C : sProp 𝕄) : iprop(C ∗ A) ⊢ iprop(A ∗ BI.emp ∗ C) := by
  iintro ⟨Hr, Hp⟩
  isplitl [Hp]; · iexact Hp
  isplitr; · iempintro
  iexact Hr

set_option backward.isDefEq.respectTransparency.types false in
/-- Region 0 over the thread state: entered from the launch contents, left at `X0`. Its arrays are split out of the
    unscoped buffers and put back at their exit contents; the generator register and the scoped buffers no window
    stages go into the kernel's invariant and come back; nothing is owed. -/
def reg0 : Pipeline.RegionSeg (pcfgs (F := F)) tabs (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ noPairs noLevel 0 fun _ _ => rfl
  pre c := iprop(StableHlo.held (c : Thread nD τ) (Pipeline.ucRefs τ sig) (E0 m c) ∗ Beside c)
  post c := iprop(StableHlo.held (c : Thread nD τ) (Pipeline.ucRefs τ sig) (X0 m c) ∗ Beside c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VE0 m) c
    unfold Pipeline.ΦA at h
    exact (entry_regroup _ _ _).trans h
  hout c := by
    rw [Pipeline.ownSems0_none]
    have h := hout0 (VE0 m) c
    unfold Pipeline.ΦA at h
    exact h.trans (exit_regroup _ _)
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `E1` (the reshape's result in place), left at `X1`, the last contents. -/
def reg1 : Pipeline.RegionSeg (pcfgs (F := F)) tabs (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ noPairs noLevel 1 fun _ _ => rfl
  pre c := iprop(StableHlo.held (c : Thread nD τ) (Pipeline.ucRefs τ sig) (E1 m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VE1 m) c
    unfold Pipeline.ΦA at h
    exact (entry_regroup _ _ _).trans h
  hout c := by
    rw [Pipeline.ownSems0_none]
    have h := hout1 (VE1 m) c
    unfold Pipeline.ΦA at h
    exact h.trans (exit_regroup _ _)
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev mainSegs : List (Pipeline.Seg (pcfgs (F := F)) tabs (pdats m) () defs₀ noVar noPairs noLevel) :=
  [ .region (reg0 m), .host (reshapeSeg m), .region (reg1 m) ]
/-- @main is the run of the segments. -/
theorem main_run (c : Dev nD) : main (F := F) c = Pipeline.Seg.run (mainSegs m) := (main_chain c).trans (by chain_rfl)

set_option backward.isDefEq.respectTransparency.types false in
/-- At the compiled mesh, from any memory with zero counters, every weakly fair execution of @main on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X1 m c b) :=
  Pipeline.θ_run_regions_kit (pcfgs (F := F)) tabs (pdats m) () cellOf_inj emb₁ defs₀ noVar noPairs noLevel m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ Beside c)) (Tₙ := Last m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X1 m c b)
    (hfin := fun c s' => by
      iintro ⟨⟨Hh, -⟩, HSI⟩
      unfold StableHlo.held
      imodintro
      iapply (pointsTo_read_all (Pipeline.ucRefs τ sig) (fun b => (((c : Thread nD τ)).1, b)) (X1 m c) s')
      isplitl [Hh] <;> iassumption)
    (hQ := fun s h => h)

/-- The frame: every weakly fair execution terminates and the six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (X1_main_arg0 m c),
     (h c _ (mem_uc main_arg1 (by decide))).trans (X1_main_arg1 m c),
     (h c _ (mem_uc main_arg2 (by decide))).trans (X1_main_arg2 m c),
     (h c _ (mem_uc main_arg3 (by decide))).trans (X1_main_arg3 m c),
     (h c _ (mem_uc main_arg4 (by decide))).trans (X1_main_arg4 m c),
     (h c _ (mem_uc main_arg5 (by decide))).trans (X1_main_arg5 m c)⟩) (run_all m ρ)

/-- The result buffer ends at what region 1's write-backs leave in its output array. -/
theorem result_at (c : Dev nD) : X1 m c (Proc.devRef .tc main_v2) = (dat1 (VE1 m) c).arrAt 5 cfg1.N := X1_arr m c 5

/-- What region 1 finds in the score array: what region 0's write-backs left there. -/
theorem E1_main_v0 (c : Dev nD) : E1 m c (Proc.devRef .tc main_v0) = (dat0 (VE0 m) c).arrAt 2 cfg0.N :=
  (E1_of m c main_v0 (by decide)).trans (X0_arr m c 2)

end Cert.Kernel.Hand

end
-- ==== Proof.R0Frame.lean ====
import proofs.«115778_j1580547965681_1_alg».proof.Proof.Gen.KernelIdeal.Launch
import proofs.«115778_j1580547965681_1_alg».proof.Proof.Gen.KernelIdeal.Skeleton
import proofs.«115778_j1580547965681_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the node scores g = edge_nodes · adj, one K tile at a time

The grid is 4 × 4; point t = 4·n + k multiplies the k-th column tile of edge_nodes (256 × 1024) by
block (k, n) of adj (1024 × 1024) and adds the product to an accumulator (256 × 1024) carried from point
to point. The accumulator is cleared when k = 0 and copied to the output block (0, n) when k = 3.
This module states what every buffer holds after each point and proves that the body keeps those
statements, for any contents V the arrays hold when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

/-- The body clears the accumulator: the K coordinate is 0 (the scalar chain of the first conditional). -/
abbrev clears (i : grid0.Coords) : Prop := (Scalar.cmpi .ne (Scalar.extui (Scalar.cmpi .eq (BitVec.ofNat 32 (i 1).val) 0#32)) 0#32) = 1#1
/-- It does at the points ≡ 0 (mod 4). -/
theorem clears_iff : ∀ t : Fin cfg0.N, clears (grid0.coords t) ↔ t.val % 4 = 0 :=
  (by decide +kernel : ∀ t : Fin grid0.N, clears (grid0.coords t) ↔ t.val % 4 = 0)

/-- The body copies the accumulator to the output block: the K coordinate is 3 (the second conditional). -/
abbrev copies (i : grid0.Coords) : Prop := k0_cond2 i = 1#1
/-- It does at the points ≡ 3 (mod 4). -/
theorem copies_iff : ∀ t : Fin cfg0.N, copies (grid0.coords t) ↔ t.val % 4 = 3 :=
  (by decide +kernel : ∀ t : Fin grid0.N, copies (grid0.coords t) ↔ t.val % 4 = 3)

/-! ## Where the windows are idle -/

/-- The two input windows are never idle. -/
theorem live_en : ∀ t : Fin cfg0.N, cfg0.idle 0 (grid0.coords t) = false := by decide +kernel
theorem live_adj : ∀ t : Fin cfg0.N, cfg0.idle 1 (grid0.coords t) = false := by decide +kernel
/-- Away from the last K tile the output window is idle and is not written back. -/
theorem idle_out : ∀ t : Fin cfg0.N, ¬copies (grid0.coords t) → cfg0.idle 2 (grid0.coords t) = true := by decide +kernel
theorem noFlush_out : ∀ t : Fin cfg0.N, ¬copies (grid0.coords t) → (cfg0.win 2).flush t = false := by decide +kernel
/-- At the last K tile it is live. -/
theorem live_out : ∀ t : Fin cfg0.N, copies (grid0.coords t) → cfg0.idle 2 (grid0.coords t) = false := by decide +kernel

/-! ## The memrefs the body is called with -/

/-- One staging buffer of the output window, through which its contents are stated. -/
abbrev outView : View sig .tc .vmem S256x1024 .f32 := (Memref.whole cc0_stg2_0 : Memref sig .tc .vmem S256x1024 .f32).view
/-- Each window's current staging memref at point t, and its wholeness. -/
abbrev enAt (t : Fin cfg0.N) : Memref sig .tc .vmem S256x1024 .f32 := win0_0.stage (cfg0.slots t 0)
abbrev enAt_whole (t : Fin cfg0.N) : (enAt t).IsWhole := hstage0_0 ((cfg0.slots t 0).cast nbuf0_0)
abbrev adjAt (t : Fin cfg0.N) : Memref sig .tc .vmem S1024x1024 .f32 := win0_1.stage (cfg0.slots t 1)
abbrev adjAt_whole (t : Fin cfg0.N) : (adjAt t).IsWhole := hstage0_1 ((cfg0.slots t 1).cast nbuf0_1)
abbrev outAt (t : Fin cfg0.N) : Memref sig .tc .vmem S256x1024 .f32 := win0_2.stage (cfg0.slots t 2)
abbrev outAt_whole (t : Fin cfg0.N) : (outAt t).IsWhole := hstage0_2 ((cfg0.slots t 2).cast nbuf0_2)
/-- The accumulator: a whole scoped buffer of the kernel's own. -/
abbrev accMem : Memref sig .tc .vmem S256x1024 .f32 := Memref.whole cc0_scratch0
abbrev accView : View sig .tc .vmem S256x1024 .f32 := accMem.view

/-! ## The invariant's fixed part -/

/-- The scoped buffers of the other region (its staging buffers and its two accumulators), each whole at some
    contents: region 0 never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the accumulator at some contents, the other region's scoped buffers, the
    generator register at some state. -/
theorem PhiA0_eq (c : Dev nD) :
    (Pipeline.ΦA spec0 c : sProp 𝕄)
      = iprop((∃ d, owns (c : Thread nD τ) accMem fullShare d) ∗ others0 c ∗ (∃ r, prngReg c r)) := by
  unfold Pipeline.ΦA others0; rw [scopedRest0_eq]; simp only [accMem, owns_whole]
  exact Entails.antisymm Idealize.SL.BI.sep_assoc Idealize.SL.BI.sep_assoc'

/-! ## The body on any staging memrefs, one control case at a time

Each run is a pair: the pieces the body's stores leave in the output window's buffer and in the accumulator
(last first), and the proof that from whole memrefs at the stated contents the body runs to a continuation
holding the inputs as they were and each stored buffer with its pieces written. -/

set_option maxHeartbeats 1000000 in
/-- First K tile (k = 0): the accumulator, at anything, is cleared and then receives the first product; the
    output window's buffer, at contents held back untouched, is not stored into. -/
noncomputable def runFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) :
    Σ' (Lout : List (View.Piece (Elt F) S256x1024 .f32)), { Lacc : List (View.Piece (Elt F) S256x1024 .f32) //
      ∀ (xo : Vec F S256x1024 .f32) (E : Set ℕ) (K : PUnit → sProp 𝕄),
        iprop(owns (c : Thread nD τ) enM fullShare x0 ∗ owns (c : Thread nD τ) adjM fullShare x1 ∗ owns (c : Thread nD τ) outM fullShare xo ∗ (∃ d, owns (c : Thread nD τ) accM fullShare d)
            ∗ (iprop(owns (c : Thread nD τ) enM fullShare x0 ∗ owns (c : Thread nD τ) adjM fullShare x1 ∗ owns (c : Thread nD τ) outM fullShare xo ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨[], ?_, fun xo E K => ?run⟩
  case run =>
    simp only [cc0__g_kernel_eq_skeleton]; unfold cc0__g_kernel_skel
    unfold owns
    iintro ⟨⟨%f0, %hf0, H0⟩, ⟨%f1, %hf1, H1⟩, ⟨%f2, %hf2, H2⟩, ⟨%ds0, %fs0, -, HS0⟩, Hk⟩
    obtain rfl := henM.eq_unread hf0; obtain rfl := hadjM.eq_unread hf1; obtain rfl := houtM.eq_unread hf2
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]
    · iexists _; isplitr; · ipureintro; exact houtM.read_unread _
      iexact H2
    iexists _; iexact HS0

set_option maxHeartbeats 1000000 in
/-- Middle K tiles (k = 1, 2): the accumulator, at what the point before left, receives one more product; the
    output window's buffer is not stored into. -/
noncomputable def runMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) :
    Σ' (Lout : List (View.Piece (Elt F) S256x1024 .f32)), { Lacc : List (View.Piece (Elt F) S256x1024 .f32) //
      ∀ (xo : Vec F S256x1024 .f32) (E : Set ℕ) (K : PUnit → sProp 𝕄),
        iprop(owns (c : Thread nD τ) enM fullShare x0 ∗ owns (c : Thread nD τ) adjM fullShare x1 ∗ owns (c : Thread nD τ) outM fullShare xo ∗ owns (c : Thread nD τ) accM fullShare xa
            ∗ (iprop(owns (c : Thread nD τ) enM fullShare x0 ∗ owns (c : Thread nD τ) adjM fullShare x1 ∗ owns (c : Thread nD τ) outM fullShare xo ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨[], ?_, fun xo E K => ?run⟩
  case run =>
    simp only [cc0__g_kernel_eq_skeleton]; unfold cc0__g_kernel_skel
    unfold owns
    iintro ⟨⟨%f0, %hf0, H0⟩, ⟨%f1, %hf1, H1⟩, ⟨%f2, %hf2, H2⟩, ⟨%fs0, %hfs0, HS0⟩, Hk⟩
    obtain rfl := henM.eq_unread hf0; obtain rfl := hadjM.eq_unread hf1; obtain rfl := houtM.eq_unread hf2; obtain rfl := haccM.eq_unread hfs0
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]
    · iexists _; isplitr; · ipureintro; exact houtM.read_unread _
      iexact H2
    iexists _; iexact HS0

set_option maxHeartbeats 1000000 in
/-- Last K tile (k = 3): the accumulator receives the last product and is then copied to the output window's
    buffer, which may hold anything before. -/
noncomputable def runLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) :
    Σ' (Lout : List (View.Piece (Elt F) S256x1024 .f32)), { Lacc : List (View.Piece (Elt F) S256x1024 .f32) //
      ∀ (E : Set ℕ) (K : PUnit → sProp 𝕄),
        iprop(owns (c : Thread nD τ) enM fullShare x0 ∗ owns (c : Thread nD τ) adjM fullShare x1 ∗ (∃ d, owns (c : Thread nD τ) outM fullShare d) ∗ owns (c : Thread nD τ) accM fullShare xa
            ∗ (iprop(owns (c : Thread nD τ) enM fullShare x0 ∗ owns (c : Thread nD τ) adjM fullShare x1 ∗ (∃ f, outM.view.loc (c : Thread nD τ) ↦[outM.view.set]{fullShare} outM.view.writes (Elt F) f Lout) ∗ (∃ f, accM.view.loc (c : Thread nD τ) ↦[accM.view.set]{fullShare} accM.view.writes (Elt F) f Lacc)) -∗ K ⟨⟩))
          ⊢ wp frame (wpE (defs₀ (F := F)) Variants.none c none) E (cc0__g_kernel i enM henM adjM hadjM outM houtM accM haccM) K } := by
  refine ⟨?_, ?_, fun E K => ?run⟩
  case run =>
    simp only [cc0__g_kernel_eq_skeleton]; unfold cc0__g_kernel_skel
    unfold owns
    iintro ⟨⟨%f0, %hf0, H0⟩, ⟨%f1, %hf1, H1⟩, ⟨%d2, %f2, -, H2⟩, ⟨%fs0, %hfs0, HS0⟩, Hk⟩
    obtain rfl := henM.eq_unread hf0; obtain rfl := hadjM.eq_unread hf1; obtain rfl := haccM.eq_unread hfs0
    sl_exec (disch := first | exact hc0 | exact hc1)
    sl_step
    iapply Hk
    isplitl [H0]
    · iexists _; isplitr; · ipureintro; exact henM.read_unread _
      iexact H0
    isplitl [H1]
    · iexists _; isplitr; · ipureintro; exact hadjM.read_unread _
      iexact H1
    isplitl [H2]; · iexists _; iexact H2
    iexists _; iexact HS0

/-! ## What each case leaves, as contents -/

/-- First K tile: the output window's buffer is not stored into — a placeholder nothing consults. -/
def stgFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) : Vec F S256x1024 .f32 :=
  outView.read (Elt F) (outView.writes (Elt F) outView.junk (runFirst c i enM henM adjM hadjM outM houtM accM haccM hc0 hc1 x0 x1).1)

/-- First K tile: the accumulator's two stores (the clearing, then the sum) cover it. -/
theorem accFirst_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) (y : S256x1024.Idx) :
    ∃ pc ∈ (runFirst c i enM henM adjM hadjM outM houtM accM haccM hc0 hc1 x0 x1).2.1, y ∈ pc.1.set :=
  View.cover_of_tiledL (runFirst c i enM henM adjM hadjM outM houtM accM haccM hc0 hc1 x0 x1).2.1 S256x1024.size (by sl_kernel_rfl) y

/-- First K tile: what the accumulator holds afterwards. -/
def accFirst (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) : Vec F S256x1024 .f32 :=
  accView.read (Elt F) (accView.writes (Elt F) accView.junk (runFirst c i enM henM adjM hadjM outM houtM accM haccM hc0 hc1 x0 x1).2.1)

/-- Middle K tiles: the output window's buffer is not stored into — a placeholder nothing consults. -/
def stgMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) : Vec F S256x1024 .f32 :=
  outView.read (Elt F) (outView.writes (Elt F) outView.junk (runMid c i enM henM adjM hadjM outM houtM accM haccM hc0 hc1 x0 x1 xa).1)

/-- Middle K tiles: the accumulator's one store covers it. -/
theorem accMid_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) (y : S256x1024.Idx) :
    ∃ pc ∈ (runMid c i enM henM adjM hadjM outM houtM accM haccM hc0 hc1 x0 x1 xa).2.1, y ∈ pc.1.set :=
  View.cover_of_tiledL (runMid c i enM henM adjM hadjM outM houtM accM haccM hc0 hc1 x0 x1 xa).2.1 S256x1024.size (by sl_kernel_rfl) y

/-- Middle K tiles: what the accumulator holds afterwards. -/
def accMid (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) : Vec F S256x1024 .f32 :=
  accView.read (Elt F) (accView.writes (Elt F) accView.junk (runMid c i enM henM adjM hadjM outM houtM accM haccM hc0 hc1 x0 x1 xa).2.1)

/-- Last K tile: the one store into the output window's buffer covers it. -/
theorem stgLast_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) (y : S256x1024.Idx) :
    ∃ pc ∈ (runLast c i enM henM adjM hadjM outM houtM accM haccM hc0 hc1 x0 x1 xa).1, y ∈ pc.1.set :=
  View.cover_of_tiledL (runLast c i enM henM adjM hadjM outM houtM accM haccM hc0 hc1 x0 x1 xa).1 S256x1024.size (by sl_kernel_rfl) y

/-- Last K tile: what the output window's buffer holds afterwards. -/
def stgLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) : Vec F S256x1024 .f32 :=
  outView.read (Elt F) (outView.writes (Elt F) outView.junk (runLast c i enM henM adjM hadjM outM houtM accM haccM hc0 hc1 x0 x1 xa).1)

/-- Last K tile: the accumulator's one store covers it. -/
theorem accLast_cover (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) (y : S256x1024.Idx) :
    ∃ pc ∈ (runLast c i enM henM adjM hadjM outM houtM accM haccM hc0 hc1 x0 x1 xa).2.1, y ∈ pc.1.set :=
  View.cover_of_tiledL (runLast c i enM henM adjM hadjM outM houtM accM haccM hc0 hc1 x0 x1 xa).2.1 S256x1024.size (by sl_kernel_rfl) y

/-- Last K tile: what the accumulator holds afterwards. -/
def accLast (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) : Vec F S256x1024 .f32 :=
  accView.read (Elt F) (accView.writes (Elt F) accView.junk (runLast c i enM henM adjM hadjM outM houtM accM haccM hc0 hc1 x0 x1 xa).2.1)

section Entry
-- the arrays' contents when the region is entered: the parameter everything below is stated at
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge_nodes window's current staging buffer holds its block at every point, for any proof data whose array is
    the entry contents and whose body leaves the block in place. -/
theorem before_en_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the adj window. -/
theorem before_adj_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the buffers hold after each point -/

/-- THE ACCUMULATION. After the body at position n: (the output window's staging buffer, the accumulator). The case
    is the one n % 4 selects, run at the point's memrefs and the two input blocks, the accumulator before it at what
    position n - 1 left. -/
def outsAt0 (c : Dev nD) : (n : ℕ) → n < cfg0.N → Vec F S256x1024 .f32 × Vec F S256x1024 .f32
  | 0, hn => (stgFirst c (grid0.coords ⟨0, hn⟩) (enAt ⟨0, hn⟩) (enAt_whole ⟨0, hn⟩) (adjAt ⟨0, hn⟩) (adjAt_whole ⟨0, hn⟩) (outAt ⟨0, hn⟩) (outAt_whole ⟨0, hn⟩) accMem (Memref.isWhole_whole _) ((clears_iff ⟨0, hn⟩).mpr (Nat.zero_mod _)) (fun h => (fun h => by (try dsimp only at h); omega) ((copies_iff ⟨0, hn⟩).mp h)) (iblk0 V c 0 ⟨0, hn⟩) (iblk0 V c 1 ⟨0, hn⟩), accFirst c (grid0.coords ⟨0, hn⟩) (enAt ⟨0, hn⟩) (enAt_whole ⟨0, hn⟩) (adjAt ⟨0, hn⟩) (adjAt_whole ⟨0, hn⟩) (outAt ⟨0, hn⟩) (outAt_whole ⟨0, hn⟩) accMem (Memref.isWhole_whole _) ((clears_iff ⟨0, hn⟩).mpr (Nat.zero_mod _)) (fun h => (fun h => by (try dsimp only at h); omega) ((copies_iff ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (stgFirst c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) ((clears_iff ⟨n + 1, hn⟩).mpr h0) (fun h => h1 ((copies_iff ⟨n + 1, hn⟩).mp h)) (iblk0 V c 0 ⟨n + 1, hn⟩) (iblk0 V c 1 ⟨n + 1, hn⟩), accFirst c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) ((clears_iff ⟨n + 1, hn⟩).mpr h0) (fun h => h1 ((copies_iff ⟨n + 1, hn⟩).mp h)) (iblk0 V c 0 ⟨n + 1, hn⟩) (iblk0 V c 1 ⟨n + 1, hn⟩))
    else
      if h1 : (n + 1) % 4 = 3 then
        (stgLast c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) ((copies_iff ⟨n + 1, hn⟩).mpr h1) (iblk0 V c 0 ⟨n + 1, hn⟩) (iblk0 V c 1 ⟨n + 1, hn⟩) (outsAt0 c n (Nat.lt_of_succ_lt hn)).2, accLast c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) ((copies_iff ⟨n + 1, hn⟩).mpr h1) (iblk0 V c 0 ⟨n + 1, hn⟩) (iblk0 V c 1 ⟨n + 1, hn⟩) (outsAt0 c n (Nat.lt_of_succ_lt hn)).2)
      else
        (stgMid c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) (fun h => h1 ((copies_iff ⟨n + 1, hn⟩).mp h)) (iblk0 V c 0 ⟨n + 1, hn⟩) (iblk0 V c 1 ⟨n + 1, hn⟩) (outsAt0 c n (Nat.lt_of_succ_lt hn)).2, accMid c (grid0.coords ⟨n + 1, hn⟩) (enAt ⟨n + 1, hn⟩) (enAt_whole ⟨n + 1, hn⟩) (adjAt ⟨n + 1, hn⟩) (adjAt_whole ⟨n + 1, hn⟩) (outAt ⟨n + 1, hn⟩) (outAt_whole ⟨n + 1, hn⟩) accMem (Memref.isWhole_whole _) (fun h => h0 ((clears_iff ⟨n + 1, hn⟩).mp h)) (fun h => h1 ((copies_iff ⟨n + 1, hn⟩).mp h)) (iblk0 V c 0 ⟨n + 1, hn⟩) (iblk0 V c 1 ⟨n + 1, hn⟩) (outsAt0 c n (Nat.lt_of_succ_lt hn)).2)

/-- The accumulation at a point of the first K tile. -/
theorem outsAt0_first (c : Dev nD) (t : Fin cfg0.N) (h0 : t.val % 4 = 0) (h1 : ¬t.val % 4 = 3) :
    outsAt0 V c t.val t.isLt = (stgFirst c (grid0.coords t) (enAt t) (enAt_whole t) (adjAt t) (adjAt_whole t) (outAt t) (outAt_whole t) accMem (Memref.isWhole_whole _) ((clears_iff t).mpr h0) (fun h => h1 ((copies_iff t).mp h)) (iblk0 V c 0 t) (iblk0 V c 1 t), accFirst c (grid0.coords t) (enAt t) (enAt_whole t) (adjAt t) (adjAt_whole t) (outAt t) (outAt_whole t) accMem (Memref.isWhole_whole _) ((clears_iff t).mpr h0) (fun h => h1 ((copies_iff t).mp h)) (iblk0 V c 0 t) (iblk0 V c 1 t)) := by
  obtain ⟨n, hn⟩ := t
  cases n with
  | zero => exact rfl
  | succ n => exact (dif_pos h0).trans ((dif_neg h1).trans rfl)

/-- The accumulation at a point of a middle K tile, over what the point before left. -/
theorem outsAt0_mid (c : Dev nD) (t : Fin cfg0.N) (h0 : ¬t.val % 4 = 0) (h1 : ¬t.val % 4 = 3) :
    outsAt0 V c t.val t.isLt = (stgMid c (grid0.coords t) (enAt t) (enAt_whole t) (adjAt t) (adjAt_whole t) (outAt t) (outAt_whole t) accMem (Memref.isWhole_whole _) (fun h => h0 ((clears_iff t).mp h)) (fun h => h1 ((copies_iff t).mp h)) (iblk0 V c 0 t) (iblk0 V c 1 t) (outsAt0 V c (t.val - 1) (Nat.lt_of_le_of_lt (Nat.sub_le _ _) t.isLt)).2, accMid c (grid0.coords t) (enAt t) (enAt_whole t) (adjAt t) (adjAt_whole t) (outAt t) (outAt_whole t) accMem (Memref.isWhole_whole _) (fun h => h0 ((clears_iff t).mp h)) (fun h => h1 ((copies_iff t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at a point of the last K tile, over what the point before left. -/
theorem outsAt0_last (c : Dev nD) (t : Fin cfg0.N) (h0 : ¬t.val % 4 = 0) (h1 : t.val % 4 = 3) :
    outsAt0 V c t.val t.isLt = (stgLast c (grid0.coords t) (enAt t) (enAt_whole t) (adjAt t) (adjAt_whole t) (outAt t) (outAt_whole t) accMem (Memref.isWhole_whole _) (fun h => h0 ((clears_iff t).mp h)) ((copies_iff t).mpr h1) (iblk0 V c 0 t) (iblk0 V c 1 t) (outsAt0 V c (t.val - 1) (Nat.lt_of_le_of_lt (Nat.sub_le _ _) t.isLt)).2, accLast c (grid0.coords t) (enAt t) (enAt_whole t) (adjAt t) (adjAt_whole t) (outAt t) (outAt_whole t) accMem (Memref.isWhole_whole _) (fun h => h0 ((clears_iff t).mp h)) ((copies_iff t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point what the launch hands over; afterwards the accumulator at what the point
    before left in it, the other region's scoped buffers and the generator register carried along. -/
def PhiS (c : Dev nD) : (n : ℕ) → n ≤ cfg0.N → sProp 𝕄
  | 0, _ => Pipeline.ΦA spec0 c
  | n + 1, hn => iprop(owns (c : Thread nD τ) accMem fullShare ((outsAt0 V c n hn).2) ∗ others0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accMem fullShare ((outsAt0 V c n hn).2) ∗ others0 c ∗ (∃ r, prngReg c r)) := rfl

theorem PhiS_pos (c : Dev nD) (n : ℕ) (h : n ≤ cfg0.N) (hz : n ≠ 0) :
    PhiS V c n h = iprop(owns (c : Thread nD τ) accMem fullShare ((outsAt0 V c (n - 1) (by omega)).2) ∗ others0 c ∗ (∃ r, prngReg c r)) := by
  cases n with
  | zero => exact absurd rfl hz
  | succ n => rfl

/-! ## The pipeline's proof data -/

/-- The proof data of region 0 on core c: the arrays as the region finds them; after the body at point t the two
    inputs' buffers at their blocks and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before_en_of V (dat0 V c) (A_eq0 V c 0) (after0_0 V c) t d
theorem before0_1 (c : Dev nD) (t : Fin cfg0.N) (d) : (dat0 V c).before 1 t d = iblk0 V c 1 t :=
  before_adj_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (enAt t) fullShare ((dat0 V c).before 0 t d))
    ∗ (∃ d, owns (c : Thread nD τ) (adjAt t) fullShare ((dat0 V c).before 1 t d))
    ∗ (∃ d, owns (c : Thread nD τ) (outAt t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; t % 4 says which case the point is in; the invariant
    hands the body the accumulator (at anything before the first point, at what the point before left afterwards) and
    takes it back at this point's contents; the other region's buffers, the generator register and the core's debts
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (enAt t) fullShare ((dat0 V c).after 0 t) from by
    unfold Dat.leavesExact; rw [live_en t], after0_0]
  rw [show (dat0 V c).leavesExact 1 t = owns (c : Thread nD τ) (adjAt t) fullShare ((dat0 V c).after 1 t) from by
    unfold Dat.leavesExact; rw [live_adj t], after0_1]
  by_cases h0 : t.val % 4 = 0
  · have h1 : ¬t.val % 4 = 3 := by omega
    rw [Dat.leavesExact_idle (dat0 V c) 2 t (idle_out t (fun h => h1 ((copies_iff t).mp h))) (noFlush_out t (fun h => h1 ((copies_iff t).mp h)))]
    rw [outsAt0_first V c t h0 h1]
    unfold accFirst; (try dsimp only)
    by_cases hz : t.val = 0
    · rw [PhiS_castSucc V c t, PhiS_zero V c _ _ hz, PhiA0_eq]
      iintro ⟨⟨HS0, Hr, Hg⟩, Ho, ⟨%d0, H0⟩, ⟨%d1, H1⟩, ⟨%d2, H2⟩⟩
      iapply ((runFirst c (grid0.coords t) _ _ _ _ _ _ _ _ ((clears_iff t).mpr h0) (fun h => h1 ((copies_iff t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accFirst_cover c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, Hr, Hg⟩, Ho, ⟨%d0, H0⟩, ⟨%d1, H1⟩, ⟨%d2, H2⟩⟩
      iapply ((runFirst c (grid0.coords t) _ _ _ _ _ _ _ _ ((clears_iff t).mpr h0) (fun h => h1 ((copies_iff t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accFirst_cover c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (outAt t) fullShare ((dat0 V c).after 2 t) from by
        unfold Dat.leavesExact; rw [live_out t ((copies_iff t).mpr h1)], after0_2]
      rw [outsAt0_last V c t h0 h1]
      unfold stgLast accLast; (try dsimp only)
      rw [PhiS_castSucc V c t, PhiS_pos V c _ _ hz]
      iintro ⟨⟨HS0, Hr, Hg⟩, Ho, ⟨%d0, H0⟩, ⟨%d1, H1⟩, ⟨%d2, H2⟩⟩
      iapply ((runLast c (grid0.coords t) _ _ _ _ _ _ _ _ (fun h => h0 ((clears_iff t).mp h)) ((copies_iff t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (accLast_cover c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (stgLast_cover c _ _ _ _ _ _ _ _ _ _ _ _ _ _)
    · rw [Dat.leavesExact_idle (dat0 V c) 2 t (idle_out t (fun h => h1 ((copies_iff t).mp h))) (noFlush_out t (fun h => h1 ((copies_iff t).mp h)))]
      rw [outsAt0_mid V c t h0 h1]
      unfold accMid; (try dsimp only)
      rw [PhiS_castSucc V c t, PhiS_pos V c _ _ hz]
      iintro ⟨⟨HS0, Hr, Hg⟩, Ho, ⟨%d0, H0⟩, ⟨%d1, H1⟩, ⟨%d2, H2⟩⟩
      iapply ((runMid c (grid0.coords t) _ _ _ _ _ _ _ _ (fun h => h0 ((clears_iff t).mp h)) (fun h => h1 ((copies_iff t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (accMid_cover c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hr, Hg⟩
  isplitl [HS0]
  · iexists _; iexact HS0
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

/-- The proof data keeps full shares and owes nothing. -/
example (c : Dev nD) := (dat0 V c).share_full fun _ => rfl
example : ∀ (c : Dev nD) (t : Fin (cfg0.N + 1)), (dat0 V c).owed t = 0 := fun _ _ => rfl

end Entry

end Cert.KernelIdeal.Hand

end
-- ==== Proof.R1Frame.lean ====
/-
  The second region of the program — the streaming aggregation over the 64 edge tiles — as a pipeline whose body
  carries two accumulators from tile to tile, stated at the contents `V` the buffers hold when the region is entered.

  At edge tile `e` the body reads the whole node-score array `g` (256×4096), columns `512·e …` of the incidence
  matrix (4096×512), rows `512·e …` of the edge features (512×256), the weight (256×256) and the bias row (1×256);
  it adds to the count accumulator (256×1) the number of selected edges of the tile per row, and to the sum
  accumulator (256×256) the selected edges' transformed features. Both accumulators are reset at tile 0. At tile 63
  the sum times the reciprocal of the count (zero where the count is not positive) is stored into the output block,
  which is the whole result array and is written back there only.

  Three control cases by the tile: the first (reset, accumulate; output idle), an inner one (accumulate; output idle),
  the last (accumulate; store the output). For each, the body's run on arbitrary whole memrefs, with the pieces each
  accumulator and the output end with; then what the three buffers hold after every tile, by recursion on the tile;
  the invariant (both accumulators at the previous tile's contents, beside the buffers the region never touches);
  the proof data; and the body obligation at a generic tile.
-/
import proofs.«115778_j1580547965681_1_alg».proof.Proof.Gen.KernelIdeal.Launch
import proofs.«115778_j1580547965681_1_alg».proof.Proof.Gen.KernelIdeal.Skeleton
import proofs.«115778_j1580547965681_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the second region is entered: the parameter the whole half is stated at
variable (V : (c : Dev nD) → (b : Ref sig .tc) → Buf (Elt F) ((c : Thread nD τ).loc b))

/-! ## The windows' blocks -/

/-- Window `w`'s block at the edge tile `t`, read off its array as the region finds it (`V`): the whole array for
    the node scores, the weight and the bias row; columns `512·t …` of the incidence matrix; rows `512·t …` of the
    edge features. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every edge tile, fetched there or not (unfetched,
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every edge tile, fetched there or not (unfetched,
    the block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every edge tile, fetched there or not (unfetched,
    the block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every edge tile, fetched there or not (unfetched,
    the block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every edge tile, fetched there or not (unfetched,
    the block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the edge tile -/

/-- "This is the first edge tile": the condition under which both accumulators are reset. -/
abbrev cond1_0 (i : grid1.Coords) : Prop := (Scalar.cmpi .ne (Scalar.extui (Scalar.cmpi .eq (BitVec.ofNat 32 (i 0).val) 0#32)) 0#32) = 1#1
/-- It holds at tile 0 only. -/
theorem hcond1_0 : ∀ t : Fin cfg1.N, cond1_0 (grid1.coords t) ↔ t.val = 0 :=
  (by decide +kernel : ∀ t : Fin grid1.N, cond1_0 (grid1.coords t) ↔ t.val = 0)

/-- "This is the last edge tile": the condition under which the normalised sum is stored. -/
abbrev cond1_1 (i : grid1.Coords) : Prop := k1_cond2 i = 1#1
/-- It holds at tile 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Before the last tile nothing is stored into the output window: it is idle, -/
theorem idleAt1_5 : ∀ t : Fin cfg1.N, ¬cond1_1 (grid1.coords t) → cfg1.idle 5 (grid1.coords t) = true := by decide +kernel
/-- and its block is not written back. -/
theorem noFlush1_5 : ∀ t : Fin cfg1.N, ¬cond1_1 (grid1.coords t) → (cfg1.win 5).flush t = false := by decide +kernel
/-- At the last tile the output window is live: the normalised sum is stored into it. -/
theorem liveAt1_5 : ∀ t : Fin cfg1.N, cond1_1 (grid1.coords t) → cfg1.idle 5 (grid1.coords t) = false := by decide +kernel

/-! ## The memrefs the body is called with -/

/-- The output window's one staging buffer, through which its contents are stated. -/
abbrev VO1_5 : View sig .tc .vmem S256x256 .f32 := (Memref.whole cc1_stg5_0 : Memref sig .tc .vmem S256x256 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
/-- The two accumulators the body carries from tile to tile: the unnormalised sum (256×256) and the selection
    count per row (256×1). -/
abbrev scM1_0 : Memref sig .tc .vmem S256x256 .f32 := Memref.whole cc1_scratch0
abbrev scM1_1 : Memref sig .tc .vmem S256x1 .f32 := Memref.whole cc1_scratch1
abbrev VS1_0 : View sig .tc .vmem S256x256 .f32 := scM1_0.view
abbrev VS1_1 : View sig .tc .vmem S256x1 .f32 := scM1_1.view

/-! ## The region invariant's parts -/

/-- The core's scoped buffers this region never touches — the first region's six staging buffers and its
    accumulator —, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands the region, with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The same, the untouched buffers gathered. -/
theorem PhiA1_open (c : Dev nD) :
    (Pipeline.ΦA spec1 c : sProp 𝕄)
      ⊢ iprop((∃ d, owns (c : Thread nD τ) scM1_0 fullShare d) ∗ (∃ d, owns (c : Thread nD τ) scM1_1 fullShare d) ∗ others1 (F := F) c ∗ (∃ r, prngReg c r)) := by
  rw [PhiA1_eq]; unfold others1
  iintro ⟨⟨Ho0, Ho1, Ho2, Ho3, Ho4, Ho5, Ho6, HS0, HS1⟩, Hg⟩
  isplitl [HS0]; · iexact HS0
  isplitl [HS1]; · iexact HS1
  isplitr [Hg]; swap; · iexact Hg
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  iexact Ho6

theorem PhiA1_close (c : Dev nD) :
    iprop((∃ d, owns (c : Thread nD τ) scM1_0 fullShare d) ∗ (∃ d, owns (c : Thread nD τ) scM1_1 fullShare d) ∗ others1 (F := F) c ∗ (∃ r, prngReg c r))
      ⊢ (Pipeline.ΦA spec1 c : sProp 𝕄) := by
  rw [PhiA1_eq]; unfold others1
  iintro ⟨HS0, HS1, ⟨Ho0, Ho1, Ho2, Ho3, Ho4, Ho5, Ho6⟩, Hg⟩
  isplitr [Hg]; swap; · iexact Hg
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [HS0]; · iexact HS0
  iexact HS1

/-! ## The body on any whole memrefs, case by case -/

set_option maxHeartbeats 4000000 in
/-- THE FIRST EDGE TILE. Both accumulators are reset to zero and then this tile's contribution is added; nothing is
    stored into the output window. The pieces each accumulator ends with are found by running the body; on whole
    memrefs — the five inputs at their contents, the output's buffer at contents handed back untouched, the
    accumulators at anything — the body runs to the continuation holding the inputs as they were and each
    accumulator with its pieces written. -/
noncomputable def kernelRun1_A (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) :
    Σ' (L5 : List (View.Piece (Elt F) S256x256 .f32)) (LS0 : List (View.Piece (Elt F) S256x256 .f32)), { LS1 : List (View.Piece (Elt F) S256x1 .f32) //
      ∀ (xi5 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 4000000 in
/-- AN INNER EDGE TILE. This tile's contribution is added to both accumulators, which hold what the tile before left
    (`xs0`, `xs1`); nothing is stored into the output window. -/
noncomputable def kernelRun1_B (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32)
    (xs0 : Vec F S256x256 .f32) (xs1 : Vec F S256x1 .f32) :
    Σ' (L5 : List (View.Piece (Elt F) S256x256 .f32)) (LS0 : List (View.Piece (Elt F) S256x256 .f32)), { LS1 : List (View.Piece (Elt F) S256x1 .f32) //
      ∀ (xi5 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨[], ?_, ?_, fun xi5 E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 4000000 in
/-- THE LAST EDGE TILE. This tile's contribution is added to both accumulators, which hold what the tile before left
    (`xs0`, `xs1`), and then the unnormalised sum times the reciprocal of the count is stored into the output
    window's buffer, found at anything. -/
noncomputable def kernelRun1_C (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32)
    (xs0 : Vec F S256x256 .f32) (xs1 : Vec F S256x1 .f32) :
    Σ' (L5 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__agg_kernel i arg1 harg1 arg2 harg2 arg3 harg3 arg4 harg4 arg5 harg5 arg6 harg6 arg7 harg7 arg8 harg8) K } := by
  refine ⟨?_, ?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

/-! ## What each case leaves in the output's buffer and in the two accumulators -/

/-- What the first edge tile leaves in the output window's buffer: its pieces read back (none: a placeholder nothing consults, the window being idle and not written back there). -/
def out1_A_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x256 .f32 :=
  VO1_5.read (Elt F) (VO1_5.writes (Elt F) VO1_5.junk (kernelRun1_A c i arg1 harg1 arg2 harg2 arg3 harg3 arg4 harg4 arg5 harg5 arg6 harg6 arg7 harg7 arg8 harg8 hc0 hc1 x0 x1 x2 x3 x4).1)

/-- At the first edge tile the stores into the accumulator of the unnormalised sum cover it. -/
theorem scover1_A_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) (y : S256x256.Idx) :
    ∃ pc ∈ (kernelRun1_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.1 S256x256.size (by sl_kernel_rfl) y

/-- What the first edge tile leaves in the accumulator of the unnormalised sum: its pieces read back. -/
def sout1_A_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x256 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2 x3 x4).2.1)

/-- At the first edge tile the stores into the accumulator of the selection count cover it. -/
theorem scover1_A_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) (y : S256x1.Idx) :
    ∃ pc ∈ (kernelRun1_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.2.1 S256x1.size (by sl_kernel_rfl) y

/-- What the first edge tile leaves in the accumulator of the selection count: its pieces read back. -/
def sout1_A_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) : Vec F S256x1 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2 x3 x4).2.2.1)

/-- What an inner edge tile leaves in the output window's buffer: its pieces read back (none: a placeholder nothing consults, the window being idle and not written back there). -/
def out1_B_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VO1_5.read (Elt F) (VO1_5.writes (Elt F) VO1_5.junk (kernelRun1_B c i arg1 harg1 arg2 harg2 arg3 harg3 arg4 harg4 arg5 harg5 arg6 harg6 arg7 harg7 arg8 harg8 hc0 hc1 x0 x1 x2 x3 x4 xs0 xs1).1)

/-- At an inner edge tile the stores into the accumulator of the unnormalised sum cover it. -/
theorem scover1_B_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0 xs1).2.1 S256x256.size (by sl_kernel_rfl) y

/-- What an inner edge tile leaves in the accumulator of the unnormalised sum: its pieces read back. -/
def sout1_B_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 x3 x4 xs0 xs1).2.1)

/-- At an inner edge tile the stores into the accumulator of the selection count cover it. -/
theorem scover1_B_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x1.Idx) :
    ∃ pc ∈ (kernelRun1_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0 xs1).2.2.1 S256x1.size (by sl_kernel_rfl) y

/-- What an inner edge tile leaves in the accumulator of the selection count: its pieces read back. -/
def sout1_B_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x1 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 x3 x4 xs0 xs1).2.2.1)

/-- At the last edge tile the one store into the output window's buffer covers it. -/
theorem cover1_C_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).1 S256x256.size (by sl_kernel_rfl) y

/-- What the last edge tile leaves in the output window's buffer: its pieces read back. -/
def out1_C_5 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 x3 x4 xs0 xs1).1)

/-- At the last edge tile the stores into the accumulator of the unnormalised sum cover it. -/
theorem scover1_C_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x256.Idx) :
    ∃ pc ∈ (kernelRun1_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).2.1 S256x256.size (by sl_kernel_rfl) y

/-- What the last edge tile leaves in the accumulator of the unnormalised sum: its pieces read back. -/
def sout1_C_0 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x256 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 x3 x4 xs0 xs1).2.1)

/-- At the last edge tile the stores into the accumulator of the selection count cover it. -/
theorem scover1_C_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) (y : S256x1.Idx) :
    ∃ pc ∈ (kernelRun1_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0 xs1).2.2.1 S256x1.size (by sl_kernel_rfl) y

/-- What the last edge tile leaves in the accumulator of the selection count: its pieces read back. -/
def sout1_C_1 (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) : Vec F S256x1 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 x3 x4 xs0 xs1).2.2.1)

section Region1
variable (V : (c : Dev nD) → (b : Ref sig .tc) → Buf (Elt F) ((c : Thread nD τ).loc b))

/-! ## The accumulation, tile by tile -/

/-- THE ACCUMULATION. What the output window's staging buffer, the unnormalised sum and the selection count hold
    after the body at edge tile `n`: at tile 0 the first case run on the tile's blocks; at a later tile the inner
    case, or at tile 63 the last case, run on the tile's blocks and on what tile `n - 1` left in the two accumulators. -/
def outsAt1 (c : Dev nD) : (n : ℕ) → n < cfg1.N → Vec F S256x256 .f32 × Vec F S256x256 .f32 × Vec F S256x1 .f32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) (fun h => absurd ((hcond1_1 ⟨0, hn⟩).mp h) (by decide : ¬(0 : ℕ) = 63)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 63 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2,
      sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- `outsAt1` at tile 0: the first case's contents. -/
theorem outsAt1_A (c : Dev nD) (t : Fin cfg1.N) (h0 : t.val = 0) (h1 : ¬t.val = 63) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- `outsAt1` at an inner tile: the inner case's contents, over what the tile before left. -/
theorem outsAt1_B (c : Dev nD) (t : Fin cfg1.N) (h0 : ¬t.val = 0) (h1 : ¬t.val = 63) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt1` at the last tile: the last case's contents, over what the tile before left. -/
theorem outsAt1_C (c : Dev nD) (t : Fin cfg1.N) (h0 : ¬t.val = 0) (h1 : t.val = 63) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- The invariant before edge tile `n`: before the first, what the launch hands the region (both accumulators at
    anything); afterwards both accumulators at what tile `n - 1` left in them, the buffers the region never touches
    at some contents, and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2) ∗ others1 (F := F) c ∗ (∃ r, prngReg c r)) := by
  cases n with
  | zero => exact absurd rfl hz
  | succ n => rfl

/-! ## The pipeline's proof data -/

/-- The proof data of the second region on core `c`: the arrays as the region finds them (`V`); after the body at
    tile `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic edge tile -/

/-- What the body is called with at tile `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any edge tile. The inputs' buffers hold their blocks; the tile's number says which case it is in;
    the invariant hands the body both accumulators — at anything at tile 0, at what the tile before left afterwards —
    and takes them back at this tile's contents (their stores cover them); the buffers the region never touches, the
    generator register and what the core owes pass through unread; the output's buffer is handed back untouched
    before the last tile, and at the last tile holds that case's store (which covers it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · have h1 : ¬t.val = 63 := by omega
    have hz : t.val = 0 := h0
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_open (F := F) c) $$ HΦ
    icases HΦ' with ⟨HS0, HS1, Hoth, Hg⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hoth Hg]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := h0
    by_cases h1 : t.val = 63
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every edge tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first edge tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any edge tile the invariant gives back what the launch handed over: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_close (F := F) c)
  iintro ⟨HS0, HS1, Hoth, Hg⟩
  isplitl [HS0]; · iexists _; iexact HS0
  isplitl [HS1]; · iexists _; iexact HS1
  isplitl [Hoth]; · iexact Hoth
  iexact Hg

/-- The same after the last edge tile. -/
theorem hout1 (c : Dev nD) : (dat1 V c).Φ (Fin.last cfg1.N) ⊢ Pipeline.ΦA spec1 c :=
  Phi_out1 V c _ (by rw [Fin.val_last]; have : cfg1.N = 64 := N_1; omega)

example (c : Dev nD) := (dat1 V c).share_full fun _ => rfl
example : ∀ c t, (dat1 V c).owed t = 0 := fun _ _ => rfl

end Region1

end Cert.KernelIdeal.Hand

end
-- ==== Proof.Whole.lean ====
/-
  The whole run of @main: region 0 (the node scores), one host operation (the bias row reshaped), region 1 (the
  aggregation), composed over the contents every unscoped buffer holds at each boundary.

  The contents are a fold from the launch memory: at region 0's exit its arrays hold what its write-backs leave
  (the two inputs as entered, the score array at the fold of its flushed blocks) and every other buffer what it held;
  the reshape then writes the bias row's 1 × 256 copy; at region 1's exit its arrays hold what its write-backs leave.
  Every weakly fair execution terminates with each unscoped buffer at the last boundary's contents (`run_all`);
  read at the six argument arrays that is the frame claim (`frame_all`), and at the result buffer it names the
  result (`result_at`).
-/
import proofs.«115778_j1580547965681_1_alg».proof.Proof.R0Frame
import proofs.«115778_j1580547965681_1_alg».proof.Proof.R1Frame
import proofs.«115778_j1580547965681_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what region 0 is entered from (no host operation precedes it). -/
abbrev E0 : Dev nD → Valuation τ sig (Elt F) := fun c b => m (c, b)
/-- The same read at the TensorCore's references. -/
abbrev VE0 : (c : Dev nD) → (b : Ref sig .tc) → Buf (Elt F) ((c : Thread nD τ).loc b) := fun c b => E0 m c b

/-- At region 0's exit: its three arrays at what the pipeline leaves, every other buffer as entered. -/
def X0 (c : Dev nD) : Valuation τ sig (Elt F) :=
  Pipeline.withArrays spec0 c (E0 m c) fun w => (dat0 (VE0 m) c).arrAt w cfg0.N
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
abbrev VX0 : (c : Dev nD) → (b : Ref sig .tc) → Buf (Elt F) ((c : Thread nD τ).loc b) := fun c b => X0 m c b
theorem exit0_arr (c : Dev nD) (w : Fin cfg0.W) : (dat0 (VE0 m) c).arrAt w cfg0.N = VX0 m c (Pipeline.arrRef spec0 w) :=
  (X0_arr m c w).symm
theorem exit0_rest (c : Dev nD) : ∀ b, b ∉ Finset.univ.image (Pipeline.arrRef spec0) → VX0 m c b = VE0 m c b :=
  fun b hb => X0_of_ne m c b fun w e => hb (Finset.mem_image.mpr ⟨w, Finset.mem_univ _, e⟩)

/-- After the reshape of the bias row: what region 1 is entered from. -/
abbrev E1 : Dev nD → Valuation τ sig (Elt F) := fun c => StableHlo.after hostOps1 (X0 m c)
abbrev VE1 : (c : Dev nD) → (b : Ref sig .tc) → Buf (Elt F) ((c : Thread nD τ).loc b) := fun c b => E1 m c b
/-- The reshape writes the 1 × 256 copy only. -/
theorem E1_of (c : Dev nD) (r : Ref sig .tc) (h : r ∉ hostOps1_W) : E1 m c r = X0 m c r :=
  StableHlo.after_of_writes_sub hostOps1 _ hostOps1_writes h

/-- At region 1's exit: its six arrays at what the pipeline leaves, every other buffer as entered. -/
def X1 (c : Dev nD) : Valuation τ sig (Elt F) :=
  Pipeline.withArrays spec1 c (E1 m c) fun w => (dat1 (VE1 m) c).arrAt w cfg1.N
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
abbrev VX1 : (c : Dev nD) → (b : Ref sig .tc) → Buf (Elt F) ((c : Thread nD τ).loc b) := fun c b => X1 m c b
theorem exit1_arr (c : Dev nD) (w : Fin cfg1.W) : (dat1 (VE1 m) c).arrAt w cfg1.N = VX1 m c (Pipeline.arrRef spec1 w) :=
  (X1_arr m c w).symm
theorem exit1_rest (c : Dev nD) : ∀ b, b ∉ Finset.univ.image (Pipeline.arrRef spec1) → VX1 m c b = VE1 m c b :=
  fun b hb => X1_of_ne m c b fun w e => hb (Finset.mem_image.mpr ⟨w, Finset.mem_univ _, e⟩)

/-! ## The arguments end as launched

No region writes an argument (region 0 reads the query rows and the adjacency through input windows; region 1 the
incidence, the features and the weights; the bias row bypasses both) and the reshape writes its own result, so the fold
read at an argument walks back to the launch memory. -/

theorem X1_main_arg0 (c : Dev nD) : X1 m c (Proc.devRef .tc main_arg0) = m ((c : Thread nD τ).loc main_arg0) :=
  calc X1 m c (Proc.devRef .tc main_arg0)
    _ = E1 m c (Proc.devRef .tc main_arg0) := X1_of_ne m c main_arg0 (by decide)
    _ = X0 m c (Proc.devRef .tc main_arg0) := E1_of m c main_arg0 (by decide)
    _ = E0 m c (Proc.devRef .tc main_arg0) := (X0_arr m c 0).trans (((dat0 (VE0 m) c).arrAt_in 0 rfl _).trans (A_eq0 (VE0 m) c 0))
    _ = m ((c : Thread nD τ).loc main_arg0) := rfl
theorem X1_main_arg1 (c : Dev nD) : X1 m c (Proc.devRef .tc main_arg1) = m ((c : Thread nD τ).loc main_arg1) :=
  calc X1 m c (Proc.devRef .tc main_arg1)
    _ = E1 m c (Proc.devRef .tc main_arg1) := X1_of_ne m c main_arg1 (by decide)
    _ = X0 m c (Proc.devRef .tc main_arg1) := E1_of m c main_arg1 (by decide)
    _ = E0 m c (Proc.devRef .tc main_arg1) := (X0_arr m c 1).trans (((dat0 (VE0 m) c).arrAt_in 1 rfl _).trans (A_eq0 (VE0 m) c 1))
    _ = m ((c : Thread nD τ).loc main_arg1) := rfl
/-- What region 1 finds in a buffer region 0 does not stage and the reshape does not write: the launch contents. -/
theorem E1_launch (c : Dev nD) (b : Ref sig .tc) (hW : b ∉ hostOps1_W) (hb : ∀ w, Pipeline.arrRef spec0 w ≠ b) :
    E1 m c (Proc.devRef .tc b) = m ((c : Thread nD τ).loc b) :=
  (E1_of m c b hW).trans ((X0_of_ne m c b hb).trans rfl)
theorem X1_main_arg2 (c : Dev nD) : X1 m c (Proc.devRef .tc main_arg2) = m ((c : Thread nD τ).loc main_arg2) :=
  (X1_arr m c 1).trans (((dat1 (VE1 m) c).arrAt_in 1 rfl _).trans ((A_eq1 (VE1 m) c 1).trans (E1_launch m c main_arg2 (by decide) (by decide))))
theorem X1_main_arg3 (c : Dev nD) : X1 m c (Proc.devRef .tc main_arg3) = m ((c : Thread nD τ).loc main_arg3) :=
  (X1_arr m c 2).trans (((dat1 (VE1 m) c).arrAt_in 2 rfl _).trans ((A_eq1 (VE1 m) c 2).trans (E1_launch m c main_arg3 (by decide) (by decide))))
theorem X1_main_arg4 (c : Dev nD) : X1 m c (Proc.devRef .tc main_arg4) = m ((c : Thread nD τ).loc main_arg4) :=
  (X1_arr m c 3).trans (((dat1 (VE1 m) c).arrAt_in 3 rfl _).trans ((A_eq1 (VE1 m) c 3).trans (E1_launch m c main_arg4 (by decide) (by decide))))
theorem X1_main_arg5 (c : Dev nD) : X1 m c (Proc.devRef .tc main_arg5) = m ((c : Thread nD τ).loc main_arg5) :=
  (X1_of_ne m c main_arg5 (by decide)).trans (E1_launch m c main_arg5 (by decide) (by decide))

/-! ## The proof data family and the thread state -/

/-- No pipeline has a prefetched table. -/
abbrev tabs : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tabs p) c
  | ⟨0, _⟩ => fun c => dat0 (VE0 m) c
  | ⟨1, _⟩ => fun c => dat1 (VE1 m) c
abbrev noVar : Variants := Variants.none
/-- No core owes another anything: no level is assigned. -/
abbrev noPairs : GSem nD τ sig → Finset Unit := fun _ => ∅
abbrev noLevel : GSem nD τ sig → Unit → ℕ := fun _ _ => 0
/-- What rides beside the buffers through every segment: the generator register at some state and the core owing nothing. -/
abbrev Beside (c : Dev nD) : sProp 𝕄 := iprop((∃ r, prngReg c r) ∗ ∃ W, owes (c : Thread nD τ) (0 : CellTallies nD τ sig Unit) W)
/-- The reshape as a segment over the unscoped references, entered from region 0's exit contents. -/
abbrev reshapeSeg : Pipeline.HostSeg (Name := ℕ) (U := UR sig nD τ) (pcfgs (F := F)) defs₀ noVar noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X0 m) Beside
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at region 1's exit contents, the generator register. -/
abbrev Last (c : Dev nD) : sProp 𝕄 := iprop(StableHlo.held (c : Thread nD τ) (Pipeline.ucRefs τ sig) (X1 m c) ∗ ∃ r, prngReg c r)

/-! ## The regions as segments -/

/-- The generator register, the (empty) tables and the scoped rest regrouped as the kernel's entry invariant. -/
theorem entry_regroup (A B C : sProp 𝕄) : iprop(A ∗ B ∗ C) ⊢ iprop(C ∗ A) := by
  iintro ⟨Hp, -, Hr⟩
  isplitl [Hr]; · iexact Hr
  iexact Hp
/-- The exit invariant regrouped as the generator register, no semaphore of the kernel's own, and the scoped rest. -/
theorem exit_regroup (A C : sProp 𝕄) : iprop(C ∗ A) ⊢ iprop(A ∗ BI.emp ∗ C) := by
  iintro ⟨Hr, Hp⟩
  isplitl [Hp]; · iexact Hp
  isplitr; · iempintro
  iexact Hr

set_option backward.isDefEq.respectTransparency.types false in
/-- Region 0 over the thread state: entered from the launch contents, left at `X0`. Its arrays are split out of the
    unscoped buffers and put back at their exit contents; the generator register and the scoped buffers no window
    stages go into the kernel's invariant and come back; nothing is owed. -/
def reg0 : Pipeline.RegionSeg (pcfgs (F := F)) tabs (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ noPairs noLevel 0 fun _ _ => rfl
  pre c := iprop(StableHlo.held (c : Thread nD τ) (Pipeline.ucRefs τ sig) (E0 m c) ∗ Beside c)
  post c := iprop(StableHlo.held (c : Thread nD τ) (Pipeline.ucRefs τ sig) (X0 m c) ∗ Beside c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VE0 m) c
    unfold Pipeline.ΦA at h
    exact (entry_regroup _ _ _).trans h
  hout c := by
    rw [Pipeline.ownSems0_none]
    have h := hout0 (VE0 m) c
    unfold Pipeline.ΦA at h
    exact h.trans (exit_regroup _ _)
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `E1` (the reshape's result in place), left at `X1`, the last contents. -/
def reg1 : Pipeline.RegionSeg (pcfgs (F := F)) tabs (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ noPairs noLevel 1 fun _ _ => rfl
  pre c := iprop(StableHlo.held (c : Thread nD τ) (Pipeline.ucRefs τ sig) (E1 m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VE1 m) c
    unfold Pipeline.ΦA at h
    exact (entry_regroup _ _ _).trans h
  hout c := by
    rw [Pipeline.ownSems0_none]
    have h := hout1 (VE1 m) c
    unfold Pipeline.ΦA at h
    exact h.trans (exit_regroup _ _)
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev mainSegs : List (Pipeline.Seg (pcfgs (F := F)) tabs (pdats m) () defs₀ noVar noPairs noLevel) :=
  [ .region (reg0 m), .host (reshapeSeg m), .region (reg1 m) ]
/-- @main is the run of the segments. -/
theorem main_run (c : Dev nD) : main (F := F) c = Pipeline.Seg.run (mainSegs m) := (main_chain c).trans (by chain_rfl)

set_option backward.isDefEq.respectTransparency.types false in
/-- At the compiled mesh, from any memory with zero counters, every weakly fair execution of @main on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X1 m c b) :=
  Pipeline.θ_run_regions_kit (pcfgs (F := F)) tabs (pdats m) () cellOf_inj emb₁ defs₀ noVar noPairs noLevel m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ Beside c)) (Tₙ := Last m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X1 m c b)
    (hfin := fun c s' => by
      iintro ⟨⟨Hh, -⟩, HSI⟩
      unfold StableHlo.held
      imodintro
      iapply (pointsTo_read_all (Pipeline.ucRefs τ sig) (fun b => (((c : Thread nD τ)).1, b)) (X1 m c) s')
      isplitl [Hh] <;> iassumption)
    (hQ := fun s h => h)

/-- The frame: every weakly fair execution terminates and the six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (X1_main_arg0 m c),
     (h c _ (mem_uc main_arg1 (by decide))).trans (X1_main_arg1 m c),
     (h c _ (mem_uc main_arg2 (by decide))).trans (X1_main_arg2 m c),
     (h c _ (mem_uc main_arg3 (by decide))).trans (X1_main_arg3 m c),
     (h c _ (mem_uc main_arg4 (by decide))).trans (X1_main_arg4 m c),
     (h c _ (mem_uc main_arg5 (by decide))).trans (X1_main_arg5 m c)⟩) (run_all m ρ)

/-- The result buffer ends at what region 1's write-backs leave in its output array. -/
theorem result_at (c : Dev nD) : X1 m c (Proc.devRef .tc main_v2) = (dat1 (VE1 m) c).arrAt 5 cfg1.N := X1_arr m c 5

/-- What region 1 finds in the score array: what region 0's write-backs left there. -/
theorem E1_main_v0 (c : Dev nD) : E1 m c (Proc.devRef .tc main_v0) = (dat0 (VE0 m) c).arrAt 2 cfg0.N :=
  (E1_of m c main_v0 (by decide)).trans (X0_arr m c 2)

end Cert.KernelIdeal.Hand

end
-- ==== Proof.Spec.lean ====
/-
  The mathematics both programs compute, index by index on the extended reals, over literal shapes
  (no program is imported here).

  From a batch of query rows `en` (256 × 4096), an adjacency matrix `adj` (4096 × 4096), an incidence matrix `inc`
  (4096 × 32768), edge features `ef` (32768 × 256), a weight matrix `w` (256 × 256) and a bias row:
    score[b, n] = Σ_k en[b, k] · adj[k, n]                 (node scores)
    hits[b, e]  = Σ_n score[b, n] · inc[n, e]              (edge scores)
    pick x      = 1 when x = 2, else 0                      (an edge is selected when its score is exactly two)
    count[b]    = Σ_e pick hits[b, e]
    recip r     = 1 / r when r > 0, else 0
    feat[e, q]  = Σ_d ef[e, d] · w[d, q] + bias[q]
  The result is the selected edges' features averaged per row.  One program normalises AFTER summing over the edges,
    outKernel[b, q] = (Σ_e pick hits[b, e] · feat[e, q]) · recip count[b],
  the other BEFORE,
    outRef[b, q]    = Σ_e (pick hits[b, e] · recip count[b]) · feat[e, q];
  the two agree wherever `feat` is finite (Algebra.lean).
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals of literal extents. -/
abbrev Mat (a b : Nat) : Type := (⟨2, ![a, b]⟩ : Shape).Idx → EReal
/-- A rank-1 array of extended reals of literal extent. -/
abbrev Row (a : Nat) : Type := (⟨1, ![a]⟩ : Shape).Idx → EReal

/-- The float words the programs spell, read at the ideal instance (never evaluated where both sides carry them). -/
def two : EReal := Ideal.ofBits .f32 0x40000000#32
def one : EReal := Ideal.ofBits .f32 0x3F800000#32
def zero : EReal := Ideal.ofBits .f32 0x00000000#32

/-- Node scores: row `b` of `en` against column `n` of `adj`. -/
def score (en : Mat 256 4096) (adj : Mat 4096 4096) : Mat 256 4096 :=
  fun i => ∑ k : Fin 4096, en (ix2 (i 0) k) * adj (ix2 k (i 1))

/-- Edge scores: row `b` of the node scores against column `e` of `inc`. -/
def hits (g : Mat 256 4096) (inc : Mat 4096 32768) : Mat 256 32768 :=
  fun i => ∑ n : Fin 4096, g (ix2 (i 0) n) * inc (ix2 n (i 1))

/-- The selection bit of a score: the ordered comparison "equals two". -/
def pickBit (x : EReal) : BitVec 1 := Ideal.cmp .oeq x two

/-- The selection as a number: one where the score is exactly two, zero elsewhere. -/
def pick (x : EReal) : EReal := (((pickBit x).toNat : ℝ) : EReal)

/-- How many edges row `b` selects. -/
def count (be : Mat 256 32768) (b : Fin 256) : EReal := ∑ e : Fin 32768, pick (be (ix2 b e))

/-- The reciprocal of a positive count, zero otherwise. -/
def recip (r : EReal) : EReal := Scalar.select (Ideal.cmp .ogt r zero) (Ideal.div one r) zero

/-- Edge features through the linear layer. -/
def feat (ef : Mat 32768 256) (w : Mat 256 256) (bias : Row 256) : Mat 32768 256 :=
  fun i => (∑ d : Fin 256, ef (ix2 (i 0) d) * w (ix2 d (i 1))) + bias (ix1 (i 1))

/-- Sum over the edges first, normalise the row afterwards. -/
def outKernel (be : Mat 256 32768) (h : Mat 32768 256) : Mat 256 256 :=
  fun i => (∑ e : Fin 32768, pick (be (ix2 (i 0) e)) * h (ix2 e (i 1))) * recip (count be (i 0))

/-- Normalise each selection first, then sum over the edges. -/
def outRef (be : Mat 256 32768) (h : Mat 32768 256) : Mat 256 256 :=
  fun i => ∑ e : Fin 32768, (pick (be (ix2 (i 0) e)) * recip (count be (i 0))) * h (ix2 e (i 1))

end Cert.Spec

end
-- ==== Proof.PayIdx.lean ====
import proofs.«115778_j1580547965681_1_alg».proof.Proof.Gen.KernelIdeal.Skeleton
import proofs.«115778_j1580547965681_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-!
  The values the two kernels store, read at one index on the extended reals.

  First kernel (one K-tile of the node scores): the scratch is reset to zero, and each tile adds to the scratch entry
  `(p, q)` the products of row `p` of the query block with column `q` of the adjacency block.

  Second kernel (one tile of 512 edges): the edge score `(p, e)` is row `p` of the node scores against column `e` of
  the incidence block; an edge is selected when that score is exactly two; the count scratch of row `p` gains the
  number of selected edges of the tile; the output scratch entry `(p, q)` gains the selected edges' features (the
  linear layer of the edge block plus the bias row) at column `q`; at the end every row is scaled by the reciprocal of
  its count, zero where nothing was selected.
-/

variable {α : Type}

/-! ## Layout: the column forms of a cast and of a broadcast -/

/-- A vector of 256 entries viewed as a 256 × 1 column reads, at `(p, 0)`, entry `p`: both positions are `p` in row-major order. -/
theorem column_of_vector_apply (v : S256.Idx → α) (h : S256.ShapeCasts S256x1) (p : Fin 256) :
    shapeCast S256x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A 256 × 1 column spread over 256 columns reads, at `(p, q)`, the column's entry of row `p`. -/
theorem spread_column_apply (v : S256x1.Idx → α) (h : S256x1.Broadcasts S256x256) (p q : Fin 256) :
    broadcastTo S256x256 v h (ix2 p q) = v (ix2 p (0 : Fin 1)) := by
  refine broadcastTo_apply v h (ix2 p q) (ix2 p (0 : Fin 1)) fun ax => ?_
  match ax with
  | ⟨0, _⟩ =>
    show p.val = if (256 : ℕ) = 1 then 0 else p.val
    rw [if_neg (by decide)]
  | ⟨1, _⟩ =>
    show 0 = if (1 : ℕ) = 1 then 0 else q.val
    rw [if_pos rfl]

/-- The sum along the lanes of a 256 × 512 array from the zero word reads, at row `p`, the sum of that row's 512 entries. -/
theorem lane_sum_apply (v : FVec Ideal S256x512 .f32) (hacc : (0x00000000#32 : BitVec 32) = 0x00000000#32) (p : Fin 256) :
    multiReduction (F := Ideal) .add [1] S256 v 0x00000000#32 reduces_S256x512_S256 (.inl rfl) hacc (ix1 p)
      = ∑ e : Fin 512, v (ix2 p e) := by
  refine (Ideal.multiReduction_add_single v 0x00000000#32 reduces_S256x512_S256 (.inl rfl) hacc (ix1 p)).trans ?_
  refine Finset.sum_congr rfl fun e _ => congrArg v (funext fun a => Fin.ext ?_)
  match a with
  | ⟨0, _⟩ => rfl
  | ⟨1, _⟩ => rfl

/-! ## Words: the selection bit as a number -/

/-- A one-bit word widened to 32 bits and read as a signed integer is the bit itself. -/
theorem bit_widened_toInt (b : BitVec 1) : (b.setWidth 32).toInt = (b.toNat : ℤ) := by
  rcases BitVec.eq_zero_or_eq_one b with h | h <;> subst h <;> decide

/-- The conversion chain compare–widen–convert of a score is the selection as a number. -/
theorem pick_of_word (x : EReal) :
    FloatOps.sitofp (F := Ideal) .f32
        ((FloatOps.cmpf (F := Ideal) (φ := .f32) .oeq x (Scalar.ofBits .f32 0x40000000#32)).setWidth 32)
      = Cert.Spec.pick x := by
  show ((((Ideal.cmp .oeq x (Ideal.ofBits .f32 0x40000000#32)).setWidth 32).toInt : ℝ) : EReal)
    = (((Ideal.cmp .oeq x (Ideal.ofBits .f32 0x40000000#32)).toNat : ℝ) : EReal)
  rw [bit_widened_toInt, Int.cast_natCast]

/-! ## The four contractions, each read at an output index

For each product the left operand's index at output `(p, q)` and contraction position `k` is `(p, k)` and the right
operand's is `(k, q)`: axis by axis, then re-indexing the contraction's sum through its one coordinate. -/

-- query block (256 × 1024) against adjacency block (1024 × 1024)
theorem lhs_score_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem lhs_score_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_score_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_score_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The score tile's product into a zero accumulator, at `(p, q)`: row `p` against column `q`. -/
theorem matmul_score (x : FVec Ideal S256x1024 .bf16) (y : FVec Ideal S1024x1024 .bf16) (p : Fin 256) (q : Fin 1024) :
    matmul dot_S256x1024_S1024x1024_S256x1024_1_0_0_1_n_n none x y (constant (F := Ideal) S256x1024 .f32 0x00000000#32) (ix2 p q)
      = ∑ j : Fin 1024, x (ix2 p j) * y (ix2 j q) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q)
      ((contrEquiv1 dot_S256x1024_S1024x1024_S256x1024_1_0_0_1_n_n 1024 rfl rfl).symm k) = ix2 p k :=
    funext fun a => Fin.ext (by
      match a with
      | ⟨0, _⟩ => exact lhs_score_0 _ _
      | ⟨1, _⟩ => exact (lhs_score_1 _ _).trans hk)
  have er : dot_S256x1024_S1024x1024_S256x1024_1_0_0_1_n_n.rhsIdx (ix2 p q)
      ((contrEquiv1 dot_S256x1024_S1024x1024_S256x1024_1_0_0_1_n_n 1024 rfl rfl).symm k) = ix2 k q :=
    funext fun a => Fin.ext (by
      match a with
      | ⟨0, _⟩ => exact (rhs_score_0 _ _).trans hk
      | ⟨1, _⟩ => exact rhs_score_1 _ _)
  rw [el, er]

-- node scores (256 × 4096) against incidence block (4096 × 512)
theorem lhs_hits_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide),
    dif_pos (show (0 : Fin S256x4096.rank) ∈ dot_S256x4096_S4096x512_S256x512_1_0_0_1_n_n.lhsNonContracting by decide)]
  rfl
theorem lhs_hits_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_hits_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_hits_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide),
    dif_pos (show (1 : Fin S4096x512.rank) ∈ dot_S256x4096_S4096x512_S256x512_1_0_0_1_n_n.rhsNonContracting by decide)]
  rfl

/-- The edge scores of a tile into a zero accumulator, at `(p, e)`: row `p` of the node scores against column `e`. -/
theorem matmul_hits (x : FVec Ideal S256x4096 .bf16) (y : FVec Ideal S4096x512 .bf16) (p : Fin 256) (e : Fin 512) :
    matmul dot_S256x4096_S4096x512_S256x512_1_0_0_1_n_n none x y (constant (F := Ideal) S256x512 .f32 0x00000000#32) (ix2 p e)
      = ∑ n : Fin 4096, x (ix2 p n) * y (ix2 n e) := by
  simp only [matmul]
  rw [Ideal.matmul_constant_zero_apply,
    ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 p e)
      ((contrEquiv1 dot_S256x4096_S4096x512_S256x512_1_0_0_1_n_n 4096 rfl rfl).symm k) = ix2 p k :=
    funext fun a => Fin.ext (by
      match a with
      | ⟨0, _⟩ => exact lhs_hits_0 _ _
      | ⟨1, _⟩ => exact (lhs_hits_1 _ _).trans hk)
  have er : dot_S256x4096_S4096x512_S256x512_1_0_0_1_n_n.rhsIdx (ix2 p e)
      ((contrEquiv1 dot_S256x4096_S4096x512_S256x512_1_0_0_1_n_n 4096 rfl rfl).symm k) = ix2 k e :=
    funext fun a => Fin.ext (by
      match a with
      | ⟨0, _⟩ => exact (rhs_hits_0 _ _).trans hk
      | ⟨1, _⟩ => exact rhs_hits_1 _ _)
  rw [el, er]

-- edge feature block (512 × 256) against the weight (256 × 256)
theorem lhs_feat_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhs_feat_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_feat_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_feat_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The linear layer of an edge tile into a zero accumulator, at `(e, q)`: features of edge `e` against column `q` of the weight. -/
theorem matmul_feat (x : FVec Ideal S512x256 .bf16) (y : FVec Ideal S256x256 .bf16) (e : Fin 512) (q : Fin 256) :
    matmul dot_S512x256_S256x256_S512x256_1_0_0_1_n_n none x y (constant (F := Ideal) S512x256 .f32 0x00000000#32) (ix2 e q)
      = ∑ d : Fin 256, x (ix2 e d) * y (ix2 d q) := by
  simp only [matmul]
  rw [Ideal.matmul_constant_zero_apply,
    ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 e q)
      ((contrEquiv1 dot_S512x256_S256x256_S512x256_1_0_0_1_n_n 256 rfl rfl).symm k) = ix2 e k :=
    funext fun a => Fin.ext (by
      match a with
      | ⟨0, _⟩ => exact lhs_feat_0 _ _
      | ⟨1, _⟩ => exact (lhs_feat_1 _ _).trans hk)
  have er : dot_S512x256_S256x256_S512x256_1_0_0_1_n_n.rhsIdx (ix2 e q)
      ((contrEquiv1 dot_S512x256_S256x256_S512x256_1_0_0_1_n_n 256 rfl rfl).symm k) = ix2 k q :=
    funext fun a => Fin.ext (by
      match a with
      | ⟨0, _⟩ => exact (rhs_feat_0 _ _).trans hk
      | ⟨1, _⟩ => exact rhs_feat_1 _ _)
  rw [el, er]

-- selection (256 × 512) against the tile's features (512 × 256)
theorem lhs_agg_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl
theorem lhs_agg_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem rhs_agg_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs_agg_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl

/-- The selected edges' features of a tile into a zero accumulator, at `(p, q)`: row `p` of the selection against column `q`. -/
theorem matmul_agg (x : FVec Ideal S256x512 .bf16) (y : FVec Ideal S512x256 .bf16) (p q : Fin 256) :
    matmul dot_S256x512_S512x256_S256x256_1_0_0_1_n_n none x y (constant (F := Ideal) S256x256 .f32 0x00000000#32) (ix2 p q)
      = ∑ e : Fin 512, x (ix2 p e) * y (ix2 e q) := by
  simp only [matmul]
  rw [Ideal.matmul_constant_zero_apply,
    ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 p q)
      ((contrEquiv1 dot_S256x512_S512x256_S256x256_1_0_0_1_n_n 512 rfl rfl).symm k) = ix2 p k :=
    funext fun a => Fin.ext (by
      match a with
      | ⟨0, _⟩ => exact lhs_agg_0 _ _
      | ⟨1, _⟩ => exact (lhs_agg_1 _ _).trans hk)
  have er : dot_S256x512_S512x256_S256x256_1_0_0_1_n_n.rhsIdx (ix2 p q)
      ((contrEquiv1 dot_S256x512_S512x256_S256x256_1_0_0_1_n_n 512 rfl rfl).symm k) = ix2 k q :=
    funext fun a => Fin.ext (by
      match a with
      | ⟨0, _⟩ => exact (rhs_agg_0 _ _).trans hk
      | ⟨1, _⟩ => exact rhs_agg_1 _ _)
  rw [el, er]

/-! ## The first kernel's stored values -/

/-- The reset of the score scratch stores zero everywhere. -/
theorem pay_k0_1 (p : Fin 256) (q : Fin 1024) : k0_pay1 (F := Ideal) (ix2 p q) = 0 := by
  unfold k0_pay1
  rw [shapeCast_self]
  exact Ideal.ofBits_zero_f32

/-- One K-tile adds to the scratch entry `(p, q)` row `p` of the query block against column `q` of the adjacency block. -/
theorem pay_k0_2 (x : Vec Ideal S256x1024 .f32) (y : Vec Ideal S1024x1024 .f32) (a : Vec Ideal S256x1024 .f32) (p : Fin 256) (q : Fin 1024) :
    k0_pay2 x y a (ix2 p q) = a (ix2 p q) + ∑ j : Fin 1024, x (ix2 p j) * y (ix2 j q) := by
  unfold k0_pay2
  rw [shapeCast_self, addf_apply, matmul_score]
  rfl

/-! ## The second kernel's stored values -/

/-- The value carried out of the accumulation is stored as it is. -/
theorem pay_k1_1 (v : FVec Ideal S256x256 .f32) : k1_pay1 v = v := by
  unfold k1_pay1
  exact shapeCast_self _ _

/-- The reset of the output scratch stores zero everywhere. -/
theorem pay_k1_3 (p q : Fin 256) : k1_pay3 (F := Ideal) (ix2 p q) = 0 := by
  unfold k1_pay3
  rw [shapeCast_self]
  exact Ideal.ofBits_zero_f32

/-- The reset of the count scratch stores zero in every row. -/
theorem pay_k1_4 (p : Fin 256) : k1_pay4 (F := Ideal) (ix2 p (0 : Fin 1)) = 0 := by
  unfold k1_pay4
  rw [shapeCast_self]
  exact Ideal.ofBits_zero_f32

/-- The selection of a tile at `(p, e)`: one where row `p` of the node scores against column `e` of the incidence block is exactly two. -/
theorem pay_k1_5 (g : Vec Ideal S256x4096 .f32) (inc : Vec Ideal S4096x512 .f32) (p : Fin 256) (e : Fin 512) :
    k1_pay5 g inc (ix2 p e) = Cert.Spec.pick (∑ n : Fin 4096, g (ix2 p n) * inc (ix2 n e)) := by
  unfold k1_pay5
  rw [sitofp_apply, extui_apply, cmpf_apply, matmul_hits, shapeCast_self, broadcast_apply]
  exact pick_of_word _

/-- The count scratch of row `p` gains the tile's selections of that row. -/
theorem pay_k1_6 (g : Vec Ideal S256x4096 .f32) (inc : Vec Ideal S4096x512 .f32) (s : Vec Ideal S256x1 .f32) (p : Fin 256) :
    k1_pay6 g inc s (ix2 p (0 : Fin 1)) = s (ix2 p (0 : Fin 1)) + ∑ e : Fin 512, k1_pay5 g inc (ix2 p e) := by
  unfold k1_pay6
  rw [shapeCast_self, addf_apply, column_of_vector_apply, lane_sum_apply]

/-- The output scratch entry `(p, q)` gains, over the tile's edges, the selection of `(p, e)` times the feature of `(e, q)`:
    the linear layer of the edge block plus the bias. -/
theorem pay_k1_7 (g : Vec Ideal S256x4096 .f32) (inc : Vec Ideal S4096x512 .f32) (ef : Vec Ideal S512x256 .f32) (w : Vec Ideal S256x256 .f32)
    (b : Vec Ideal S1x256 .f32) (acc : Vec Ideal S256x256 .f32) (p q : Fin 256) :
    k1_pay7 g inc ef w b acc (ix2 p q)
      = acc (ix2 p q) + ∑ e : Fin 512, k1_pay5 g inc (ix2 p e) * ((∑ d : Fin 256, ef (ix2 e d) * w (ix2 d q)) + b (ix2 (0 : Fin 1) q)) := by
  unfold k1_pay7
  rw [addf_apply, matmul_agg]
  refine congrArg (acc (ix2 p q) + ·) (Finset.sum_congr rfl fun e _ => ?_)
  rw [truncf_apply, truncf_apply, addf_apply, matmul_feat, shapeCast_self, broadcastTo_1b_ab_apply]
  rfl

/-- At the last tile every row of the output scratch is scaled by the reciprocal of its count, zero where the count is not positive. -/
theorem pay_k1_2 (s : Vec Ideal S256x1 .f32) (acc : Vec Ideal S256x256 .f32) (p q : Fin 256) :
    k1_pay2 s acc (ix2 p q) = acc (ix2 p q) * Cert.Spec.recip (s (ix2 p (0 : Fin 1))) := by
  unfold k1_pay2
  rw [mulf_apply, spread_column_apply]
  rfl

end Cert.KernelIdeal.Hand

end
-- ==== Proof.Tiles.lean ====
/-
  A sum over a range cut into equal tiles: the range of `a * b` positions is `a` tiles of `b` positions, position
  `b * j + i` being place `i` of tile `j`; so a sum over the range is the sum over the tiles of each tile's sum, in any
  commutative monoid. And the running form: the sum over the first `n + 1` tiles is the sum over the first `n` plus
  tile `n`.
-/
import Mathlib.Algebra.BigOperators.Fin
import Mathlib.Data.Fintype.BigOperators
import Mathlib.Logic.Equiv.Fin.Basic

open scoped BigOperators

namespace Cert.Spec

/-- Place `i` of tile `j` lies inside the range: `b * j + i < b * (j + 1) ≤ a * b`. -/
theorem tile_lt {a b : ℕ} (j : Fin a) (i : Fin b) : b * j.val + i.val < a * b :=
  calc b * j.val + i.val < b * j.val + b := Nat.add_lt_add_left i.isLt _
    _ = b * (j.val + 1) := (Nat.mul_succ _ _).symm
    _ ≤ b * a := Nat.mul_le_mul_left _ (Nat.succ_le_of_lt j.isLt)
    _ = a * b := Nat.mul_comm _ _

/-- A sum over `a * b` positions is the sum over the `a` tiles of the sums over each tile's `b` places: the pairs
    (tile, place) are in bijection with the positions. -/
theorem sum_tiles (a b : ℕ) {M : Type} [AddCommMonoid M] (f : Fin (a * b) → M) :
    ∑ k : Fin (a * b), f k = ∑ j : Fin a, ∑ i : Fin b, f ⟨b * j.val + i.val, tile_lt j i⟩ := by
  rw [← (finProdFinEquiv (m := a) (n := b)).sum_comp f, Fintype.sum_prod_type]
  refine Finset.sum_congr rfl fun j _ => Finset.sum_congr rfl fun i _ => congrArg f (Fin.ext ?_)
  exact Nat.add_comm _ _

/-- 4096 positions are 4 tiles of 1024. -/
theorem sum_tiles_4096 {M : Type} [AddCommMonoid M] (f : Fin 4096 → M) :
    ∑ k : Fin 4096, f k = ∑ j : Fin 4, ∑ i : Fin 1024, f ⟨1024 * j.val + i.val, by omega⟩ :=
  sum_tiles 4 1024 f

/-- 32768 positions are 64 tiles of 512. -/
theorem sum_tiles_32768 {M : Type} [AddCommMonoid M] (f : Fin 32768 → M) :
    ∑ e : Fin 32768, f e = ∑ j : Fin 64, ∑ i : Fin 512, f ⟨512 * j.val + i.val, by omega⟩ :=
  sum_tiles 64 512 f

/-- The sum over the first `n + 1` tiles is the sum over the first `n` plus tile `n`. -/
theorem sum_tiles_succ {M : Type} [AddCommMonoid M] (n : ℕ) (g : ℕ → M) :
    ∑ j ∈ Finset.range (n + 1), g j = (∑ j ∈ Finset.range n, g j) + g n :=
  Finset.sum_range_succ g n

/-- A sum over the tiles counted by `Fin a` is the sum over the first `a` naturals. -/
theorem sum_fin_eq_range {M : Type} [AddCommMonoid M] (a : ℕ) (g : ℕ → M) :
    ∑ j : Fin a, g j.val = ∑ j ∈ Finset.range a, g j :=
  Fin.sum_univ_eq_sum_range g a

end Cert.Spec
-- ==== Proof.Blocks0.lean ====
/-
  Region 0 (the node scores, a K-tiled matrix product on a 4 × 4 grid): where each grid point's blocks sit in
  their arrays, and the mathematics the accumulator carries.

  Grid point `t` has coordinates (n, k) = (t / 4, t % 4): `n` is the column tile of the result, `k` the tile of the
  contracted axis.  The three windows:
    window 0: block (0, k) of the 256 × 4096 query rows       — rows all, columns 1024·k … 1024·k + 1023;
    window 1: block (k, n) of the 4096 × 4096 adjacency       — rows 1024·k …, columns 1024·n …;
    window 2: block (0, n) of the 256 × 4096 score array      — rows all, columns 1024·n ….
  A block's coordinate on an axis is always (block index) × (block size) + (coordinate inside the block).

  The accumulator after the point (n, k) holds, at (p, q), the partial sum over the first k + 1 tiles of the
  contracted axis of  en[p, ·] · adj[·, 1024·n + q];  after the fourth tile it is the score itself, because a sum over
  4096 terms is the sum of its four tiles of 1024.
-/
import proofs.«115778_j1580547965681_1_alg».proof.Proof.Gen.KernelIdeal.Launch
import proofs.«115778_j1580547965681_1_alg».proof.Proof.Gen.KernelIdeal.Points
import proofs.«115778_j1580547965681_1_alg».proof.Proof.Spec
import proofs.«115778_j1580547965681_1_alg».proof.Proof.Tiles
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

variable {F : FTy → Type} [FloatOps F]

/-! ## The index maps, decided over the sixteen grid points -/

/-- Window 0 sits at block (0, k). -/
theorem idx0_0 : ∀ t : Fin cfg0.N, win0_0.index t (0 : Fin 2) = 0 ∧ win0_0.index t (1 : Fin 2) = t.val % 4 :=
  (by decide +kernel : ∀ t : Fin grid0.N, _)

/-- Window 1 sits at block (k, n). -/
theorem idx0_1 : ∀ t : Fin cfg0.N, win0_1.index t (0 : Fin 2) = t.val % 4 ∧ win0_1.index t (1 : Fin 2) = t.val / 4 :=
  (by decide +kernel : ∀ t : Fin grid0.N, _)

/-- Window 2 sits at block (0, n). -/
theorem idx0_2 : ∀ t : Fin cfg0.N, win0_2.index t (0 : Fin 2) = 0 ∧ win0_2.index t (1 : Fin 2) = t.val / 4 :=
  (by decide +kernel : ∀ t : Fin grid0.N, _)

/-- A point of the sixteen has n = t / 4 below four. -/
theorem div4_lt (t : Fin cfg0.N) : t.val / 4 < 4 := by
  have h : t.val < 16 := lt_of_lt_of_eq t.isLt N_0
  omega

/-! ## The blocks read: any array of the window's type, at the block's place -/

/-- Block (0, k) of a 256 × 4096 array: entry (p, j) of the block is entry (p, 1024·k + j) of the array. -/
theorem blk0_0_read (A : Vec F S256x4096 .f32) (t : Fin cfg0.N) (p : Fin 256) (j : Fin 1024) :
    ((cfg0.win 0).blk t).view.read (Elt F) A (ix2 p j)
      = A (ix2 p ⟨1024 * (t.val % 4) + j.val, by have := j.isLt; omega⟩) := by
  obtain ⟨e0, e1⟩ := idx0_0 t
  rw [View.read_apply]
  show A _ = A _
  refine congrArg A ?_
  funext a; apply Fin.ext
  match a with
  | ⟨0, _⟩ => show win0_0.index t (0 : Fin 2) * 256 + 1 * p.val = p.val; rw [e0]; omega
  | ⟨1, _⟩ => show win0_0.index t (1 : Fin 2) * 1024 + 1 * j.val = 1024 * (t.val % 4) + j.val; rw [e1]; omega

/-- Block (k, n) of a 4096 × 4096 array: entry (i, j) of the block is entry (1024·k + i, 1024·n + j) of the array. -/
theorem blk0_1_read (A : Vec F S4096x4096 .f32) (t : Fin cfg0.N) (i j : Fin 1024) :
    ((cfg0.win 1).blk t).view.read (Elt F) A (ix2 i j)
      = A (ix2 ⟨1024 * (t.val % 4) + i.val, by have := i.isLt; omega⟩
            ⟨1024 * (t.val / 4) + j.val, by have := j.isLt; have := div4_lt t; omega⟩) := by
  obtain ⟨e0, e1⟩ := idx0_1 t
  rw [View.read_apply]
  show A _ = A _
  refine congrArg A ?_
  funext a; apply Fin.ext
  match a with
  | ⟨0, _⟩ => show win0_1.index t (0 : Fin 2) * 1024 + 1 * i.val = 1024 * (t.val % 4) + i.val; rw [e0]; omega
  | ⟨1, _⟩ => show win0_1.index t (1 : Fin 2) * 1024 + 1 * j.val = 1024 * (t.val / 4) + j.val; rw [e1]; omega

/-- Block (0, n) of a 256 × 4096 array: entry (p, q) of the block is entry (p, 1024·n + q) of the array. -/
theorem blk0_2_read (A : Vec F S256x4096 .f32) (t : Fin cfg0.N) (p : Fin 256) (q : Fin 1024) :
    ((cfg0.win 2).blk t).view.read (Elt F) A (ix2 p q)
      = A (ix2 p ⟨1024 * (t.val / 4) + q.val, by have := q.isLt; have := div4_lt t; omega⟩) := by
  obtain ⟨e0, e1⟩ := idx0_2 t
  rw [View.read_apply]
  show A _ = A _
  refine congrArg A ?_
  funext a; apply Fin.ext
  match a with
  | ⟨0, _⟩ => show win0_2.index t (0 : Fin 2) * 256 + 1 * p.val = p.val; rw [e0]; omega
  | ⟨1, _⟩ => show win0_2.index t (1 : Fin 2) * 1024 + 1 * q.val = 1024 * (t.val / 4) + q.val; rw [e1]; omega

/-! ## The output's blocks cover the score array -/

/-- An index of the score array is in point `t`'s block iff each coordinate is in the block's range on its axis. -/
theorem mem_blk0_2 (t : Fin cfg0.N) (i : S256x4096.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v0).slice (win0_2.rect t)).set ↔ _
  rw [View.set_slice_whole, Rect.mem_set_unit]
  exact Iff.rfl

/-- The point that finishes the column tile of an index: n = (column) / 1024, k = 3. -/
def lastPoint (i : S256x4096.Idx) : Fin cfg0.N :=
  ⟨4 * ((i 1).val / 1024) + 3, by
    have h : (i 1).val < 4096 := (i 1).isLt
    show _ < grid0.N
    rw [N_0]; omega⟩

theorem lastPoint_val (i : S256x4096.Idx) : (lastPoint i).val = 4 * ((i 1).val / 1024) + 3 := rfl

/-- It is a point where the accumulator is written back. -/
theorem lastPoint_mod (i : S256x4096.Idx) : (lastPoint i).val % 4 = 3 := by
  rw [lastPoint_val]; omega

theorem lastPoint_div (i : S256x4096.Idx) : (lastPoint i).val / 4 = (i 1).val / 1024 := by
  rw [lastPoint_val]; omega

/-- Every index of the score array lies in the block of the point that finishes its column tile. -/
theorem mem_lastPoint (i : S256x4096.Idx) : i ∈ ((cfg0.win 2).blk (lastPoint i)).view.set := by
  rw [mem_blk0_2]
  obtain ⟨e0, e1⟩ := idx0_2 (lastPoint i)
  have h0 : (i 0).val < 256 := (i 0).isLt
  have h1 : (i 1).val < 4096 := (i 1).isLt
  have hd := lastPoint_div i
  intro a
  match a with
  | ⟨0, _⟩ =>
    show win0_2.index (lastPoint i) (0 : Fin 2) * 256 ≤ (i 0).val
      ∧ (i 0).val < win0_2.index (lastPoint i) (0 : Fin 2) * 256 + 256
    rw [e0]; omega
  | ⟨1, _⟩ =>
    show win0_2.index (lastPoint i) (1 : Fin 2) * 1024 ≤ (i 1).val
      ∧ (i 1).val < win0_2.index (lastPoint i) (1 : Fin 2) * 1024 + 1024
    rw [e1, hd]; omega

/-- The cover: every index of the score array is in the block of a point that writes back. -/
theorem cover0_2 (i : S256x4096.Idx) :
    ∃ t : Fin cfg0.N, (cfg0.win 2).flush t = true ∧ i ∈ ((cfg0.win 2).blk t).view.set :=
  ⟨lastPoint i, (flush0_2 (lastPoint i)).mpr (lastPoint_mod i), mem_lastPoint i⟩

/-! ## What the accumulator carries -/

/-- A natural number as a row or column index of the 4096-wide arrays (total: wrapped; the identity below 4096). -/
def wrap (x : ℕ) : Fin 4096 := ⟨x % 4096, Nat.mod_lt _ (by norm_num)⟩

theorem wrap_of_lt {x : ℕ} (h : x < 4096) : wrap x = ⟨x, h⟩ := Fin.ext (Nat.mod_eq_of_lt h)

/-- One tile of the contraction: the products over the rows 1024·k … 1024·k + 1023 of the adjacency, for the
    result's entry (p, 1024·n + q). -/
def tile0 (en : Cert.Spec.Mat 256 4096) (adj : Cert.Spec.Mat 4096 4096) (n k : ℕ) (p : Fin 256) (q : Fin 1024) : EReal :=
  ∑ j : Fin 1024, en (ix2 p (wrap (1024 * k + j.val))) * adj (ix2 (wrap (1024 * k + j.val)) (wrap (1024 * n + q.val)))

/-- Inside the grid the tile reads the arrays where the blocks of the point (n, k) sit. -/
theorem tile0_eq (en : Cert.Spec.Mat 256 4096) (adj : Cert.Spec.Mat 4096 4096) {n k : ℕ} (hn : n < 4) (hk : k < 4)
    (p : Fin 256) (q : Fin 1024) :
    tile0 en adj n k p q = ∑ j : Fin 1024, en (ix2 p ⟨1024 * k + j.val, by have := j.isLt; omega⟩)
      * adj (ix2 ⟨1024 * k + j.val, by have := j.isLt; omega⟩ ⟨1024 * n + q.val, by have := q.isLt; omega⟩) := by
  unfold tile0
  refine Finset.sum_congr rfl fun j _ => ?_
  have hj : 1024 * k + j.val < 4096 := by have := j.isLt; omega
  have hq : 1024 * n + q.val < 4096 := by have := q.isLt; omega
  rw [wrap_of_lt hj, wrap_of_lt hq]

/-- The accumulator after the tiles 0 … k. -/
def partial0 (en : Cert.Spec.Mat 256 4096) (adj : Cert.Spec.Mat 4096 4096) (n k : ℕ) (p : Fin 256) (q : Fin 1024) : EReal :=
  ∑ k' ∈ Finset.range (k + 1), tile0 en adj n k' p q

/-- After the first tile: the tile alone. -/
theorem partial0_zero (en : Cert.Spec.Mat 256 4096) (adj : Cert.Spec.Mat 4096 4096) (n : ℕ) (p : Fin 256) (q : Fin 1024) :
    partial0 en adj n 0 p q = tile0 en adj n 0 p q := by
  unfold partial0; rw [Finset.sum_range_one]

/-- The same, as the reset accumulator (zero) plus the tile. -/
theorem partial0_zero' (en : Cert.Spec.Mat 256 4096) (adj : Cert.Spec.Mat 4096 4096) (n : ℕ) (p : Fin 256) (q : Fin 1024) :
    partial0 en adj n 0 p q = 0 + tile0 en adj n 0 p q := by
  rw [partial0_zero, zero_add]

/-- One more tile: the accumulator so far plus the next tile. -/
theorem partial0_succ (en : Cert.Spec.Mat 256 4096) (adj : Cert.Spec.Mat 4096 4096) (n k : ℕ) (p : Fin 256) (q : Fin 1024) :
    partial0 en adj n (k + 1) p q = partial0 en adj n k p q + tile0 en adj n (k + 1) p q := by
  unfold partial0; rw [Finset.sum_range_succ]

/-- After the fourth tile the accumulator is the score: a sum over 4096 is the sum of its four tiles of 1024. -/
theorem partial0_last (en : Cert.Spec.Mat 256 4096) (adj : Cert.Spec.Mat 4096 4096) {n : ℕ} (hn : n < 4)
    (p : Fin 256) (q : Fin 1024) :
    partial0 en adj n 3 p q
      = Cert.Spec.score en adj (ix2 p ⟨1024 * n + q.val, by have := q.isLt; omega⟩) := by
  have hq : 1024 * n + q.val < 4096 := by have := q.isLt; omega
  unfold partial0 Cert.Spec.score
  show _ = ∑ k : Fin 4096, en (ix2 p k) * adj (ix2 k ⟨1024 * n + q.val, hq⟩)
  rw [Cert.Spec.sum_tiles_4096 (fun k : Fin 4096 => en (ix2 p k) * adj (ix2 k ⟨1024 * n + q.val, hq⟩)),
    ← Cert.Spec.sum_fin_eq_range 4 (fun k' => tile0 en adj n k' p q)]
  refine Finset.sum_congr rfl fun k' _ => ?_
  exact tile0_eq en adj hn k'.isLt p q

end Cert.KernelIdeal.Hand

end
-- ==== Proof.R0Value.lean ====
import proofs.«115778_j1580547965681_1_alg».proof.Proof.R0Frame
import proofs.«115778_j1580547965681_1_alg».proof.Proof.Spec
import proofs.«115778_j1580547965681_1_alg».proof.Proof.PayIdx
import proofs.«115778_j1580547965681_1_alg».proof.Proof.Blocks0
import Idealize.ShloMosaic.Lib.Pipeline.Value
import Idealize.ShloMosaic.Lib.ValueIdx
import Idealize.ShloMosaic.Lib.Tactic

/-! # Region 0's value: the score array ends at edge_nodes · adj

What each control case leaves in the accumulator is read back as the payload of its last store; by induction
on the grid point the accumulator after point 4·n + k is the sum of the first k + 1 tile products for column
tile n; after the fourth tile that is the whole contraction over 4096, the point writes it to block (0, n) of
the score array, and those four blocks cover the array. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## What each case leaves, read as values -/

section Pieces
variable {F : FTy → Type} [FloatOps F]

theorem origin_zero : (![0, 0] : Fin 2 → Nat) = fun _ => 0 := funext fun a => by fin_cases a <;> rfl

/-- Middle K tiles: the accumulator ends at what it held plus this tile's product. -/
theorem accMid_eq (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : ¬copies i)
    (x0 : Vec F S256x1024 .f32) (x1 : Vec F S1024x1024 .f32) (xa : Vec F S256x1024 .f32) :
    accMid c i enM henM adjM hadjM outM houtM accM haccM hc0 hc1 x0 x1 xa = k0_pay2 x0 x1 xa := by
  unfold accMid
  rw [View.read_writes_eq_canon _ _ _ (accMid_cover c i enM henM adjM hadjM outM houtM accM haccM hc0 hc1 x0 x1 xa)]
  unfold runMid
  dsimp only
  sl_unfold_words
  rw [View.canon_unit_zero origin_zero]
  simp only [View.readAt_eq_ld, henM.read_unread, hadjM.read_unread, haccM.read_unread, houtM.read_unread, View.ld_unit_zero (S := S256x1024) origin_zero, View.ld_unit_zero (S := S1024x1024) origin_zero]

/-- Last K tile: the accumulator ends at what it held plus this tile's product. -/
theorem accLast_eq (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) :
    accLast c i enM henM adjM hadjM outM houtM accM haccM hc0 hc1 x0 x1 xa = k0_pay2 x0 x1 xa := by
  unfold accLast
  rw [View.read_writes_eq_canon _ _ _ (accLast_cover c i enM henM adjM hadjM outM houtM accM haccM hc0 hc1 x0 x1 xa)]
  unfold runLast
  dsimp only
  sl_unfold_words
  rw [View.canon_unit_zero origin_zero]
  simp only [View.readAt_eq_ld, henM.read_unread, hadjM.read_unread, haccM.read_unread, houtM.read_unread, View.ld_unit_zero (S := S256x1024) origin_zero, View.ld_unit_zero (S := S1024x1024) origin_zero]

/-- Last K tile: the output window's buffer receives the accumulator as just updated. -/
theorem stgLast_eq (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : ¬clears i) (hc1 : copies i)
    (x0 : Vec F S256x1024 .f32) (x1 : Vec F S1024x1024 .f32) (xa : Vec F S256x1024 .f32) :
    stgLast c i enM henM adjM hadjM outM houtM accM haccM hc0 hc1 x0 x1 xa = k0_pay2 x0 x1 xa := by
  unfold stgLast
  rw [View.read_writes_eq_canon _ _ _ (stgLast_cover c i enM henM adjM hadjM outM houtM accM haccM hc0 hc1 x0 x1 xa)]
  unfold runLast
  dsimp only
  sl_unfold_words
  rw [View.canon_unit_zero origin_zero, View.readCov_unit_zero (S := S256x1024) _ origin_zero]
  simp only [View.readAt_eq_ld, henM.read_unread, hadjM.read_unread, haccM.read_unread, houtM.read_unread, View.ld_unit_zero (S := S256x1024) origin_zero, View.ld_unit_zero (S := S1024x1024) origin_zero]

/-- First K tile: the accumulator is cleared, then receives the first product. -/
theorem accFirst_eq (c : Dev nD) (i : grid0.Coords) (enM : Memref sig .tc .vmem S256x1024 .f32) (henM : enM.IsWhole) (adjM : Memref sig .tc .vmem S1024x1024 .f32) (hadjM : adjM.IsWhole) (outM : Memref sig .tc .vmem S256x1024 .f32) (houtM : outM.IsWhole) (accM : Memref sig .tc .vmem S256x1024 .f32) (haccM : accM.IsWhole) (hc0 : clears i) (hc1 : ¬copies i)
    (x0 : Vec F S256x1024 .f32) (x1 : Vec F S1024x1024 .f32) :
    accFirst c i enM henM adjM hadjM outM houtM accM haccM hc0 hc1 x0 x1 = k0_pay2 x0 x1 (k0_pay1 (F := F)) := by
  unfold accFirst
  rw [View.read_writes_eq_canon _ _ _ (accFirst_cover c i enM henM adjM hadjM outM houtM accM haccM hc0 hc1 x0 x1)]
  unfold runFirst
  dsimp only
  sl_unfold_words
  rw [View.canon_cons_unit_zero (S := S256x1024) origin_zero, View.readCov_unit_zero (S := S256x1024) _ origin_zero]
  simp only [View.readAt_eq_ld, henM.read_unread, hadjM.read_unread, haccM.read_unread, houtM.read_unread, View.ld_unit_zero (S := S256x1024) origin_zero, View.ld_unit_zero (S := S1024x1024) origin_zero]

end Pieces

/-! ## The accumulator point by point, as a chain of payloads -/

section Chain
variable {F : FTy → Type} [FloatOps F]
variable (V : (c : Dev nD) → (b : Ref sig .tc) → Buf (Elt F) ((c : Thread nD τ).loc b))

/-- The edge_nodes tile and the adj block at point t, at their literal types. -/
abbrev enBlk (c : Dev nD) (t : Fin cfg0.N) : Vec F S256x1024 .f32 := iblk0 V c 0 t
abbrev adjBlk (c : Dev nD) (t : Fin cfg0.N) : Vec F S1024x1024 .f32 := iblk0 V c 1 t

/-- The accumulator after point n: at the first K tile the cleared accumulator plus the product, afterwards what the
    point before left plus the product. -/
def accAt (c : Dev nD) : (n : ℕ) → n < cfg0.N → Vec F S256x1024 .f32
  | 0, h => k0_pay2 (enBlk V c ⟨0, h⟩) (adjBlk V c ⟨0, h⟩) (k0_pay1 (F := F))
  | n + 1, h =>
    if (n + 1) % 4 = 0 then k0_pay2 (enBlk V c ⟨n + 1, h⟩) (adjBlk V c ⟨n + 1, h⟩) (k0_pay1 (F := F))
    else k0_pay2 (enBlk V c ⟨n + 1, h⟩) (adjBlk V c ⟨n + 1, h⟩) (accAt c n (Nat.lt_of_succ_lt h))

theorem accAt_first (c : Dev nD) (t : Fin cfg0.N) (h0 : t.val % 4 = 0) :
    accAt V c t.val t.isLt = k0_pay2 (enBlk V c t) (adjBlk V c t) (k0_pay1 (F := F)) := by
  obtain ⟨n, hn⟩ := t
  cases n with
  | zero => rfl
  | succ n => exact if_pos h0

theorem accAt_next (c : Dev nD) (t : Fin cfg0.N) (h0 : ¬t.val % 4 = 0) :
    accAt V c t.val t.isLt = k0_pay2 (enBlk V c t) (adjBlk V c t) (accAt V c (t.val - 1) (Nat.lt_of_le_of_lt (Nat.sub_le _ _) t.isLt)) := by
  obtain ⟨n, hn⟩ := t
  cases n with
  | zero => exact absurd (Nat.zero_mod _) h0
  | succ n => exact if_neg h0

/-- The frame's accumulator component is that chain: by induction on the point. -/
theorem acc_eq (c : Dev nD) : ∀ (n : ℕ) (h : n < cfg0.N), (outsAt0 V c n h).2 = accAt V c n h := by
  intro n
  induction n with
  | zero =>
    intro h
    rw [outsAt0_first V c ⟨0, h⟩ rfl (by show ¬0 % 4 = 3; omega)]
    dsimp only
    exact accFirst_eq c (grid0.coords ⟨0, h⟩) (enAt ⟨0, h⟩) (enAt_whole ⟨0, h⟩) (adjAt ⟨0, h⟩) (adjAt_whole ⟨0, h⟩) (outAt ⟨0, h⟩) (outAt_whole ⟨0, h⟩) accMem (Memref.isWhole_whole _) _ _ (iblk0 V c 0 ⟨0, h⟩) (iblk0 V c 1 ⟨0, h⟩)
  | succ n ih =>
    intro h
    by_cases h0 : (n + 1) % 4 = 0
    · have h1 : ¬(n + 1) % 4 = 3 := by omega
      rw [outsAt0_first V c ⟨n + 1, h⟩ h0 h1, accAt_first V c ⟨n + 1, h⟩ h0]
      dsimp only
      exact accFirst_eq c (grid0.coords ⟨n + 1, h⟩) (enAt ⟨n + 1, h⟩) (enAt_whole ⟨n + 1, h⟩) (adjAt ⟨n + 1, h⟩) (adjAt_whole ⟨n + 1, h⟩) (outAt ⟨n + 1, h⟩) (outAt_whole ⟨n + 1, h⟩) accMem (Memref.isWhole_whole _) _ _ (iblk0 V c 0 ⟨n + 1, h⟩) (iblk0 V c 1 ⟨n + 1, h⟩)
    · rw [accAt_next V c ⟨n + 1, h⟩ h0]
      by_cases h1 : (n + 1) % 4 = 3
      · rw [outsAt0_last V c ⟨n + 1, h⟩ h0 h1]
        dsimp only
        rw [accLast_eq c (grid0.coords ⟨n + 1, h⟩) (enAt ⟨n + 1, h⟩) (enAt_whole ⟨n + 1, h⟩) (adjAt ⟨n + 1, h⟩) (adjAt_whole ⟨n + 1, h⟩) (outAt ⟨n + 1, h⟩) (outAt_whole ⟨n + 1, h⟩) accMem (Memref.isWhole_whole _) _ _ (iblk0 V c 0 ⟨n + 1, h⟩) (iblk0 V c 1 ⟨n + 1, h⟩)]
        exact congrArg (k0_pay2 (enBlk V c ⟨n + 1, h⟩) (adjBlk V c ⟨n + 1, h⟩)) (ih _)
      · rw [outsAt0_mid V c ⟨n + 1, h⟩ h0 h1]
        dsimp only
        rw [accMid_eq c (grid0.coords ⟨n + 1, h⟩) (enAt ⟨n + 1, h⟩) (enAt_whole ⟨n + 1, h⟩) (adjAt ⟨n + 1, h⟩) (adjAt_whole ⟨n + 1, h⟩) (outAt ⟨n + 1, h⟩) (outAt_whole ⟨n + 1, h⟩) accMem (Memref.isWhole_whole _) _ _ (iblk0 V c 0 ⟨n + 1, h⟩) (iblk0 V c 1 ⟨n + 1, h⟩)]
        exact congrArg (k0_pay2 (enBlk V c ⟨n + 1, h⟩) (adjBlk V c ⟨n + 1, h⟩)) (ih _)

/-- At the last K tile the output window's buffer holds the accumulator. -/
theorem stg_eq (c : Dev nD) (t : Fin cfg0.N) (h3 : t.val % 4 = 3) :
    (outsAt0 V c t.val t.isLt).1 = accAt V c t.val t.isLt := by
  have h0 : ¬t.val % 4 = 0 := by omega
  rw [outsAt0_last V c t h0 h3, accAt_next V c t h0]
  dsimp only
  rw [stgLast_eq c (grid0.coords t) (enAt t) (enAt_whole t) (adjAt t) (adjAt_whole t) (outAt t) (outAt_whole t) accMem (Memref.isWhole_whole _) _ _ (iblk0 V c 0 t) (iblk0 V c 1 t)]
  exact congrArg (k0_pay2 (enBlk V c t) (adjBlk V c t)) (acc_eq V c _ _)

end Chain

/-! ## At the extended reals: partial sums of the contraction, then the score -/

section Score
variable (V : (c : Dev nD) → (b : Ref sig .tc) → Buf (Elt Ideal) ((c : Thread nD τ).loc b))

/-- The two argument arrays as the region finds them, at their literal types. -/
abbrev enArr (c : Dev nD) : Cert.Spec.Mat 256 4096 := V c main_arg0
abbrev adjArr (c : Dev nD) : Cert.Spec.Mat 4096 4096 := V c main_arg1
/-- The score array the region is to leave. -/
abbrev scoreArr (c : Dev nD) : Cert.Spec.Mat 256 4096 := Cert.Spec.score (V c main_arg0) (V c main_arg1)

/-- The edge_nodes tile at point t reads columns 1024·k … of edge_nodes. -/
theorem enBlk_apply (c : Dev nD) (t : Fin cfg0.N) (p : Fin 256) (j : Fin 1024) :
    enBlk V c t (ix2 p j) = enArr V c (ix2 p ⟨1024 * (t.val % 4) + j.val, by have := j.isLt; omega⟩) :=
  blk0_0_read (F := Ideal) (V c main_arg0) t p j

/-- The adj block at point t reads rows 1024·k … and columns 1024·n … of adj. -/
theorem adjBlk_apply (c : Dev nD) (t : Fin cfg0.N) (i j : Fin 1024) :
    adjBlk V c t (ix2 i j) = adjArr V c (ix2 ⟨1024 * (t.val % 4) + i.val, by have := i.isLt; omega⟩
      ⟨1024 * (t.val / 4) + j.val, by have := j.isLt; have := div4_lt t; omega⟩) :=
  blk0_1_read (F := Ideal) (V c main_arg1) t i j

/-- The product of the two blocks at point t = 4·n + k is tile k of the contraction for column tile n. -/
theorem tile_at (c : Dev nD) (t : Fin cfg0.N) (p : Fin 256) (q : Fin 1024) :
    ∑ j : Fin 1024, enBlk V c t (ix2 p j) * adjBlk V c t (ix2 j q)
      = tile0 (enArr V c) (adjArr V c) (t.val / 4) (t.val % 4) p q := by
  rw [tile0_eq (enArr V c) (adjArr V c) (div4_lt t) (Nat.mod_lt _ (by norm_num)) p q]
  refine Finset.sum_congr rfl fun j _ => ?_
  rw [enBlk_apply, adjBlk_apply]

/-- The accumulator after point t = 4·n + k holds the first k + 1 tiles of the contraction for column tile n:
    by induction on the point. -/
theorem accAt_apply (c : Dev nD) : ∀ (n : ℕ) (h : n < cfg0.N) (p : Fin 256) (q : Fin 1024),
    accAt V c n h (ix2 p q) = partial0 (enArr V c) (adjArr V c) (n / 4) (n % 4) p q := by
  intro n
  induction n with
  | zero =>
    intro h p q
    rw [accAt_first V c ⟨0, h⟩ rfl]
    refine (pay_k0_2 (enBlk V c ⟨0, h⟩) (adjBlk V c ⟨0, h⟩) (k0_pay1 (F := Ideal)) p q).trans ?_
    rw [pay_k0_1 p q, tile_at V c ⟨0, h⟩ p q]
    exact (partial0_zero' _ _ _ p q).symm
  | succ n ih =>
    intro h p q
    by_cases h0 : (n + 1) % 4 = 0
    · rw [accAt_first V c ⟨n + 1, h⟩ h0]
      refine (pay_k0_2 (enBlk V c ⟨n + 1, h⟩) (adjBlk V c ⟨n + 1, h⟩) (k0_pay1 (F := Ideal)) p q).trans ?_
      rw [pay_k0_1 p q, tile_at V c ⟨n + 1, h⟩ p q]
      show 0 + tile0 _ _ ((n + 1) / 4) ((n + 1) % 4) p q = _
      rw [h0]
      exact (partial0_zero' _ _ _ p q).symm
    · rw [accAt_next V c ⟨n + 1, h⟩ h0]
      refine (pay_k0_2 (enBlk V c ⟨n + 1, h⟩) (adjBlk V c ⟨n + 1, h⟩) _ p q).trans ?_
      rw [tile_at V c ⟨n + 1, h⟩ p q]
      show accAt V c n _ (ix2 p q) + tile0 _ _ ((n + 1) / 4) ((n + 1) % 4) p q = _
      rw [ih _ p q]
      have hd : (n + 1) / 4 = n / 4 := by omega
      have hm : (n + 1) % 4 = n % 4 + 1 := by omega
      rw [hd, hm]
      exact (partial0_succ _ _ _ _ p q).symm

/-- What a point of the last K tile writes back is its block of the score array. -/
theorem flushed_eq (c : Dev nD) (t : Fin cfg0.N) (hf : (cfg0.win 2).flush t = true) :
    (dat0 V c).flushed 2 t = ((cfg0.win 2).blk t).view.read (Elt Ideal) (scoreArr V c) := by
  have h3 : t.val % 4 = 3 := (flush0_2 t).mp hf
  have key : ∀ (p : Fin 256) (q : Fin 1024),
      accAt V c t.val t.isLt (ix2 p q) = ((cfg0.win 2).blk t).view.read (Elt Ideal) (scoreArr V c) (ix2 p q) := by
    intro p q
    rw [accAt_apply V c t.val t.isLt p q, h3, partial0_last (enArr V c) (adjArr V c) (div4_lt t) p q]
    exact (blk0_2_read (F := Ideal) (scoreArr V c) t p q).symm
  show (cfg0.win 2).cut (grid0.coords t) ((dat0 V c).after 2 t) = _
  rw [after0_2, stg_eq V c t h3]
  funext y
  have e := eq_ix2 (n0 := 256) (n1 := 1024) y
  rw [e]
  exact key (y 0) (y 1)

/-- REGION 0's VALUE: the score array ends at edge_nodes · adj. -/
theorem r0_value (c : Dev nD) :
    (dat0 (F := Ideal) V c).arrAt 2 cfg0.N = Cert.Spec.score (V c main_arg0) (V c main_arg1) :=
  (dat0 V c).arrAt_eq_of_cover 2 (scoreArr V c) (flushed_eq V c) cover0_2

end Score

end Cert.KernelIdeal.Hand

end
-- ==== Proof.Blocks1.lean ====
/-
  The second region's blocks as parts of their arrays, and the sums it accumulates over the edge tiles.

  The grid has 64 points; point `t` is edge tile `t`, the edges `512·t … 512·t + 511`. Of the six windows, the node
  scores (256 × 4096), the weights (256 × 256), the bias row (1 × 256) and the result (256 × 256) are whole arrays
  at block index (0, 0) at every point; the incidence matrix (4096 × 32768) is cut along its columns, block (0, t)
  of size 4096 × 512, and the edge features (32768 × 256) along their rows, block (t, 0) of size 512 × 256. So entry
  `(n, j)` of the incidence block at `t` is entry `(n, 512·t + j)` of the matrix, entry `(j, d)` of the feature block is
  entry `(512·t + j, d)` of the features, and a whole-array block reads the array itself. The result is written back
  at the last point only, whose block is the whole array.

  Over the tiles the region accumulates, for a row `p`, the count of selected edges and, for an entry `(p, q)`, the
  selected edges' features added up: after tile `e` they hold the sums over the edges of the tiles `0 … e`, start
  from zero at tile 0, grow by one tile's sum per point, and after tile 63 are the sums over all 32768 edges
  (a range of 64 · 512 positions is 64 tiles of 512).
-/
import proofs.«115778_j1580547965681_1_alg».proof.Proof.Gen.KernelIdeal.Launch
import proofs.«115778_j1580547965681_1_alg».proof.Proof.Gen.KernelIdeal.Points
import proofs.«115778_j1580547965681_1_alg».proof.Proof.Spec
import proofs.«115778_j1580547965681_1_alg».proof.Proof.Tiles
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

variable {F : FTy → Type} [FloatOps F]

/-! ## The block index of each window at each point, decided over the 64 points -/

/-- The node scores' window stays at block (0, 0). -/
theorem idx1_0 : ∀ t : Fin cfg1.N, win1_0.index t (0 : Fin 2) = 0 ∧ win1_0.index t (1 : Fin 2) = 0 :=
  (by decide +kernel : ∀ t : Fin grid1.N, _)
/-- The incidence matrix's window is at block (0, t). -/
theorem idx1_1 : ∀ t : Fin cfg1.N, win1_1.index t (0 : Fin 2) = 0 ∧ win1_1.index t (1 : Fin 2) = t.val :=
  (by decide +kernel : ∀ t : Fin grid1.N, _)
/-- The edge features' window is at block (t, 0). -/
theorem idx1_2 : ∀ t : Fin cfg1.N, win1_2.index t (0 : Fin 2) = t.val ∧ win1_2.index t (1 : Fin 2) = 0 :=
  (by decide +kernel : ∀ t : Fin grid1.N, _)
/-- The weights' window stays at block (0, 0). -/
theorem idx1_3 : ∀ t : Fin cfg1.N, win1_3.index t (0 : Fin 2) = 0 ∧ win1_3.index t (1 : Fin 2) = 0 :=
  (by decide +kernel : ∀ t : Fin grid1.N, _)
/-- The bias row's window stays at block (0, 0). -/
theorem idx1_4 : ∀ t : Fin cfg1.N, win1_4.index t (0 : Fin 2) = 0 ∧ win1_4.index t (1 : Fin 2) = 0 :=
  (by decide +kernel : ∀ t : Fin grid1.N, _)
/-- The result's window stays at block (0, 0). -/
theorem idx1_5 : ∀ t : Fin cfg1.N, win1_5.index t (0 : Fin 2) = 0 ∧ win1_5.index t (1 : Fin 2) = 0 :=
  (by decide +kernel : ∀ t : Fin grid1.N, _)

/-- A point of the grid is below 64. -/
theorem point_lt (t : Fin cfg1.N) : t.val < 64 := lt_of_lt_of_eq t.isLt N_1

/-- Place `j` of tile `t` is an edge: `512·t + j < 32768`. -/
theorem tile_edge_lt (t : Fin cfg1.N) (j : Fin 512) : 512 * t.val + j.val < 32768 := by
  have h1 := point_lt t
  have h2 := j.isLt
  omega

/-! ## A block read through its window is the array read at the block's place

A block's coordinate on an axis is the block index times the block's size plus the coordinate inside the block. -/

/-- The node scores' block is the whole array. -/
theorem blk1_0_read (A : Vec F S256x4096 .f32) (t : Fin cfg1.N) (y : S256x4096.Idx) :
    ((cfg1.win 0).blk t).view.read (Elt F) A y = A y := by
  rw [View.read_apply]
  show A _ = A _
  congr 1
  funext a
  apply Fin.ext
  match a with
  | ⟨0, _⟩ => show win1_0.index t (0 : Fin 2) * 256 + 1 * (y 0).val = (y 0).val; rw [(idx1_0 t).1]; omega
  | ⟨1, _⟩ => show win1_0.index t (1 : Fin 2) * 4096 + 1 * (y 1).val = (y 1).val; rw [(idx1_0 t).2]; omega

/-- Entry `(n, j)` of the incidence block at tile `t` is entry `(n, 512·t + j)` of the matrix. -/
theorem blk1_1_read (A : Vec F S4096x32768 .f32) (t : Fin cfg1.N) (n : Fin 4096) (j : Fin 512) :
    ((cfg1.win 1).blk t).view.read (Elt F) A (ix2 n j) = A (ix2 n ⟨512 * t.val + j.val, tile_edge_lt t j⟩) := by
  rw [View.read_apply]
  show A _ = A _
  congr 1
  funext a
  apply Fin.ext
  match a with
  | ⟨0, _⟩ => show win1_1.index t (0 : Fin 2) * 4096 + 1 * n.val = n.val; rw [(idx1_1 t).1]; omega
  | ⟨1, _⟩ => show win1_1.index t (1 : Fin 2) * 512 + 1 * j.val = 512 * t.val + j.val; rw [(idx1_1 t).2]; omega

/-- Entry `(j, d)` of the feature block at tile `t` is entry `(512·t + j, d)` of the features. -/
theorem blk1_2_read (A : Vec F S32768x256 .f32) (t : Fin cfg1.N) (j : Fin 512) (d : Fin 256) :
    ((cfg1.win 2).blk t).view.read (Elt F) A (ix2 j d) = A (ix2 ⟨512 * t.val + j.val, tile_edge_lt t j⟩ d) := by
  rw [View.read_apply]
  show A _ = A _
  congr 1
  funext a
  apply Fin.ext
  match a with
  | ⟨0, _⟩ => show win1_2.index t (0 : Fin 2) * 512 + 1 * j.val = 512 * t.val + j.val; rw [(idx1_2 t).1]; omega
  | ⟨1, _⟩ => show win1_2.index t (1 : Fin 2) * 256 + 1 * d.val = d.val; rw [(idx1_2 t).2]; omega

/-- The weights' block is the whole array. -/
theorem blk1_3_read (A : Vec F S256x256 .f32) (t : Fin cfg1.N) (y : S256x256.Idx) :
    ((cfg1.win 3).blk t).view.read (Elt F) A y = A y := by
  rw [View.read_apply]
  show A _ = A _
  congr 1
  funext a
  apply Fin.ext
  match a with
  | ⟨0, _⟩ => show win1_3.index t (0 : Fin 2) * 256 + 1 * (y 0).val = (y 0).val; rw [(idx1_3 t).1]; omega
  | ⟨1, _⟩ => show win1_3.index t (1 : Fin 2) * 256 + 1 * (y 1).val = (y 1).val; rw [(idx1_3 t).2]; omega

/-- The bias row's block is the whole array. -/
theorem blk1_4_read (A : Vec F S1x256 .f32) (t : Fin cfg1.N) (y : S1x256.Idx) :
    ((cfg1.win 4).blk t).view.read (Elt F) A y = A y := by
  rw [View.read_apply]
  show A _ = A _
  congr 1
  funext a
  apply Fin.ext
  match a with
  | ⟨0, _⟩ => show win1_4.index t (0 : Fin 2) * 1 + 1 * (y 0).val = (y 0).val; rw [(idx1_4 t).1]; omega
  | ⟨1, _⟩ => show win1_4.index t (1 : Fin 2) * 256 + 1 * (y 1).val = (y 1).val; rw [(idx1_4 t).2]; omega

/-- The result's block is the whole array. -/
theorem blk1_5_read (A : Vec F S256x256 .f32) (t : Fin cfg1.N) (y : S256x256.Idx) :
    ((cfg1.win 5).blk t).view.read (Elt F) A y = A y := by
  rw [View.read_apply]
  show A _ = A _
  congr 1
  funext a
  apply Fin.ext
  match a with
  | ⟨0, _⟩ => show win1_5.index t (0 : Fin 2) * 256 + 1 * (y 0).val = (y 0).val; rw [(idx1_5 t).1]; omega
  | ⟨1, _⟩ => show win1_5.index t (1 : Fin 2) * 256 + 1 * (y 1).val = (y 1).val; rw [(idx1_5 t).2]; omega

/-! ## The result's one write-back covers the array -/

/-- The last grid point, tile 63: the one point that writes the result back. -/
def lastPoint1 : Fin cfg1.N := ⟨63, lt_of_lt_of_eq (by decide) N_1.symm⟩

/-- An index of the result is in point `t`'s block iff each coordinate is in the block's range on its axis. -/
theorem mem_blk1_5 (t : Fin cfg1.N) (i : S256x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_v2).slice (win1_5.rect t)).set ↔ _
  rw [View.set_slice_whole, Rect.mem_set_unit]
  exact Iff.rfl

/-- The last point writes the result back. -/
theorem flush_lastPoint1 : (cfg1.win 5).flush lastPoint1 = true := (flush1_5 lastPoint1).mpr rfl

/-- Every index of the 256 × 256 result lies in the last point's block. -/
theorem mem_blk1_5_last (i : S256x256.Idx) : i ∈ ((cfg1.win 5).blk lastPoint1).view.set := by
  rw [mem_blk1_5]
  intro a
  obtain ⟨e0, e1⟩ := idx1_5 lastPoint1
  have h0 : (i 0).val < 256 := idx2_lt0 i
  have h1 : (i 1).val < 256 := idx2_lt1 i
  match a with
  | ⟨0, _⟩ => show win1_5.index lastPoint1 (0 : Fin 2) * 256 ≤ (i 0).val ∧ (i 0).val < win1_5.index lastPoint1 (0 : Fin 2) * 256 + 256; omega
  | ⟨1, _⟩ => show win1_5.index lastPoint1 (1 : Fin 2) * 256 ≤ (i 1).val ∧ (i 1).val < win1_5.index lastPoint1 (1 : Fin 2) * 256 + 256; omega

/-- So every index of the result is in the block of a point that writes back. -/
theorem cover1_5 (i : S256x256.Idx) :
    ∃ t : Fin cfg1.N, (cfg1.win 5).flush t = true ∧ i ∈ ((cfg1.win 5).blk t).view.set :=
  ⟨lastPoint1, flush_lastPoint1, mem_blk1_5_last i⟩

/-- The last point is the only one that writes back. -/
theorem flush1_5_eq_last (t : Fin cfg1.N) (hf : (cfg1.win 5).flush t = true) : t = lastPoint1 := by
  have h := (flush1_5 t).mp hf
  have h2 := point_lt t
  exact Fin.ext (by show t.val = 63; omega)

/-! ## The accumulation over the edge tiles -/

/-- Edge `j` of tile `e`, reduced into the range of the edges so that it is defined for every natural `e`. -/
def tileEdge (e : ℕ) (j : Fin 512) : Fin 32768 := ⟨(512 * e + j.val) % 32768, Nat.mod_lt _ (by decide)⟩

/-- For a tile below 64 no reduction happens: the edge is `512·e + j`. -/
theorem tileEdge_of_lt {e : ℕ} (h : e < 64) (j : Fin 512) :
    tileEdge e j = ⟨512 * e + j.val, by have := j.isLt; omega⟩ :=
  Fin.ext (Nat.mod_eq_of_lt (by have := j.isLt; omega))

/-- At a grid point it is the edge the block reads name. -/
theorem tileEdge_point (t : Fin cfg1.N) (j : Fin 512) :
    tileEdge t.val j = ⟨512 * t.val + j.val, tile_edge_lt t j⟩ :=
  tileEdge_of_lt (point_lt t) j

/-- How many edges of the tiles `0 … e` row `p` selects. -/
def partialCount (be : Cert.Spec.Mat 256 32768) (e : ℕ) (p : Fin 256) : EReal :=
  ∑ e' ∈ Finset.range (e + 1), ∑ j : Fin 512, Cert.Spec.pick (be (ix2 p (tileEdge e' j)))

/-- The selected edges' features of the tiles `0 … e` added up, at entry `(p, q)`. -/
def partialNum (be : Cert.Spec.Mat 256 32768) (h : Cert.Spec.Mat 32768 256) (e : ℕ) (p q : Fin 256) : EReal :=
  ∑ e' ∈ Finset.range (e + 1), ∑ j : Fin 512,
    Cert.Spec.pick (be (ix2 p (tileEdge e' j))) * h (ix2 (tileEdge e' j) q)

/-- After tile 0 the count is zero plus the first tile's sum. -/
theorem partialCount_zero (be : Cert.Spec.Mat 256 32768) (p : Fin 256) :
    partialCount be 0 p = 0 + ∑ j : Fin 512, Cert.Spec.pick (be (ix2 p (tileEdge 0 j))) := by
  unfold partialCount
  rw [Finset.sum_range_one, zero_add]

/-- Tile `e + 1` adds its sum onto the count after tile `e`. -/
theorem partialCount_succ (be : Cert.Spec.Mat 256 32768) (e : ℕ) (p : Fin 256) :
    partialCount be (e + 1) p
      = partialCount be e p + ∑ j : Fin 512, Cert.Spec.pick (be (ix2 p (tileEdge (e + 1) j))) := by
  unfold partialCount
  rw [Finset.sum_range_succ]

/-- After tile 0 the numerator is zero plus the first tile's sum. -/
theorem partialNum_zero (be : Cert.Spec.Mat 256 32768) (h : Cert.Spec.Mat 32768 256) (p q : Fin 256) :
    partialNum be h 0 p q
      = 0 + ∑ j : Fin 512, Cert.Spec.pick (be (ix2 p (tileEdge 0 j))) * h (ix2 (tileEdge 0 j) q) := by
  unfold partialNum
  rw [Finset.sum_range_one, zero_add]

/-- Tile `e + 1` adds its sum onto the numerator after tile `e`. -/
theorem partialNum_succ (be : Cert.Spec.Mat 256 32768) (h : Cert.Spec.Mat 32768 256) (e : ℕ) (p q : Fin 256) :
    partialNum be h (e + 1) p q
      = partialNum be h e p q
        + ∑ j : Fin 512, Cert.Spec.pick (be (ix2 p (tileEdge (e + 1) j))) * h (ix2 (tileEdge (e + 1) j) q) := by
  unfold partialNum
  rw [Finset.sum_range_succ]

/-- One step in either case: what tile `e` finds (zero at the first tile, else the count after tile `e - 1`) plus
    tile `e`'s sum. -/
theorem partialCount_step (be : Cert.Spec.Mat 256 32768) (e : ℕ) (p : Fin 256) :
    partialCount be e p
      = (if e = 0 then 0 else partialCount be (e - 1) p)
        + ∑ j : Fin 512, Cert.Spec.pick (be (ix2 p (tileEdge e j))) := by
  cases e with
  | zero => rw [if_pos rfl, partialCount_zero]
  | succ n => rw [if_neg (Nat.succ_ne_zero n), Nat.add_sub_cancel, partialCount_succ]

/-- The same for the numerator. -/
theorem partialNum_step (be : Cert.Spec.Mat 256 32768) (h : Cert.Spec.Mat 32768 256) (e : ℕ) (p q : Fin 256) :
    partialNum be h e p q
      = (if e = 0 then 0 else partialNum be h (e - 1) p q)
        + ∑ j : Fin 512, Cert.Spec.pick (be (ix2 p (tileEdge e j))) * h (ix2 (tileEdge e j) q) := by
  cases e with
  | zero => rw [if_pos rfl, partialNum_zero]
  | succ n => rw [if_neg (Nat.succ_ne_zero n), Nat.add_sub_cancel, partialNum_succ]

/-- After tile 63 the count is the count over all the edges: 32768 edges are 64 tiles of 512. -/
theorem partialCount_last (be : Cert.Spec.Mat 256 32768) (p : Fin 256) :
    partialCount be 63 p = Cert.Spec.count be p := by
  show ∑ e' ∈ Finset.range 64, ∑ j : Fin 512, Cert.Spec.pick (be (ix2 p (tileEdge e' j)))
    = ∑ e : Fin 32768, Cert.Spec.pick (be (ix2 p e))
  rw [Cert.Spec.sum_tiles_32768 (fun e => Cert.Spec.pick (be (ix2 p e))), Finset.sum_range]
  refine Finset.sum_congr rfl fun e' _ => Finset.sum_congr rfl fun j _ => ?_
  rw [tileEdge_of_lt e'.isLt]

/-- After tile 63 the numerator is the sum over all the edges. -/
theorem partialNum_last (be : Cert.Spec.Mat 256 32768) (h : Cert.Spec.Mat 32768 256) (p q : Fin 256) :
    partialNum be h 63 p q = ∑ e : Fin 32768, Cert.Spec.pick (be (ix2 p e)) * h (ix2 e q) := by
  show ∑ e' ∈ Finset.range 64, ∑ j : Fin 512,
      Cert.Spec.pick (be (ix2 p (tileEdge e' j))) * h (ix2 (tileEdge e' j) q)
    = ∑ e : Fin 32768, Cert.Spec.pick (be (ix2 p e)) * h (ix2 e q)
  rw [Cert.Spec.sum_tiles_32768 (fun e => Cert.Spec.pick (be (ix2 p e)) * h (ix2 e q)), Finset.sum_range]
  refine Finset.sum_congr rfl fun e' _ => Finset.sum_congr rfl fun j _ => ?_
  rw [tileEdge_of_lt e'.isLt]

/-- The sum-first arrangement's entry `(p, q)` is the numerator after the last tile times the reciprocal of the count
    after the last tile. -/
theorem outKernel_of_last (be : Cert.Spec.Mat 256 32768) (h : Cert.Spec.Mat 32768 256) (p q : Fin 256) :
    Cert.Spec.outKernel be h (ix2 p q)
      = partialNum be h 63 p q * Cert.Spec.recip (partialCount be 63 p) := by
  rw [partialNum_last, partialCount_last]
  rfl

end Cert.KernelIdeal.Hand

end
-- ==== Proof.R1Value.lean ====
/-
  The value of the second region at the ideal instance: entered at buffer contents `V`, the streaming aggregation
  over the 64 edge tiles leaves the result array at

      out[p, q] = (Σ_e pick(hits[p, e]) · feat[e, q]) · recip(Σ_e pick(hits[p, e]))

  with `hits = g · inc` the edge scores, `pick x` one where `x` is exactly two and zero elsewhere, `feat = ef · w + bias`
  the transformed edge features, and `recip r` the reciprocal of a positive `r`, zero otherwise.

  The road. Each control case's found pieces are read back as the body's arithmetic on the blocks (any float family).
  At the ideal instance one tile's arithmetic is the tile's slice of the two sums over edges: the incidence block at tile
  `t` is columns `512·t …`, the edge-feature block rows `512·t …`, the other three blocks whole arrays. By induction
  on the tile the count accumulator holds the selections of tiles `0 … n` and the sum accumulator their transformed
  features; after tile 63 these are the sums over all 32768 edges. The last tile stores their quotient into the output
  block, which is the whole result array and is written back there only.
-/
import proofs.«115778_j1580547965681_1_alg».proof.Proof.R1Frame
import proofs.«115778_j1580547965681_1_alg».proof.Proof.Spec
import proofs.«115778_j1580547965681_1_alg».proof.Proof.PayIdx
import proofs.«115778_j1580547965681_1_alg».proof.Proof.Blocks1
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The zero offsets of every load and store of the body, as a function. -/
theorem zeros1 : (![0, 0] : Fin 2 → Nat) = fun _ => 0 := funext fun a => by fin_cases a <;> rfl

/-! ## What each case leaves, as the body's arithmetic on the blocks -/

/-- At the first edge tile the sum accumulator ends at the tile's contribution added to the zero block the reset stored. -/
theorem acc1_A_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) :
    sout1_A_0 c i arg1 harg1 arg2 harg2 arg3 harg3 arg4 harg4 arg5 harg5 arg6 harg6 arg7 harg7 arg8 harg8 hc0 hc1 x0 x1 x2 x3 x4 = k1_pay1 (k1_pay7 x0 x1 x2 x3 x4 k1_pay3) := by
  unfold sout1_A_0
  rw [View.read_writes_eq_canon _ _ _ (scover1_A_0 c i arg1 harg1 arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x256) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At the first edge tile the count accumulator ends at the tile's selections per row added to the zero column the reset stored. -/
theorem cnt1_A_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S4096x512 .f32) (x2 : Vec F S512x256 .f32) (x3 : Vec F S256x256 .f32) (x4 : Vec F S1x256 .f32) :
    sout1_A_1 c i arg1 harg1 arg2 harg2 arg3 harg3 arg4 harg4 arg5 harg5 arg6 harg6 arg7 harg7 arg8 harg8 hc0 hc1 x0 x1 x2 x3 x4 = k1_pay6 x0 x1 k1_pay4 := by
  unfold sout1_A_1
  rw [View.read_writes_eq_canon _ _ _ (scover1_A_1 c i arg1 harg1 arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x1) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At an inner edge tile the sum accumulator ends at the tile's contribution added to what the tile before left. -/
theorem acc1_B_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) :
    sout1_B_0 c i arg1 harg1 arg2 harg2 arg3 harg3 arg4 harg4 arg5 harg5 arg6 harg6 arg7 harg7 arg8 harg8 hc0 hc1 x0 x1 x2 x3 x4 xs0 xs1 = k1_pay1 (k1_pay7 x0 x1 x2 x3 x4 xs0) := by
  unfold sout1_B_0
  rw [View.read_writes_eq_canon _ _ _ (scover1_B_0 c i arg1 harg1 arg2 harg2 arg3 harg3 arg4 harg4 arg5 harg5 arg6 harg6 arg7 harg7 arg8 harg8 hc0 hc1 x0 x1 x2 x3 x4 xs0 xs1)]
  unfold kernelRun1_B
  dsimp only
  sl_unfold_words
  rw [View.canon_cons_unit_zero (S := S256x256) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At an inner edge tile the count accumulator ends at the tile's selections per row added to what the tile before left. -/
theorem cnt1_B_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) :
    sout1_B_1 c i arg1 harg1 arg2 harg2 arg3 harg3 arg4 harg4 arg5 harg5 arg6 harg6 arg7 harg7 arg8 harg8 hc0 hc1 x0 x1 x2 x3 x4 xs0 xs1 = k1_pay6 x0 x1 xs1 := by
  unfold sout1_B_1
  rw [View.read_writes_eq_canon _ _ _ (scover1_B_1 c i arg1 harg1 arg2 harg2 arg3 harg3 arg4 harg4 arg5 harg5 arg6 harg6 arg7 harg7 arg8 harg8 hc0 hc1 x0 x1 x2 x3 x4 xs0 xs1)]
  unfold kernelRun1_B
  dsimp only
  sl_unfold_words
  rw [View.canon_cons_unit_zero (S := S256x1) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At the last edge tile the sum accumulator ends as at an inner one. -/
theorem acc1_C_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) :
    sout1_C_0 c i arg1 harg1 arg2 harg2 arg3 harg3 arg4 harg4 arg5 harg5 arg6 harg6 arg7 harg7 arg8 harg8 hc0 hc1 x0 x1 x2 x3 x4 xs0 xs1 = k1_pay1 (k1_pay7 x0 x1 x2 x3 x4 xs0) := by
  unfold sout1_C_0
  rw [View.read_writes_eq_canon _ _ _ (scover1_C_0 c i arg1 harg1 arg2 harg2 arg3 harg3 arg4 harg4 arg5 harg5 arg6 harg6 arg7 harg7 arg8 harg8 hc0 hc1 x0 x1 x2 x3 x4 xs0 xs1)]
  unfold kernelRun1_C
  dsimp only
  sl_unfold_words
  rw [View.canon_cons_unit_zero (S := S256x256) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At the last edge tile the count accumulator ends as at an inner one. -/
theorem cnt1_C_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) :
    sout1_C_1 c i arg1 harg1 arg2 harg2 arg3 harg3 arg4 harg4 arg5 harg5 arg6 harg6 arg7 harg7 arg8 harg8 hc0 hc1 x0 x1 x2 x3 x4 xs0 xs1 = k1_pay6 x0 x1 xs1 := by
  unfold sout1_C_1
  rw [View.read_writes_eq_canon _ _ _ (scover1_C_1 c i arg1 harg1 arg2 harg2 arg3 harg3 arg4 harg4 arg5 harg5 arg6 harg6 arg7 harg7 arg8 harg8 hc0 hc1 x0 x1 x2 x3 x4 xs0 xs1)]
  unfold kernelRun1_C
  dsimp only
  sl_unfold_words
  rw [View.canon_cons_unit_zero (S := S256x1) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-- At the last edge tile the output block is the final sum accumulator times the reciprocal of the final count accumulator (zero where the count is not positive), both read back after their last update. -/
theorem res1_C_eq (c : Dev nD) (i : grid1.Coords) (arg1 : Memref sig .tc .vmem S256x4096 .f32) (harg1 : arg1.IsWhole) (arg2 : Memref sig .tc .vmem S4096x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S4096x512 .f32) (x2 : Vec F S512x256 .f32) (x3 : Vec F S256x256 .f32) (x4 : Vec F S1x256 .f32) (xs0 : Vec F S256x256 .f32) (xs1 : Vec F S256x1 .f32) :
    out1_C_5 c i arg1 harg1 arg2 harg2 arg3 harg3 arg4 harg4 arg5 harg5 arg6 harg6 arg7 harg7 arg8 harg8 hc0 hc1 x0 x1 x2 x3 x4 xs0 xs1 = k1_pay2 (k1_pay6 x0 x1 xs1) (k1_pay1 (k1_pay7 x0 x1 x2 x3 x4 xs0)) := by
  unfold out1_C_5
  rw [View.read_writes_eq_canon _ _ _ (cover1_C_5 c i arg1 harg1 arg2 harg2 arg3 harg3 arg4 harg4 arg5 harg5 arg6 harg6 arg7 harg7 arg8 harg8 hc0 hc1 x0 x1 x2 x3 x4 xs0 xs1)]
  unfold kernelRun1_C
  dsimp only
  sl_unfold_words
  rw [View.canon_cons_unit_zero (S := S256x256) zeros1]
  simp only [View.readAt_eq_ld, harg1.read_unread, harg2.read_unread, harg3.read_unread, harg4.read_unread, harg5.read_unread, harg7.read_unread, harg8.read_unread, View.ld_unit_zero (S := S256x4096) zeros1, View.ld_unit_zero (S := S4096x512) zeros1, View.ld_unit_zero (S := S512x256) zeros1, View.ld_unit_zero (S := S256x256) zeros1, View.ld_unit_zero (S := S1x256) zeros1, View.ld_unit_zero (S := S256x1) zeros1, View.readCov_unit_zero (S := S256x256) _ zeros1, View.readCov_unit_zero (S := S256x1) _ zeros1]

/-! ## The blocks, read through the arrays the region finds -/

section Value
variable (V : (c : Dev nD) → (b : Ref sig .tc) → Buf (Elt Ideal) ((c : Thread nD τ).loc b))

/-- The five arrays the region reads, at their literal types: node scores, incidence, edge features, weight, bias row. -/
abbrev gArr (c : Dev nD) : Vec Ideal S256x4096 .f32 := V c main_v0
abbrev incArr (c : Dev nD) : Vec Ideal S4096x32768 .f32 := V c main_arg2
abbrev efArr (c : Dev nD) : Vec Ideal S32768x256 .f32 := V c main_arg3
abbrev wArr (c : Dev nD) : Vec Ideal S256x256 .f32 := V c main_arg4
abbrev bArr (c : Dev nD) : Vec Ideal S1x256 .f32 := V c main_v1
/-- The bias as a row vector: the one row of the 1×256 array. -/
abbrev biasRow (c : Dev nD) : Cert.Spec.Row 256 := fun j => V c main_v1 (ix2 (0 : Fin 1) (j 0))

/-- Their blocks at edge tile `t`, at their literal types. -/
abbrev gBlk (c : Dev nD) (t : Fin cfg1.N) : Vec Ideal S256x4096 .f32 := iblk1 V c 0 t
abbrev incBlk (c : Dev nD) (t : Fin cfg1.N) : Vec Ideal S4096x512 .f32 := iblk1 V c 1 t
abbrev efBlk (c : Dev nD) (t : Fin cfg1.N) : Vec Ideal S512x256 .f32 := iblk1 V c 2 t
abbrev wBlk (c : Dev nD) (t : Fin cfg1.N) : Vec Ideal S256x256 .f32 := iblk1 V c 3 t
abbrev bBlk (c : Dev nD) (t : Fin cfg1.N) : Vec Ideal S1x256 .f32 := iblk1 V c 4 t

/-- The node scores' block is the whole array. -/
theorem gBlk_read (c : Dev nD) (t : Fin cfg1.N) (y : S256x4096.Idx) : gBlk V c t y = gArr V c y :=
  blk1_0_read (F := Ideal) (gArr V c) t y
/-- The incidence block at tile `t` is columns `512·t …`. -/
theorem incBlk_read (c : Dev nD) (t : Fin cfg1.N) (n : Fin 4096) (j : Fin 512) :
    incBlk V c t (ix2 n j) = incArr V c (ix2 n (tileEdge t.val j)) :=
  (blk1_1_read (F := Ideal) (incArr V c) t n j).trans (by rw [tileEdge_point])
/-- The edge-feature block at tile `t` is rows `512·t …`. -/
theorem efBlk_read (c : Dev nD) (t : Fin cfg1.N) (j : Fin 512) (d : Fin 256) :
    efBlk V c t (ix2 j d) = efArr V c (ix2 (tileEdge t.val j) d) :=
  (blk1_2_read (F := Ideal) (efArr V c) t j d).trans (by rw [tileEdge_point])
/-- The weight's block is the whole array. -/
theorem wBlk_read (c : Dev nD) (t : Fin cfg1.N) (y : S256x256.Idx) : wBlk V c t y = wArr V c y :=
  blk1_3_read (F := Ideal) (wArr V c) t y
/-- The bias row's block is the whole array. -/
theorem bBlk_read (c : Dev nD) (t : Fin cfg1.N) (y : S1x256.Idx) : bBlk V c t y = bArr V c y :=
  blk1_4_read (F := Ideal) (bArr V c) t y

/-! ## One tile's contribution -/

/-- Local edge `j` of tile `t` is selected for row `p` exactly when global edge `512·t + j` is: the tile's score
    is the global score, the incidence block being that edge's column. -/
theorem tile_pick (c : Dev nD) (t : Fin cfg1.N) (p : Fin 256) (j : Fin 512) :
    k1_pay5 (gBlk V c t) (incBlk V c t) (ix2 p j) = Cert.Spec.pick ((Cert.Spec.hits (gArr V c) (incArr V c)) (ix2 p (tileEdge t.val j))) := by
  rw [pay_k1_5]
  refine congrArg Cert.Spec.pick ?_
  show _ = ∑ n : Fin 4096, gArr V c (ix2 p n) * incArr V c (ix2 n (tileEdge t.val j))
  refine Finset.sum_congr rfl fun n _ => ?_
  rw [gBlk_read, incBlk_read]

/-- Local edge `j` of tile `t` has the transformed features of global edge `512·t + j`. -/
theorem tile_feat (c : Dev nD) (t : Fin cfg1.N) (j : Fin 512) (q : Fin 256) :
    (∑ d : Fin 256, efBlk V c t (ix2 j d) * wBlk V c t (ix2 d q)) + bBlk V c t (ix2 (0 : Fin 1) q)
      = (Cert.Spec.feat (efArr V c) (wArr V c) (biasRow V c)) (ix2 (tileEdge t.val j) q) := by
  show _ = (∑ d : Fin 256, efArr V c (ix2 (tileEdge t.val j) d) * wArr V c (ix2 d q)) + bArr V c (ix2 (0 : Fin 1) q)
  rw [bBlk_read]
  refine congrArg (· + bArr V c (ix2 (0 : Fin 1) q)) (Finset.sum_congr rfl fun d _ => ?_)
  rw [efBlk_read, wBlk_read]

/-- The count update at tile `t`: what the accumulator held plus the tile's selections of row `p`. -/
theorem cnt_step (c : Dev nD) (t : Fin cfg1.N) (s : Vec Ideal S256x1 .f32) (p : Fin 256) :
    k1_pay6 (gBlk V c t) (incBlk V c t) s (ix2 p (0 : Fin 1))
      = s (ix2 p (0 : Fin 1)) + ∑ j : Fin 512, Cert.Spec.pick ((Cert.Spec.hits (gArr V c) (incArr V c)) (ix2 p (tileEdge t.val j))) := by
  rw [pay_k1_6]
  refine congrArg (s (ix2 p (0 : Fin 1)) + ·) (Finset.sum_congr rfl fun j _ => ?_)
  exact tile_pick V c t p j

/-- The sum update at tile `t`: what the accumulator held plus the tile's selected edges' transformed features. -/
theorem acc_step (c : Dev nD) (t : Fin cfg1.N) (a : Vec Ideal S256x256 .f32) (p q : Fin 256) :
    k1_pay1 (k1_pay7 (gBlk V c t) (incBlk V c t) (efBlk V c t) (wBlk V c t) (bBlk V c t) a) (ix2 p q)
      = a (ix2 p q) + ∑ j : Fin 512, Cert.Spec.pick ((Cert.Spec.hits (gArr V c) (incArr V c)) (ix2 p (tileEdge t.val j))) * (Cert.Spec.feat (efArr V c) (wArr V c) (biasRow V c)) (ix2 (tileEdge t.val j) q) := by
  rw [pay_k1_1, pay_k1_7]
  refine congrArg (a (ix2 p q) + ·) (Finset.sum_congr rfl fun j _ => ?_)
  rw [tile_pick V c t p j, tile_feat V c t j q]

/-! ## The accumulators after every tile -/

/-- After edge tile `n` the count accumulator holds, at row `p`, the number of selected edges among tiles `0 … n`. -/
theorem cnt1_inv (c : Dev nD) : ∀ (n : ℕ) (h : n < cfg1.N) (p : Fin 256),
    (outsAt1 V c n h).2.2 (ix2 p (0 : Fin 1)) = partialCount (Cert.Spec.hits (gArr V c) (incArr V c)) n p
  | 0, h, p => by
    rw [outsAt1_A V c (⟨0, h⟩ : Fin cfg1.N) rfl (by decide : ¬(0 : ℕ) = 63)]
    dsimp only
    refine (congrFun (cnt1_A_eq (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) scM1_0 (Memref.isWhole_whole _) scM1_1 (Memref.isWhole_whole _) ((hcond1_0 (⟨0, h⟩ : Fin cfg1.N)).mpr rfl) (fun e => absurd ((hcond1_1 (⟨0, h⟩ : Fin cfg1.N)).mp e) (by decide : ¬(0 : ℕ) = 63)) (gBlk V c (⟨0, h⟩ : Fin cfg1.N)) (incBlk V c (⟨0, h⟩ : Fin cfg1.N)) (efBlk V c (⟨0, h⟩ : Fin cfg1.N)) (wBlk V c (⟨0, h⟩ : Fin cfg1.N)) (bBlk V c (⟨0, h⟩ : Fin cfg1.N))) (ix2 p (0 : Fin 1))).trans ?_
    rw [cnt_step V c (⟨0, h⟩ : Fin cfg1.N) (k1_pay4 (F := Ideal)) p, pay_k1_4, partialCount_zero]
  | n + 1, h, p => by
    have h0 : ¬(⟨n + 1, h⟩ : Fin cfg1.N).val = 0 := Nat.succ_ne_zero n
    have ih := cnt1_inv c n (Nat.lt_of_succ_lt h) p
    by_cases h1 : (⟨n + 1, h⟩ : Fin cfg1.N).val = 63
    · rw [outsAt1_C V c (⟨n + 1, h⟩ : Fin cfg1.N) h0 h1]
      dsimp only
      refine (congrFun (cnt1_C_eq (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) scM1_0 (Memref.isWhole_whole _) scM1_1 (Memref.isWhole_whole _) (fun e => h0 ((hcond1_0 (⟨n + 1, h⟩ : Fin cfg1.N)).mp e)) ((hcond1_1 (⟨n + 1, h⟩ : Fin cfg1.N)).mpr h1) (gBlk V c (⟨n + 1, h⟩ : Fin cfg1.N)) (incBlk V c (⟨n + 1, h⟩ : Fin cfg1.N)) (efBlk V c (⟨n + 1, h⟩ : Fin cfg1.N)) (wBlk V c (⟨n + 1, h⟩ : Fin cfg1.N)) (bBlk V c (⟨n + 1, h⟩ : Fin cfg1.N)) (outsAt1 V c n (Nat.lt_of_succ_lt h)).2.1 (outsAt1 V c n (Nat.lt_of_succ_lt h)).2.2) (ix2 p (0 : Fin 1))).trans ?_
      rw [cnt_step V c (⟨n + 1, h⟩ : Fin cfg1.N) (outsAt1 V c n (Nat.lt_of_succ_lt h)).2.2 p, ih, partialCount_succ]
    · rw [outsAt1_B V c (⟨n + 1, h⟩ : Fin cfg1.N) h0 h1]
      dsimp only
      refine (congrFun (cnt1_B_eq (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) scM1_0 (Memref.isWhole_whole _) scM1_1 (Memref.isWhole_whole _) (fun e => h0 ((hcond1_0 (⟨n + 1, h⟩ : Fin cfg1.N)).mp e)) (fun e => h1 ((hcond1_1 (⟨n + 1, h⟩ : Fin cfg1.N)).mp e)) (gBlk V c (⟨n + 1, h⟩ : Fin cfg1.N)) (incBlk V c (⟨n + 1, h⟩ : Fin cfg1.N)) (efBlk V c (⟨n + 1, h⟩ : Fin cfg1.N)) (wBlk V c (⟨n + 1, h⟩ : Fin cfg1.N)) (bBlk V c (⟨n + 1, h⟩ : Fin cfg1.N)) (outsAt1 V c n (Nat.lt_of_succ_lt h)).2.1 (outsAt1 V c n (Nat.lt_of_succ_lt h)).2.2) (ix2 p (0 : Fin 1))).trans ?_
      rw [cnt_step V c (⟨n + 1, h⟩ : Fin cfg1.N) (outsAt1 V c n (Nat.lt_of_succ_lt h)).2.2 p, ih, partialCount_succ]

/-- After edge tile `n` the sum accumulator holds, at `(p, q)`, the selected edges' transformed features summed over
    tiles `0 … n`. -/
theorem acc1_inv (c : Dev nD) : ∀ (n : ℕ) (h : n < cfg1.N) (p q : Fin 256),
    (outsAt1 V c n h).2.1 (ix2 p q) = partialNum (Cert.Spec.hits (gArr V c) (incArr V c)) (Cert.Spec.feat (efArr V c) (wArr V c) (biasRow V c)) n p q
  | 0, h, p, q => by
    rw [outsAt1_A V c (⟨0, h⟩ : Fin cfg1.N) rfl (by decide : ¬(0 : ℕ) = 63)]
    dsimp only
    refine (congrFun (acc1_A_eq (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) scM1_0 (Memref.isWhole_whole _) scM1_1 (Memref.isWhole_whole _) ((hcond1_0 (⟨0, h⟩ : Fin cfg1.N)).mpr rfl) (fun e => absurd ((hcond1_1 (⟨0, h⟩ : Fin cfg1.N)).mp e) (by decide : ¬(0 : ℕ) = 63)) (gBlk V c (⟨0, h⟩ : Fin cfg1.N)) (incBlk V c (⟨0, h⟩ : Fin cfg1.N)) (efBlk V c (⟨0, h⟩ : Fin cfg1.N)) (wBlk V c (⟨0, h⟩ : Fin cfg1.N)) (bBlk V c (⟨0, h⟩ : Fin cfg1.N))) (ix2 p q)).trans ?_
    rw [acc_step V c (⟨0, h⟩ : Fin cfg1.N) (k1_pay3 (F := Ideal)) p q, pay_k1_3, partialNum_zero]
  | n + 1, h, p, q => by
    have h0 : ¬(⟨n + 1, h⟩ : Fin cfg1.N).val = 0 := Nat.succ_ne_zero n
    have ih := acc1_inv c n (Nat.lt_of_succ_lt h) p q
    by_cases h1 : (⟨n + 1, h⟩ : Fin cfg1.N).val = 63
    · rw [outsAt1_C V c (⟨n + 1, h⟩ : Fin cfg1.N) h0 h1]
      dsimp only
      refine (congrFun (acc1_C_eq (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) scM1_0 (Memref.isWhole_whole _) scM1_1 (Memref.isWhole_whole _) (fun e => h0 ((hcond1_0 (⟨n + 1, h⟩ : Fin cfg1.N)).mp e)) ((hcond1_1 (⟨n + 1, h⟩ : Fin cfg1.N)).mpr h1) (gBlk V c (⟨n + 1, h⟩ : Fin cfg1.N)) (incBlk V c (⟨n + 1, h⟩ : Fin cfg1.N)) (efBlk V c (⟨n + 1, h⟩ : Fin cfg1.N)) (wBlk V c (⟨n + 1, h⟩ : Fin cfg1.N)) (bBlk V c (⟨n + 1, h⟩ : Fin cfg1.N)) (outsAt1 V c n (Nat.lt_of_succ_lt h)).2.1 (outsAt1 V c n (Nat.lt_of_succ_lt h)).2.2) (ix2 p q)).trans ?_
      rw [acc_step V c (⟨n + 1, h⟩ : Fin cfg1.N) (outsAt1 V c n (Nat.lt_of_succ_lt h)).2.1 p q, ih, partialNum_succ]
    · rw [outsAt1_B V c (⟨n + 1, h⟩ : Fin cfg1.N) h0 h1]
      dsimp only
      refine (congrFun (acc1_B_eq (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) scM1_0 (Memref.isWhole_whole _) scM1_1 (Memref.isWhole_whole _) (fun e => h0 ((hcond1_0 (⟨n + 1, h⟩ : Fin cfg1.N)).mp e)) (fun e => h1 ((hcond1_1 (⟨n + 1, h⟩ : Fin cfg1.N)).mp e)) (gBlk V c (⟨n + 1, h⟩ : Fin cfg1.N)) (incBlk V c (⟨n + 1, h⟩ : Fin cfg1.N)) (efBlk V c (⟨n + 1, h⟩ : Fin cfg1.N)) (wBlk V c (⟨n + 1, h⟩ : Fin cfg1.N)) (bBlk V c (⟨n + 1, h⟩ : Fin cfg1.N)) (outsAt1 V c n (Nat.lt_of_succ_lt h)).2.1 (outsAt1 V c n (Nat.lt_of_succ_lt h)).2.2) (ix2 p q)).trans ?_
      rw [acc_step V c (⟨n + 1, h⟩ : Fin cfg1.N) (outsAt1 V c n (Nat.lt_of_succ_lt h)).2.1 p q, ih, partialNum_succ]

/-- The count accumulator's update at a later tile `t`, over what tile `t - 1` left: the count through tile `t`. -/
theorem cnt_next (c : Dev nD) (t : Fin cfg1.N) (h0 : ¬t.val = 0) (p : Fin 256) :
    k1_pay6 (gBlk V c t) (incBlk V c t) (outsAt1 V c (t.val - 1) (Nat.lt_of_le_of_lt (Nat.sub_le _ _) t.isLt)).2.2 (ix2 p (0 : Fin 1))
      = partialCount (Cert.Spec.hits (gArr V c) (incArr V c)) t.val p := by
  rw [cnt_step V c t (outsAt1 V c (t.val - 1) (Nat.lt_of_le_of_lt (Nat.sub_le _ _) t.isLt)).2.2 p, cnt1_inv V c (t.val - 1) (Nat.lt_of_le_of_lt (Nat.sub_le _ _) t.isLt) p,
    partialCount_step (Cert.Spec.hits (gArr V c) (incArr V c)) t.val p, if_neg h0]

/-- The sum accumulator's update at a later tile `t`, over what tile `t - 1` left: the sum through tile `t`. -/
theorem acc_next (c : Dev nD) (t : Fin cfg1.N) (h0 : ¬t.val = 0) (p q : Fin 256) :
    k1_pay1 (k1_pay7 (gBlk V c t) (incBlk V c t) (efBlk V c t) (wBlk V c t) (bBlk V c t) (outsAt1 V c (t.val - 1) (Nat.lt_of_le_of_lt (Nat.sub_le _ _) t.isLt)).2.1) (ix2 p q)
      = partialNum (Cert.Spec.hits (gArr V c) (incArr V c)) (Cert.Spec.feat (efArr V c) (wArr V c) (biasRow V c)) t.val p q := by
  rw [acc_step V c t (outsAt1 V c (t.val - 1) (Nat.lt_of_le_of_lt (Nat.sub_le _ _) t.isLt)).2.1 p q, acc1_inv V c (t.val - 1) (Nat.lt_of_le_of_lt (Nat.sub_le _ _) t.isLt) p q,
    partialNum_step (Cert.Spec.hits (gArr V c) (incArr V c)) (Cert.Spec.feat (efArr V c) (wArr V c) (biasRow V c)) t.val p q, if_neg h0]

/-! ## The result -/

/-- The kernel-order result: the selected edges' transformed features summed over all edges, times the reciprocal
    of the number of selected edges. -/
abbrev resArr (c : Dev nD) : Vec Ideal S256x256 .f32 := Cert.Spec.outKernel (Cert.Spec.hits (gArr V c) (incArr V c)) (Cert.Spec.feat (efArr V c) (wArr V c) (biasRow V c))

/-- What the last edge tile stores into the output block, entry by entry: the sums over all 64 tiles are the sums
    over all 32768 edges. -/
theorem res1_pt (c : Dev nD) (t : Fin cfg1.N) (h1 : t.val = 63) (p q : Fin 256) :
    (outsAt1 V c t.val t.isLt).1 (ix2 p q) = resArr V c (ix2 p q) := by
  have h0 : ¬t.val = 0 := by omega
  rw [outsAt1_C V c t h0 h1]
  dsimp only
  refine (congrFun (res1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun e => h0 ((hcond1_0 t).mp e)) ((hcond1_1 t).mpr h1) (gBlk V c t) (incBlk V c t) (efBlk V c t) (wBlk V c t) (bBlk V c t) (outsAt1 V c (t.val - 1) (Nat.lt_of_le_of_lt (Nat.sub_le _ _) t.isLt)).2.1 (outsAt1 V c (t.val - 1) (Nat.lt_of_le_of_lt (Nat.sub_le _ _) t.isLt)).2.2) (ix2 p q)).trans ?_
  rw [pay_k1_2, acc_next V c t h0 p q, cnt_next V c t h0 p, h1]
  exact (outKernel_of_last (Cert.Spec.hits (gArr V c) (incArr V c)) (Cert.Spec.feat (efArr V c) (wArr V c) (biasRow V c)) p q).symm

/-- The same as arrays. -/
theorem res1_pt_eq (c : Dev nD) (t : Fin cfg1.N) (h1 : t.val = 63) : (outsAt1 V c t.val t.isLt).1 = resArr V c :=
  funext fun y => by rw [eq_ix2 y]; exact res1_pt V c t h1 (y 0) (y 1)

/-- The one write-back, at the last edge tile, writes the kernel-order result: the output block is the whole array. -/
theorem flushed1_eq (c : Dev nD) (t : Fin cfg1.N) (hf : (cfg1.win 5).flush t = true) :
    (dat1 V c).flushed 5 t = ((cfg1.win 5).blk t).view.read (Elt Ideal) (resArr V c) := by
  have h63 : t.val = 63 := by
    have h := (flush1_5 t).mp hf
    have h2 := point_lt t
    omega
  show (cfg1.win 5).cut (grid1.coords t) ((dat1 V c).after 5 t) = _
  rw [after1_5, res1_pt_eq V c t h63]
  funext y
  exact (blk1_5_read (F := Ideal) (resArr V c) t y).symm

end Value

/-- THE SECOND REGION'S VALUE. Entered at buffer contents `V`, the region leaves the result array at the kernel-order
    aggregation of the arrays it read: the edge scores are the node scores against the incidence matrix; an edge is
    selected for a row when its score is exactly two; the selected edges' transformed features are summed per row and
    the row is then divided by its number of selected edges (zero where there is none). -/
theorem r1_value (V : (c : Dev nD) → (b : Ref sig .tc) → Buf (Elt Ideal) ((c : Thread nD τ).loc b)) (c : Dev nD) :
    (dat1 (F := Ideal) V c).arrAt 5 cfg1.N
      = Cert.Spec.outKernel (Cert.Spec.hits (V c main_v0) (V c main_arg2))
          (Cert.Spec.feat (V c main_arg3) (V c main_arg4) (fun j => V c main_v1 (Idealize.ShloMosaic.ValueIdx.ix2 (0 : Fin 1) (j 0)))) :=
  (dat1 V c).arrAt_eq_of_cover 5 (resArr V c) (flushed1_eq V c) cover1_5

end Cert.KernelIdeal.Hand

end
-- ==== Proof.KernelValue.lean ====
/-
  The idealized kernel's result as a function of the launch contents.

  Region 1's write-backs leave in the result array the sum-then-normalise arrangement of what the region found
  (its value lemma); what it found is: in the score array, what region 0 left there, the node scores of the query rows
  against the adjacency (region 0's value lemma); in the incidence, feature and weight arrays, the launch contents (no
  region writes them); in the 1 × 256 bias copy, the bias row (the reshape read at an index: entry (0, q) of the copy is
  entry q of the row).
-/
import proofs.«115778_j1580547965681_1_alg».proof.Proof.Whole
import proofs.«115778_j1580547965681_1_alg».proof.Proof.R0Value
import proofs.«115778_j1580547965681_1_alg».proof.Proof.R1Value
import proofs.«115778_j1580547965681_1_alg».proof.Proof.Spec
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-! ## The result, from the launch contents (at the ideal instance) -/

section Value

open Idealize.ShloMosaic.ValueIdx

variable (mI : (ℓ : Loc nD τ sig) → Buf (Elt Ideal) ℓ)

/-- The 1 × 256 copy region 1 finds holds the bias row: the reshape read at an index. -/
theorem bias_copy (c : Dev nD) :
    (fun j => VE1 mI c main_v1 (ix2 (0 : Fin 1) (j 0)) : Cert.Spec.Row 256) = mI ((c : Thread nD τ).loc main_arg5) := by
  have e : (VE1 mI c main_v1 : S1x256.Idx → EReal)
      = shapeCast S1x256 (X0 mI c (Proc.devRef .tc main_arg5) : S256.Idx → EReal) shapeCasts_S256_S1x256 := by
    show StableHlo.after hostOps1 (X0 mI c) (Proc.devRef .tc main_v1) = _
    after_results; rfl
  have h5 : X0 mI c (Proc.devRef .tc main_arg5) = mI ((c : Thread nD τ).loc main_arg5) :=
    (X0_of_ne mI c main_arg5 (by decide)).trans rfl
  funext j
  obtain ⟨i, rfl⟩ : ∃ i : Fin 256, j = ix1 i := ⟨j 0, eq_ix1 j⟩
  have h := shapeCast_a_1a_apply (X0 mI c (Proc.devRef .tc main_arg5) : (⟨1, ![256]⟩ : Shape).Idx → EReal)
    shapeCasts_S256_S1x256 (0 : Fin 1) i
  rw [e]
  exact h.trans (congrFun h5 (ix1 i))

/-- What region 1 finds in the score array is the node scores of the launch contents. -/
theorem scores_found (c : Dev nD) :
    VE1 mI c main_v0 = Cert.Spec.score (mI ((c : Thread nD τ).loc main_arg0)) (mI ((c : Thread nD τ).loc main_arg1)) :=
  (E1_main_v0 mI c).trans (r0_value (VE0 mI) c)

/-- The result buffer ends at the sum-then-normalise arrangement of the launch contents. -/
theorem kernel_value (c : Dev nD) :
    X1 mI c (Proc.devRef .tc main_v2)
      = Cert.Spec.outKernel
          (Cert.Spec.hits (Cert.Spec.score (mI ((c : Thread nD τ).loc main_arg0)) (mI ((c : Thread nD τ).loc main_arg1))) (mI ((c : Thread nD τ).loc main_arg2)))
          (Cert.Spec.feat (mI ((c : Thread nD τ).loc main_arg3)) (mI ((c : Thread nD τ).loc main_arg4)) (mI ((c : Thread nD τ).loc main_arg5))) := by
  rw [result_at, r1_value (VE1 mI) c, bias_copy mI c, scores_found mI c]
  have h2 : VE1 mI c main_arg2 = mI ((c : Thread nD τ).loc main_arg2) := E1_launch mI c main_arg2 (by decide) (by decide)
  have h3 : VE1 mI c main_arg3 = mI ((c : Thread nD τ).loc main_arg3) := E1_launch mI c main_arg3 (by decide) (by decide)
  have h4 : VE1 mI c main_arg4 = mI ((c : Thread nD τ).loc main_arg4) := E1_launch mI c main_arg4 (by decide) (by decide)
  rw [h2, h3, h4]

/-- The idealized kernel's run with its result named by the specification, the six arguments unchanged. -/
theorem kernel_run (ρ : Dev nD → PrngReg) :
    θ_run defs (onTc (τ := τ) (main (F := Ideal))) ⟨mI, fun _ => 0, ρ⟩ (fun r => ∀ c : Dev nD,
      r.2.mem ((c.tc : Thread nD τ).loc main_v2)
          = Cert.Spec.outKernel
              (Cert.Spec.hits (Cert.Spec.score (mI ((c.tc : Thread nD τ).loc main_arg0)) (mI ((c.tc : Thread nD τ).loc main_arg1))) (mI ((c.tc : Thread nD τ).loc main_arg2)))
              (Cert.Spec.feat (mI ((c.tc : Thread nD τ).loc main_arg3)) (mI ((c.tc : Thread nD τ).loc main_arg4)) (mI ((c.tc : Thread nD τ).loc main_arg5)))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)) :=
  (θ_run defs _ _).mono (fun r h c =>
    ⟨(h c _ (mem_uc main_v2 (by decide))).trans (kernel_value mI c),
     (h c _ (mem_uc main_arg0 (by decide))).trans (X1_main_arg0 mI c),
     (h c _ (mem_uc main_arg1 (by decide))).trans (X1_main_arg1 mI c),
     (h c _ (mem_uc main_arg2 (by decide))).trans (X1_main_arg2 mI c),
     (h c _ (mem_uc main_arg3 (by decide))).trans (X1_main_arg3 mI c),
     (h c _ (mem_uc main_arg4 (by decide))).trans (X1_main_arg4 mI c),
     (h c _ (mem_uc main_arg5 (by decide))).trans (X1_main_arg5 mI c)⟩) (run_all mI ρ)

end Value

end Cert.KernelIdeal.Hand

end
-- ==== Proof.RefValue.lean ====
/-
  The reference program's result, read index by index on the extended reals, is the specification's
  normalise-first arrangement.

  Stage by stage, with `en` the query rows, `adj` the adjacency matrix, `inc` the incidence matrix, `ef` the edge
  features, `w` the weights and `bias` the bias row:
    t[n, b]     = Σ_k adj[k, n] · en[b, k]          the node scores, transposed, each term's factors exchanged
    u[e, b]     = Σ_n inc[n, e] · t[n, b]           the edge scores, transposed, each term's factors exchanged
    hits[b, e]  = u[e, b]
    pick[b, e]  = the bit of (hits[b, e] = 2) read as an unsigned integer
    count[b]    = 0 + Σ_e pick[b, e]
    recip[b]    = 1 / count[b] when count[b] > 0, else 0
    feat[e, q]  = Σ_d ef[e, d] · w[d, q] + bias[q]
    out[b, q]   = Σ_e (pick[b, e] · recip[b]) · feat[e, q]
  Only commutativity of the product on the extended reals and `0 + x = x` are used; the words of `2.0`, `1.0` and of
  the `0.0` that is compared against or selected stay as words, the same on both sides.
-/
import proofs.«115778_j1580547965681_1_alg».proof.Proof.RefRead
import proofs.«115778_j1580547965681_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read

/-! ## Node scores

The reference forms `adjᵀ · enᵀ`: entry `(n, b)` is `Σ_k adj[k, n] · en[b, k]`, the node score of row `b` at node
`n` with the two factors of each term exchanged. -/

theorem score_stage (x0 : Vec Ideal S256x4096 .f32) (x1 : Vec Ideal S4096x4096 .f32) (n : Fin 4096) (b : Fin 256) :
    val_main_v2 (F := Ideal) x0 x1 (ix2 n b) = Cert.Spec.score x0 x1 (ix2 b n) := by
  rw [val_main_v2_apply]
  unfold Cert.Spec.score
  refine Finset.sum_congr rfl fun k _ => ?_
  rw [val_main_v0_apply, val_main_v1_apply, mul_comm]
  have e0 : idx_main_v1 (ridx_main_v2 (ix2 n b) k) = ix2 b k :=
    funext fun a => Fin.ext (by match a with | ⟨0, _⟩ => rfl | ⟨1, _⟩ => rfl)
  have e1 : idx_main_v0 (lidx_main_v2 (ix2 n b) k) = ix2 k n :=
    funext fun a => Fin.ext (by match a with | ⟨0, _⟩ => rfl | ⟨1, _⟩ => rfl)
  rw [e0, e1]

/-! ## Edge scores

`incᵀ` against the transposed node scores, transposed back: entry `(b, e)` is `Σ_n inc[n, e] · score[b, n]`. -/

theorem hits_stage (x0 : Vec Ideal S256x4096 .f32) (x1 : Vec Ideal S4096x4096 .f32) (x2 : Vec Ideal S4096x32768 .f32)
    (b : Fin 256) (e : Fin 32768) :
    val_main_v5 (F := Ideal) x0 x1 x2 (ix2 b e) = Cert.Spec.hits (Cert.Spec.score x0 x1) x2 (ix2 b e) := by
  rw [val_main_v5_apply, val_main_v4_apply]
  unfold Cert.Spec.hits
  refine Finset.sum_congr rfl fun k _ => ?_
  have e0 : ridx_main_v4 (idx_main_v5 (ix2 b e)) k = ix2 k b :=
    funext fun a => Fin.ext (by match a with | ⟨0, _⟩ => rfl | ⟨1, _⟩ => rfl)
  have e1 : idx_main_v3 (lidx_main_v4 (idx_main_v5 (ix2 b e)) k) = ix2 k e :=
    funext fun a => Fin.ext (by match a with | ⟨0, _⟩ => rfl | ⟨1, _⟩ => rfl)
  rw [val_main_v3_apply, e0, e1, score_stage, mul_comm]

/-! ## The selection

The score compared with the word of `2.0` by the ordered "equal", the bit read as an unsigned integer. -/

theorem pick_stage (x0 : Vec Ideal S256x4096 .f32) (x1 : Vec Ideal S4096x4096 .f32) (x2 : Vec Ideal S4096x32768 .f32)
    (b : Fin 256) (e : Fin 32768) :
    val_main_v8 (F := Ideal) x0 x1 x2 (ix2 b e)
      = Cert.Spec.pick (Cert.Spec.hits (Cert.Spec.score x0 x1) x2 (ix2 b e)) := by
  rw [val_main_v8_apply, val_main_v7_apply, val_main_v6_apply, val_main_cst_apply, hits_stage]
  rfl

/-! ## The count of a row

The sum along the edges starts from the word of `0.0`, which is the extended real zero. -/

theorem count_stage (x0 : Vec Ideal S256x4096 .f32) (x1 : Vec Ideal S4096x4096 .f32) (x2 : Vec Ideal S4096x32768 .f32)
    (b : Fin 256) :
    val_main_v9 (F := Ideal) x0 x1 x2 (ix1 b)
      = Cert.Spec.count (Cert.Spec.hits (Cert.Spec.score x0 x1) x2) b := by
  rw [val_main_v9_apply, val_main_cst_0_apply, Ideal.ofBits_def, Ideal.ofBits_zero_f32, zero_add]
  unfold Cert.Spec.count
  refine Finset.sum_congr rfl fun k _ => ?_
  have e0 : idx_main_v9 (ix1 b) k = ix2 b k :=
    funext fun a => Fin.ext (by match a with | ⟨0, _⟩ => rfl | ⟨1, _⟩ => rfl)
  rw [e0, pick_stage]

/-! ## The reciprocal of a row's count

`where(count > 0, 1 / count, 0)`: a select on the ordered "greater" against the word of `0.0`, the quotient of the
word of `1.0` by the count, and the word of `0.0` otherwise. -/

theorem recip_stage (x0 : Vec Ideal S256x4096 .f32) (x1 : Vec Ideal S4096x4096 .f32) (x2 : Vec Ideal S4096x32768 .f32)
    (b : Fin 256) :
    val_main_v14 (F := Ideal) x0 x1 x2 (ix1 b)
      = Cert.Spec.recip (Cert.Spec.count (Cert.Spec.hits (Cert.Spec.score x0 x1) x2) b) := by
  rw [val_main_v14_apply, val_main_v11_apply, val_main_v13_apply, val_main_v10_apply, val_main_v12_apply,
    val_main_call0_v1_apply, val_main_call0_v0_apply, val_main_cst_1_apply, val_main_cst_2_apply,
    val_main_cst_3_apply, count_stage]
  rfl

/-! ## Edge features through the linear layer

`ef · w` plus the bias row repeated over the edges. -/

theorem feat_stage (x3 : Vec Ideal S32768x256 .f32) (x4 : Vec Ideal S256x256 .f32) (x5 : Vec Ideal S256 .f32)
    (e : Fin 32768) (q : Fin 256) :
    val_main_v21 (F := Ideal) x3 x4 x5 (ix2 e q) = Cert.Spec.feat x3 x4 x5 (ix2 e q) := by
  rw [val_main_v21_apply, val_main_v18_apply, val_main_v20_apply, val_main_v19_apply]
  unfold Cert.Spec.feat
  have e0 : idx_main_v19 (idx_main_v20 (ix2 e q)) = ix1 q :=
    funext fun a => Fin.ext (by match a with | ⟨0, _⟩ => rfl)
  rw [e0, Ideal.addf_def]
  refine congrArg (· + x5 (ix1 q)) (Finset.sum_congr rfl fun k _ => ?_)
  have e1 : lidx_main_v18 (ix2 e q) k = ix2 e k :=
    funext fun a => Fin.ext (by match a with | ⟨0, _⟩ => rfl | ⟨1, _⟩ => rfl)
  have e2 : ridx_main_v18 (ix2 e q) k = ix2 k q :=
    funext fun a => Fin.ext (by match a with | ⟨0, _⟩ => rfl | ⟨1, _⟩ => rfl)
  rw [e1, e2]

/-! ## The result

Each selection is scaled by its row's reciprocal count (the reciprocal repeated along the edges) before the sum over
the edges against the features. -/

theorem ref_value_apply (x0 : Vec Ideal S256x4096 .f32) (x1 : Vec Ideal S4096x4096 .f32) (x2 : Vec Ideal S4096x32768 .f32)
    (x3 : Vec Ideal S32768x256 .f32) (x4 : Vec Ideal S256x256 .f32) (x5 : Vec Ideal S256 .f32) (b q : Fin 256) :
    val_main_v22 (F := Ideal) x0 x1 x2 x3 x4 x5 (ix2 b q)
      = Cert.Spec.outRef (Cert.Spec.hits (Cert.Spec.score x0 x1) x2) (Cert.Spec.feat x3 x4 x5) (ix2 b q) := by
  rw [val_main_v22_apply]
  unfold Cert.Spec.outRef
  refine Finset.sum_congr rfl fun k _ => ?_
  have e0 : lidx_main_v22 (ix2 b q) k = ix2 b k :=
    funext fun a => Fin.ext (by match a with | ⟨0, _⟩ => rfl | ⟨1, _⟩ => rfl)
  have e1 : ridx_main_v22 (ix2 b q) k = ix2 k q :=
    funext fun a => Fin.ext (by match a with | ⟨0, _⟩ => rfl | ⟨1, _⟩ => rfl)
  have e2 : idx_main_v15 (idx_main_v16 (ix2 b k)) = ix1 b :=
    funext fun a => Fin.ext (by match a with | ⟨0, _⟩ => rfl)
  rw [e0, e1, val_main_v17_apply, val_main_v16_apply, val_main_v15_apply, e2, pick_stage, recip_stage, feat_stage,
    Ideal.mulf_def]

/-- the reference's last stage is the specification's normalise-first arrangement -/
theorem ref_value (x0 : Vec Ideal S256x4096 .f32) (x1 : Vec Ideal S4096x4096 .f32) (x2 : Vec Ideal S4096x32768 .f32) (x3 : Vec Ideal S32768x256 .f32) (x4 : Vec Ideal S256x256 .f32) (x5 : Vec Ideal S256 .f32) :
    Cert.ReferenceIdeal.Read.val_main_v22 (F := Ideal) x0 x1 x2 x3 x4 x5
      = Cert.Spec.outRef (Cert.Spec.hits (Cert.Spec.score x0 x1) x2) (Cert.Spec.feat x3 x4 x5) := by
  funext i
  obtain ⟨b, q, rfl⟩ : ∃ (b q : Fin 256), i = ix2 b q := ⟨i 0, i 1, eq_ix2 i⟩
  exact ref_value_apply x0 x1 x2 x3 x4 x5 b q

/-- the reference's run with its result named by the specification -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = Cert.Spec.outRef (Cert.Spec.hits (Cert.Spec.score (m ((c.tc : Thread nD τ).loc main_arg0)) (m ((c.tc : Thread nD τ).loc main_arg1))) (m ((c.tc : Thread nD τ).loc main_arg2)))
              (Cert.Spec.feat (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans (by rw [Read.val_main_v22_eq, ref_value]), (h c).2⟩)
    (Cert.ReferenceIdeal.Value.run (F := Ideal) m ρ)

end Cert.ReferenceIdeal.RefValue

end
-- ==== Proof.Algebra.lean ====
/-
  The law that joins the two arrangements of the averaged edge features, on the extended reals.

  On the extended reals multiplication does not distribute over addition at the infinities, so every factor is
  first shown to be a REAL: a selection `pick x` is the cast of a natural number; a count is a finite sum of
  selections; the reciprocal of a real count is a real in both branches of its selection (a positive real has a
  real reciprocal, anything else gives zero); a feature is a finite sum of products of reals plus a real.
  With real witnesses in hand the law is the real identity
    (Σ_e s_e · h_e) · c = Σ_e (s_e · c) · h_e,
  pushed through the casts.
-/
import proofs.«115778_j1580547965681_1_alg».proof.Proof.Spec
import Idealize.ShloMosaic.PureOps.Ideal.Laws
import Idealize.ShloMosaic.Lib.IdealHost
import Mathlib.Data.EReal.Basic
import Mathlib.Data.EReal.Operations
import Mathlib.Algebra.BigOperators.Ring.Finset
import Mathlib.Tactic.Ring

noncomputable section

open scoped BigOperators

namespace Cert.Spec

open Idealize.ShloMosaic Idealize.ShloMosaic.ValueIdx

/-- A finite sum of casts of reals is the cast of the real sum. -/
theorem sum_coe_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of zero is the real zero. -/
theorem zero_eq : zero = ((0 : ℝ) : EReal) := by
  unfold zero; rw [Ideal.ofBits_zero_f32, EReal.coe_zero]

/-- The word of one is the real one. -/
theorem one_eq : one = ((1 : ℝ) : EReal) := by
  unfold one; rw [Ideal.ofBits_one_f32, EReal.coe_one]

/-- A selection is the cast of a real by definition. -/
theorem pick_real (x : EReal) : ∃ r : ℝ, pick x = (r : EReal) := ⟨_, rfl⟩

/-- A count is the cast of the real sum of its selections. -/
theorem count_eq (be : Mat 256 32768) (b : Fin 256) :
    count be b = ((∑ e : Fin 32768, ((pickBit (be (ix2 b e))).toNat : ℝ) : ℝ) : EReal) := by
  unfold count pick; exact sum_coe_real _ _

theorem count_real (be : Mat 256 32768) (b : Fin 256) : ∃ r : ℝ, count be b = (r : EReal) :=
  ⟨_, count_eq be b⟩

/-- The reciprocal of a real is a real: `1 / r` where the comparison finds `r` positive (so not zero), zero elsewhere. -/
theorem recip_real (r : ℝ) : ∃ q : ℝ, recip (r : EReal) = (q : EReal) := by
  unfold recip Scalar.select
  by_cases hc : Ideal.cmp .ogt (r : EReal) zero = 1
  · rw [if_pos hc]
    have hr : r ≠ 0 := by
      intro h0
      subst h0
      revert hc
      rw [zero_eq]
      simp [Ideal.cmp]
    rw [Ideal.div_coe hr, one_eq, ← EReal.coe_mul]
    exact ⟨_, rfl⟩
  · rw [if_neg hc, zero_eq]
    exact ⟨0, rfl⟩

/-- A feature is a finite sum of products of reals plus a real. -/
theorem feat_real (ef : Mat 32768 256) (w : Mat 256 256) (bias : Row 256) (hef : ∀ i, ∃ r : ℝ, ef i = (r : EReal))
    (hw : ∀ i, ∃ r : ℝ, w i = (r : EReal)) (hb : ∀ i, ∃ r : ℝ, bias i = (r : EReal)) :
    ∀ i, ∃ r : ℝ, feat ef w bias i = (r : EReal) := by
  choose fe hfe using hef
  choose fw hfw using hw
  choose fb hfb using hb
  intro i
  unfold feat
  simp only [hfe, hfw, hfb, ← EReal.coe_mul, sum_coe_real, ← EReal.coe_add]
  exact ⟨_, rfl⟩

/-- normalising after the sum over the edges is normalising before it, where the features are finite -/
theorem out_eq (be : Mat 256 32768) (h : Mat 32768 256) (hh : ∀ i, ∃ r : ℝ, h i = (r : EReal)) :
    outKernel be h = outRef be h := by
  choose fh hfh using hh
  funext i
  unfold outKernel outRef
  obtain ⟨c, hc⟩ := count_real be (i 0)
  rw [hc]
  obtain ⟨q, hq⟩ := recip_real c
  rw [hq]
  simp only [hfh, pick, ← EReal.coe_mul, sum_coe_real]
  refine congrArg (fun x : ℝ => (x : EReal)) ?_
  rw [Finset.sum_mul]
  exact Finset.sum_congr rfl (fun e _ => by ring)

end Cert.Spec

end
-- ==== Proof.Finite.lean ====
/-
  Finiteness from the precondition.

  The precondition is the conjunction, over the six input arrays, of "every entry has absolute value below plus
  infinity": each array's test is a comparison of |x| against the word of plus infinity, reduced by `and` over all
  axes into one bit, and the six bits are joined by `and`.  Read back: the conjunction being one gives each bit one;
  a reduction by `and` that is one met only ones; and on the extended reals `max x (-x) < ⊤` leaves neither ⊤
  (where the maximum is ⊤) nor ⊥ (where the maximum of ⊥ and ⊤ is ⊤ again), so `x` is a real.
  The statement is for edge_feats, weight and bias, the three arrays the edge features are built from.
-/
import proofs.«115778_j1580547965681_1_alg».proof.Pre_finite_inputs
import proofs.«115778_j1580547965681_1_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx

/-- The rank-0 shape has one index. -/
instance subsingleton_scalar : Subsingleton Cert.Pre_finite_inputs.S_.Idx := ⟨fun a b => funext fun d => d.elim0⟩

/-- The word `0x7F800000` is plus infinity. -/
theorem ofBits_inf : Ideal.ofBits .f32 0x7F800000#32 = ⊤ := by simp [Ideal.ofBits, Ideal.ieee]

/-- An extended real whose absolute value `max x (-x)` compares below plus infinity is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; revert h; simp [Ideal.cmp]
  | coe r => exact ⟨r, rfl⟩
  | top => exfalso; revert h; simp [Ideal.cmp]

/-- One array's test read back: the `and` over all axes of "|x| < +inf" being one makes every entry a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) :
    ∀ i, ∃ r : ℝ, x i = (r : EReal) := by
  intro i
  have hi := Host.reduce_andi_all _ _ hr hu ix0 e i
  exact real_of_abs_lt_inf (x i) hi

/-- under the printed precondition every entry of edge_feats, weight and bias is a real -/
theorem real_of_pre [Cert.Pre_finite_inputs.Facts] (a0 : FVec Ideal Cert.Pre_finite_inputs.S256x4096 .f32)
    (a1 : FVec Ideal Cert.Pre_finite_inputs.S4096x4096 .f32) (a2 : FVec Ideal Cert.Pre_finite_inputs.S4096x32768 .f32)
    (a3 : FVec Ideal Cert.Pre_finite_inputs.S32768x256 .f32) (a4 : FVec Ideal Cert.Pre_finite_inputs.S256x256 .f32)
    (a5 : FVec Ideal Cert.Pre_finite_inputs.S256 .f32)
    (h : Cert.Pre_finite_inputs.fn (F := Ideal) a0 a1 a2 a3 a4 a5 = fun _ => 1#1) :
    (∀ i, ∃ r : ℝ, a3 i = (r : EReal)) ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  exact ⟨real_of_all a3 _ _ _ h3, real_of_all a4 _ _ _ h4, real_of_all a5 _ _ _ h5⟩

end Cert.Finite

end
-- ==== Proof.lean ====
/-
  The certificate: a two-stage message-passing kernel against its plain reference, over the extended reals.

  Both programs compute, for 256 query rows, the features of the edges whose score is exactly two, averaged per row
  (Proof/Spec.lean): node scores  score = en · adj,  edge scores  hits = score · inc,  the selection  pick hits,  its
  per-row count, and the edge features  feat = ef · w + bias.  The kernel sums the selected features over the edges
  tile by tile and multiplies the row by the reciprocal of its count at the end; the reference scales every selection
  by that reciprocal first and contracts once.  The two arrangements agree wherever the features are finite
  (Proof/Algebra.lean `out_eq`), which the precondition gives (Proof/Finite.lean).

  The kernel's side: each of its two grid pipelines keeps running sums in scratch memory across grid points, so each
  region's frame is proved over an invariant that names the scratch after every point (Proof/R0Frame.lean,
  Proof/R1Frame.lean), the regions are composed with the reshape between them (Proof/Whole.lean), and the contents
  the write-backs leave are read back as the specification's functions of the launch arrays (Proof/R0Value.lean,
  Proof/R1Value.lean, Proof/KernelValue.lean).  The word-level program's frame is the same argument at the word
  instance.  The reference's side is its run read one operation at a time (Proof/RefValue.lean).
-/
import proofs.«115778_j1580547965681_1_alg».proof.Defs
import proofs.«115778_j1580547965681_1_alg».proof.Proof.Gen.Kernel
import proofs.«115778_j1580547965681_1_alg».proof.Proof.Gen.KernelIdeal
import proofs.«115778_j1580547965681_1_alg».proof.Proof.Gen.ReferenceIdeal
import proofs.«115778_j1580547965681_1_alg».proof.Proof.Gen.Pre_finite_inputs
import proofs.«115778_j1580547965681_1_alg».proof.Proof.WholeBits
import proofs.«115778_j1580547965681_1_alg».proof.Proof.KernelValue
import proofs.«115778_j1580547965681_1_alg».proof.Proof.RefValue
import proofs.«115778_j1580547965681_1_alg».proof.Proof.Algebra
import proofs.«115778_j1580547965681_1_alg».proof.Proof.Finite
import Idealize.ShloMosaic.Adequacy
import Idealize.ShloMosaic.Init

noncomputable section

namespace Cert.Proof

open Idealize.ShloMosaic Idealize.SL.Sem

/-- The word-level kernel runs to the end and leaves its six arguments as launched. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference's frame is its run with the result dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- From memories that agree on the arguments both programs end at one result: the kernel at the sum-then-normalise
    arrangement, the reference at the normalise-then-sum one, equal because the precondition makes every feature finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5⟩ := hagree c
  rw [h0, h1, h2, h3, h4, h5]
  obtain ⟨r3, r4, r5⟩ := @Cert.Finite.real_of_pre Cert.Pre_finite_inputs.Gen.facts _ _ _ _ _ _ (hpre c)
  exact (Cert.Spec.out_eq _ _ (Cert.Spec.feat_real _ _ _ r3 r4 r5)).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
